-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x512x256 : Shape := ⟨3, ![2, 512, 256]⟩
abbrev S4x1024x256 : Shape := ⟨3, ![4, 1024, 256]⟩
abbrev S4x128x256 : Shape := ⟨3, ![4, 128, 256]⟩
abbrev S32000x128 : Shape := ⟨2, ![32000, 128]⟩
abbrev S4x256 : Shape := ⟨2, ![4, 256]⟩
abbrev S32000x4 : Shape := ⟨2, ![32000, 4]⟩
abbrev S32000x1024 : Shape := ⟨2, ![32000, 1024]⟩
abbrev S_ : Shape := ⟨0, ![]⟩

class Facts : Prop where
  bcast_S_S2x512x256 : S_.BroadcastsInDim S2x512x256 (![] : Fin 0 → Fin S2x512x256.rank)
  reducesTo_S2x512x256_S_d0_1_2 : S2x512x256.ReducesTo [0, 1, 2] S_
  h_S_ : 0 < S_.numel
  bcast_S_S4x1024x256 : S_.BroadcastsInDim S4x1024x256 (![] : Fin 0 → Fin S4x1024x256.rank)
  reducesTo_S4x1024x256_S_d0_1_2 : S4x1024x256.ReducesTo [0, 1, 2] S_
  bcast_S_S4x128x256 : S_.BroadcastsInDim S4x128x256 (![] : Fin 0 → Fin S4x128x256.rank)
  reducesTo_S4x128x256_S_d0_1_2 : S4x128x256.ReducesTo [0, 1, 2] S_
  bcast_S_S32000x128 : S_.BroadcastsInDim S32000x128 (![] : Fin 0 → Fin S32000x128.rank)
  reducesTo_S32000x128_S_d0_1 : S32000x128.ReducesTo [0, 1] S_
  bcast_S_S4x256 : S_.BroadcastsInDim S4x256 (![] : Fin 0 → Fin S4x256.rank)
  reducesTo_S4x256_S_d0_1 : S4x256.ReducesTo [0, 1] S_
  bcast_S_S32000x4 : S_.BroadcastsInDim S32000x4 (![] : Fin 0 → Fin S32000x4.rank)
  reducesTo_S32000x4_S_d0_1 : S32000x4.ReducesTo [0, 1] S_
  bcast_S_S32000x1024 : S_.BroadcastsInDim S32000x1024 (![] : Fin 0 → Fin S32000x1024.rank)
  reducesTo_S32000x1024_S_d0_1 : S32000x1024.ReducesTo [0, 1] S_

variable [Facts]

def fn_part1 {F : FTy → Type} [FloatOps F] (main_arg4 : FVec F S4x256 .f32) (main_arg5 : FVec F S32000x4 .f32) (main_arg6 : FVec F S32000x1024 .f32) (main_v13 : IVec S_ 1) (main_v16 : IVec S32000x128 1) : IVec S_ 1 :=
  let main_c_5 : IVec S_ 1 := constantI S_ 1 1#1
  let main_v17 : IVec S_ 1 := (fun x v => Host.reduce IntOp.andi x v reducesTo_S32000x128_S_d0_1 h_S_) main_v16 main_c_5
  let main_v18 : IVec S_ 1 := andi main_v13 main_v17
  let main_v19 : FVec F S4x256 .f32 := Host.absf main_arg4
  let main_cst_6 : FVec F S_ .f32 := constant S_ .f32 0x7F800000#32
  let main_v20 : FVec F S4x256 .f32 := broadcastInDim S4x256 ![] bcast_S_S4x256 main_cst_6
  let main_v21 : IVec S4x256 1 := cmpf .olt main_v19 main_v20
  let main_c_7 : IVec S_ 1 := constantI S_ 1 1#1
  let main_v22 : IVec S_ 1 := (fun x v => Host.reduce IntOp.andi x v reducesTo_S4x256_S_d0_1 h_S_) main_v21 main_c_7
  let main_v23 : IVec S_ 1 := andi main_v18 main_v22
  let main_v24 : FVec F S32000x4 .f32 := Host.absf main_arg5
  let main_cst_8 : FVec F S_ .f32 := constant S_ .f32 0x7F800000#32
  let main_v25 : FVec F S32000x4 .f32 := broadcastInDim S32000x4 ![] bcast_S_S32000x4 main_cst_8
  let main_v26 : IVec S32000x4 1 := cmpf .olt main_v24 main_v25
  let main_c_9 : IVec S_ 1 := constantI S_ 1 1#1
  let main_v27 : IVec S_ 1 := (fun x v => Host.reduce IntOp.andi x v reducesTo_S32000x4_S_d0_1 h_S_) main_v26 main_c_9
  let main_v28 : IVec S_ 1 := andi main_v23 main_v27
  let main_v29 : FVec F S32000x1024 .f32 := Host.absf main_arg6
  let main_cst_10 : FVec F S_ .f32 := constant S_ .f32 0x7F800000#32
  let main_v30 : FVec F S32000x1024 .f32 := broadcastInDim S32000x1024 ![] bcast_S_S32000x1024 main_cst_10
  let main_v31 : IVec S32000x1024 1 := cmpf .olt main_v29 main_v30
  let main_c_11 : IVec S_ 1 := constantI S_ 1 1#1
  let main_v32 : IVec S_ 1 := (fun x v => Host.reduce IntOp.andi x v reducesTo_S32000x1024_S_d0_1 h_S_) main_v31 main_c_11
  let main_v33 : IVec S_ 1 := andi main_v28 main_v32
  main_v33

def fn {F : FTy → Type} [FloatOps F] (main_arg0 : FVec F S2x512x256 .f32) (main_arg1 : FVec F S4x1024x256 .f32) (main_arg2 : FVec F S4x128x256 .f32) (main_arg3 : FVec F S32000x128 .f32) (main_arg4 : FVec F S4x256 .f32) (main_arg5 : FVec F S32000x4 .f32) (main_arg6 : FVec F S32000x1024 .f32) : IVec S_ 1 :=
  let main_v0 : FVec F S2x512x256 .f32 := Host.absf main_arg0
  let main_cst : FVec F S_ .f32 := constant S_ .f32 0x7F800000#32
  let main_v1 : FVec F S2x512x256 .f32 := broadcastInDim S2x512x256 ![] bcast_S_S2x512x256 main_cst
  let main_v2 : IVec S2x512x256 1 := cmpf .olt main_v0 main_v1
  let main_c : IVec S_ 1 := constantI S_ 1 1#1
  let main_v3 : IVec S_ 1 := (fun x v => Host.reduce IntOp.andi x v reducesTo_S2x512x256_S_d0_1_2 h_S_) main_v2 main_c
  let main_v4 : FVec F S4x1024x256 .f32 := Host.absf main_arg1
  let main_cst_0 : FVec F S_ .f32 := constant S_ .f32 0x7F800000#32
  let main_v5 : FVec F S4x1024x256 .f32 := broadcastInDim S4x1024x256 ![] bcast_S_S4x1024x256 main_cst_0
  let main_v6 : IVec S4x1024x256 1 := cmpf .olt main_v4 main_v5
  let main_c_1 : IVec S_ 1 := constantI S_ 1 1#1
  let main_v7 : IVec S_ 1 := (fun x v => Host.reduce IntOp.andi x v reducesTo_S4x1024x256_S_d0_1_2 h_S_) main_v6 main_c_1
  let main_v8 : IVec S_ 1 := andi main_v3 main_v7
  let main_v9 : FVec F S4x128x256 .f32 := Host.absf main_arg2
  let main_cst_2 : FVec F S_ .f32 := constant S_ .f32 0x7F800000#32
  let main_v10 : FVec F S4x128x256 .f32 := broadcastInDim S4x128x256 ![] bcast_S_S4x128x256 main_cst_2
  let main_v11 : IVec S4x128x256 1 := cmpf .olt main_v9 main_v10
  let main_c_3 : IVec S_ 1 := constantI S_ 1 1#1
  let main_v12 : IVec S_ 1 := (fun x v => Host.reduce IntOp.andi x v reducesTo_S4x128x256_S_d0_1_2 h_S_) main_v11 main_c_3
  let main_v13 : IVec S_ 1 := andi main_v8 main_v12
  let main_v14 : FVec F S32000x128 .f32 := Host.absf main_arg3
  let main_cst_4 : FVec F S_ .f32 := constant S_ .f32 0x7F800000#32
  let main_v15 : FVec F S32000x128 .f32 := broadcastInDim S32000x128 ![] bcast_S_S32000x128 main_cst_4
  let main_v16 : IVec S32000x128 1 := cmpf .olt main_v14 main_v15
  fn_part1 (F := F) main_arg4 main_arg5 main_arg6 main_v13 main_v16
-- ==== Kernel.lean ====
abbrev S2x512x256 : Shape := ⟨3, ![2, 512, 256]⟩
abbrev S4x1024x256 : Shape := ⟨3, ![4, 1024, 256]⟩
abbrev S4x128x256 : Shape := ⟨3, ![4, 128, 256]⟩
abbrev S32000x128 : Shape := ⟨2, ![32000, 128]⟩
abbrev S4x256 : Shape := ⟨2, ![4, 256]⟩
abbrev S32000x4 : Shape := ⟨2, ![32000, 4]⟩
abbrev S32000x1024 : Shape := ⟨2, ![32000, 1024]⟩
abbrev S1024x256 : Shape := ⟨2, ![1024, 256]⟩
abbrev S4x32000 : Shape := ⟨2, ![4, 32000]⟩
abbrev S1024x4x1024 : Shape := ⟨3, ![1024, 4, 1024]⟩
abbrev S1024x4x128 : Shape := ⟨3, ![1024, 4, 128]⟩
abbrev S1024x4 : Shape := ⟨2, ![1024, 4]⟩
abbrev S256x256 : Shape := ⟨2, ![256, 256]⟩
abbrev S256x4x1024 : Shape := ⟨3, ![256, 4, 1024]⟩
abbrev S256x4x128 : Shape := ⟨3, ![256, 4, 128]⟩
abbrev S256x4 : Shape := ⟨2, ![256, 4]⟩
abbrev S1x1024x256 : Shape := ⟨3, ![1, 1024, 256]⟩
abbrev S256x1024 : Shape := ⟨2, ![256, 1024]⟩
abbrev S256x1x1024 : Shape := ⟨3, ![256, 1, 1024]⟩
abbrev S1x128x256 : Shape := ⟨3, ![1, 128, 256]⟩
abbrev S128x256 : Shape := ⟨2, ![128, 256]⟩
abbrev S256x128 : Shape := ⟨2, ![256, 128]⟩
abbrev S256x1x128 : Shape := ⟨3, ![256, 1, 128]⟩
abbrev S1024x32000 : Shape := ⟨2, ![1024, 32000]⟩
abbrev S128x4x128 : Shape := ⟨3, ![128, 4, 128]⟩
abbrev S128x4x1024 : Shape := ⟨3, ![128, 4, 1024]⟩
abbrev S128x4 : Shape := ⟨2, ![128, 4]⟩
abbrev S3200x128 : Shape := ⟨2, ![3200, 128]⟩
abbrev S3200x1024 : Shape := ⟨2, ![3200, 1024]⟩
abbrev S4x3200 : Shape := ⟨2, ![4, 3200]⟩
abbrev S128x3200 : Shape := ⟨2, ![128, 3200]⟩
abbrev S128x1x128 : Shape := ⟨3, ![128, 1, 128]⟩
abbrev S128x128 : Shape := ⟨2, ![128, 128]⟩
abbrev S128x1 : Shape := ⟨2, ![128, 1]⟩
abbrev S1x3200 : Shape := ⟨2, ![1, 3200]⟩
abbrev S128x1x1024 : Shape := ⟨3, ![128, 1, 1024]⟩
abbrev S128x1024 : Shape := ⟨2, ![128, 1024]⟩
abbrev S2x512x32000 : Shape := ⟨3, ![2, 512, 32000]⟩
abbrev S_ : Shape := ⟨0, ![]⟩
abbrev S2x512 : Shape := ⟨2, ![2, 512]⟩
abbrev S2x512x1 : Shape := ⟨3, ![2, 512, 1]⟩

abbrev nBuf : Space → Nat
  | .hbm => 34
  | .vmem => 25
  | .smem => 0
  | _ => 0

abbrev bufTy : (tb : Table) → Fin (tcTables nBuf tb) → BufTy
  | .hbm, ⟨0, _⟩ => ⟨S2x512x256, .f32⟩
  | .hbm, ⟨1, _⟩ => ⟨S4x1024x256, .f32⟩
  | .hbm, ⟨2, _⟩ => ⟨S4x128x256, .f32⟩
  | .hbm, ⟨3, _⟩ => ⟨S32000x128, .f32⟩
  | .hbm, ⟨4, _⟩ => ⟨S4x256, .f32⟩
  | .hbm, ⟨5, _⟩ => ⟨S32000x4, .f32⟩
  | .hbm, ⟨6, _⟩ => ⟨S32000x1024, .f32⟩
  | .hbm, ⟨7, _⟩ => ⟨S1024x256, .f32⟩
  | .hbm, ⟨8, _⟩ => ⟨S1024x256, .bf16⟩
  | .hbm, ⟨9, _⟩ => ⟨S4x1024x256, .bf16⟩
  | .hbm, ⟨10, _⟩ => ⟨S4x128x256, .bf16⟩
  | .hbm, ⟨11, _⟩ => ⟨S4x256, .bf16⟩
  | .hbm, ⟨12, _⟩ => ⟨S32000x128, .bf16⟩
  | .hbm, ⟨13, _⟩ => ⟨S32000x1024, .bf16⟩
  | .hbm, ⟨14, _⟩ => ⟨S4x32000, .f32⟩
  | .hbm, ⟨15, _⟩ => ⟨S1024x4x1024, .bf16⟩
  | .hbm, ⟨16, _⟩ => ⟨S1024x4x128, .bf16⟩
  | .hbm, ⟨17, _⟩ => ⟨S1024x4, .f32⟩
  | .hbm, ⟨18, _⟩ => ⟨S1024x32000, .f32⟩
  | .hbm, ⟨19, _⟩ => ⟨S2x512x32000, .f32⟩
  | .hbm, ⟨20, _⟩ => ⟨S_, .f32⟩
  | .hbm, ⟨21, _⟩ => ⟨S2x512, .f32⟩
  | .hbm, ⟨22, _⟩ => ⟨S_, .f32⟩
  | .hbm, ⟨23, _⟩ => ⟨S2x512, .f32⟩
  | .hbm, ⟨24, _⟩ => ⟨S2x512, .f32⟩
  | .hbm, ⟨25, _⟩ => ⟨S2x512x1, .f32⟩
  | .hbm, ⟨26, _⟩ => ⟨S2x512x32000, .f32⟩
  | .hbm, ⟨27, _⟩ => ⟨S2x512x32000, .f32⟩
  | .hbm, ⟨28, _⟩ => ⟨S2x512x32000, .f32⟩
  | .hbm, ⟨29, _⟩ => ⟨S_, .f32⟩
  | .hbm, ⟨30, _⟩ => ⟨S2x512, .f32⟩
  | .hbm, ⟨31, _⟩ => ⟨S2x512x1, .f32⟩
  | .hbm, ⟨32, _⟩ => ⟨S2x512x32000, .f32⟩
  | .hbm, ⟨33, _⟩ => ⟨S2x512x32000, .f32⟩
  | .local _ .vmem, ⟨0, _⟩ => ⟨S256x256, .bf16⟩
  | .local _ .vmem, ⟨1, _⟩ => ⟨S256x256, .bf16⟩
  | .local _ .vmem, ⟨2, _⟩ => ⟨S4x1024x256, .bf16⟩
  | .local _ .vmem, ⟨3, _⟩ => ⟨S4x128x256, .bf16⟩
  | .local _ .vmem, ⟨4, _⟩ => ⟨S4x256, .bf16⟩
  | .local _ .vmem, ⟨5, _⟩ => ⟨S256x4x1024, .bf16⟩
  | .local _ .vmem, ⟨6, _⟩ => ⟨S256x4x1024, .bf16⟩
  | .local _ .vmem, ⟨7, _⟩ => ⟨S256x4x128, .bf16⟩
  | .local _ .vmem, ⟨8, _⟩ => ⟨S256x4x128, .bf16⟩
  | .local _ .vmem, ⟨9, _⟩ => ⟨S256x4, .f32⟩
  | .local _ .vmem, ⟨10, _⟩ => ⟨S256x4, .f32⟩
  | .local _ .vmem, ⟨11, _⟩ => ⟨S128x4x128, .bf16⟩
  | .local _ .vmem, ⟨12, _⟩ => ⟨S128x4x128, .bf16⟩
  | .local _ .vmem, ⟨13, _⟩ => ⟨S128x4x1024, .bf16⟩
  | .local _ .vmem, ⟨14, _⟩ => ⟨S128x4x1024, .bf16⟩
  | .local _ .vmem, ⟨15, _⟩ => ⟨S128x4, .f32⟩
  | .local _ .vmem, ⟨16, _⟩ => ⟨S128x4, .f32⟩
  | .local _ .vmem, ⟨17, _⟩ => ⟨S3200x128, .bf16⟩
  | .local _ .vmem, ⟨18, _⟩ => ⟨S3200x128, .bf16⟩
  | .local _ .vmem, ⟨19, _⟩ => ⟨S3200x1024, .bf16⟩
  | .local _ .vmem, ⟨20, _⟩ => ⟨S3200x1024, .bf16⟩
  | .local _ .vmem, ⟨21, _⟩ => ⟨S4x3200, .f32⟩
  | .local _ .vmem, ⟨22, _⟩ => ⟨S4x3200, .f32⟩
  | .local _ .vmem, ⟨23, _⟩ => ⟨S128x3200, .f32⟩
  | .local _ .vmem, ⟨24, _⟩ => ⟨S128x3200, .f32⟩
  | _, _ => ⟨S2x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc1_stg6_0 : Ref sig .tc := ⟨.vmem, 23, rfl⟩
abbrev cc1_stg6_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20
abbrev cc1_sem5_0 : DmaSem sig := 21
abbrev cc1_sem5_1 : DmaSem sig := 22
abbrev cc1_sem6_0 : DmaSem sig := 23
abbrev cc1_sem6_1 : DmaSem sig := 24

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![10, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S128x4x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S128x4x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S128x4 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S3200x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S3200x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S4x3200 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S128x3200 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

class Facts₀ : Prop where
  shapeCasts_S2x512x256_S1024x256 : S2x512x256.ShapeCasts S1024x256
  bitsLt_bf16_f32 : FTy.bits .bf16 < FTy.bits .f32
  transposes_S32000x4_S4x32000_1_0 : S32000x4.Transposes [1, 0] S4x32000
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S4x1024x256_S1x1024x256_0_0_0 : ∀ a, (![0, 0, 0] : Fin 3 → Nat) a + S1x1024x256.size a ≤ S4x1024x256.size a
  h_S1x1024x256 : 0 < S1x1024x256.numel
  shapeCasts_S1x1024x256_S1024x256 : S1x1024x256.ShapeCasts S1024x256
  shapeCasts_S256x1024_S256x1x1024 : S256x1024.ShapeCasts S256x1x1024
  inb_S4x128x256_S1x128x256_0_0_0 : ∀ a, (![0, 0, 0] : Fin 3 → Nat) a + S1x128x256.size a ≤ S4x128x256.size a
  h_S1x128x256 : 0 < S1x128x256.numel
  shapeCasts_S1x128x256_S128x256 : S1x128x256.ShapeCasts S128x256
  shapeCasts_S256x128_S256x1x128 : S256x128.ShapeCasts S256x1x128
  inb_S4x1024x256_S1x1024x256_1_0_0 : ∀ a, (![1, 0, 0] : Fin 3 → Nat) a + S1x1024x256.size a ≤ S4x1024x256.size a
  inb_S4x128x256_S1x128x256_1_0_0 : ∀ a, (![1, 0, 0] : Fin 3 → Nat) a + S1x128x256.size a ≤ S4x128x256.size a
  inb_S4x1024x256_S1x1024x256_2_0_0 : ∀ a, (![2, 0, 0] : Fin 3 → Nat) a + S1x1024x256.size a ≤ S4x1024x256.size a
  inb_S4x128x256_S1x128x256_2_0_0 : ∀ a, (![2, 0, 0] : Fin 3 → Nat) a + S1x128x256.size a ≤ S4x128x256.size a
  inb_S4x1024x256_S1x1024x256_3_0_0 : ∀ a, (![3, 0, 0] : Fin 3 → Nat) a + S1x1024x256.size a ≤ S4x1024x256.size a
  inb_S4x128x256_S1x128x256_3_0_0 : ∀ a, (![3, 0, 0] : Fin 3 → Nat) a + S1x128x256.size a ≤ S4x128x256.size a
  concatenates_S256x1x1024_S256x1x1024_S256x1x1024_S256x1x1024_S256x4x1024_d1 : Shape.Concatenates [S256x1x1024, S256x1x1024, S256x1x1024, S256x1x1024] S256x4x1024 1
  inb_S256x4x1024_S256x4x1024_0_0_0 : ∀ a, (![0, 0, 0] : Fin 3 → Nat) a + S256x4x1024.size a ≤ S256x4x1024.size a
  h_S256x4x1024 : 0 < S256x4x1024.numel
  packedbf16_S256x4x1024_S256x4x1024_0_0_0 : (Rect.unit (s := S256x4x1024) ![0, 0, 0] S256x4x1024.size inb_S256x4x1024_S256x4x1024_0_0_0).PackedRows (EltTy.packing .bf16)
  concatenates_S256x1x128_S256x1x128_S256x1x128_S256x1x128_S256x4x128_d1 : Shape.Concatenates [S256x1x128, S256x1x128, S256x1x128, S256x1x128] S256x4x128 1
  inb_S256x4x128_S256x4x128_0_0_0 : ∀ a, (![0, 0, 0] : Fin 3 → Nat) a + S256x4x128.size a ≤ S256x4x128.size a
  h_S256x4x128 : 0 < S256x4x128.numel
  packedbf16_S256x4x128_S256x4x128_0_0_0 : (Rect.unit (s := S256x4x128) ![0, 0, 0] S256x4x128.size inb_S256x4x128_S256x4x128_0_0_0).PackedRows (EltTy.packing .bf16)
  inb_S4x256_S4x256_0_0 : ∀ a, (![0, 0] : Fin 2 → Nat) a + S4x256.size a ≤ S4x256.size a
  h_S4x256 : 0 < S4x256.numel
  shapeCasts_S4x256_S4x256 : S4x256.ShapeCasts S4x256
  inb_S256x4_S256x4_0_0 : ∀ a, (![0, 0] : Fin 2 → Nat) a + S256x4.size a ≤ S256x4.size a
  h_S256x4 : 0 < S256x4.numel
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  inb_S3200x1024_S3200x1024_0_0 : ∀ a, (![0, 0] : Fin 2 → Nat) a + S3200x1024.size a ≤ S3200x1024.size a
  h_S3200x1024 : 0 < S3200x1024.numel
  shapeCasts_S3200x1024_S3200x1024 : S3200x1024.ShapeCasts S3200x1024
  inb_S128x4_S128x4_0_0 : ∀ a, (![0, 0] : Fin 2 → Nat) a + S128x4.size a ≤ S128x4.size a
  h_S128x4 : 0 < S128x4.numel
  shapeCasts_S128x4_S128x4 : S128x4.ShapeCasts S128x4
  inb_S4x3200_S4x3200_0_0 : ∀ a, (![0, 0] : Fin 2 → Nat) a + S4x3200.size a ≤ S4x3200.size a
  h_S4x3200 : 0 < S4x3200.numel
  shapeCasts_S4x3200_S4x3200 : S4x3200.ShapeCasts S4x3200
  inb_S128x4x128_S128x4x128_0_0_0 : ∀ a, (![0, 0, 0] : Fin 3 → Nat) a + S128x4x128.size a ≤ S128x4x128.size a
  h_S128x4x128 : 0 < S128x4x128.numel
  shapeCasts_S128x4x128_S128x4x128 : S128x4x128.ShapeCasts S128x4x128
  inb_S128x4x1024_S128x4x1024_0_0_0 : ∀ a, (![0, 0, 0] : Fin 3 → Nat) a + S128x4x1024.size a ≤ S128x4x1024.size a
  h_S128x4x1024 : 0 < S128x4x1024.numel
  shapeCasts_S128x4x1024_S128x4x1024 : S128x4x1024.ShapeCasts S128x4x1024
  slices_S128x4x128_o0_0_0_S128x1x128 : S128x4x128.Slices ![0, 0, 0] S128x1x128
  shapeCasts_S128x1x128_S128x128 : S128x1x128.ShapeCasts S128x128
  slices_S128x4_o0_0_S128x1 : S128x4.Slices ![0, 0] S128x1
  broadcasts_S128x1_S128x3200 : S128x1.Broadcasts S128x3200
  slices_S4x3200_o0_0_S1x3200 : S4x3200.Slices ![0, 0] S1x3200
  broadcasts_S1x3200_S128x3200 : S1x3200.Broadcasts S128x3200
  slices_S128x4x128_o0_1_0_S128x1x128 : S128x4x128.Slices ![0, 1, 0] S128x1x128
  slices_S128x4_o0_1_S128x1 : S128x4.Slices ![0, 1] S128x1
  slices_S4x3200_o1_0_S1x3200 : S4x3200.Slices ![1, 0] S1x3200
  slices_S128x4x128_o0_2_0_S128x1x128 : S128x4x128.Slices ![0, 2, 0] S128x1x128
  slices_S128x4_o0_2_S128x1 : S128x4.Slices ![0, 2] S128x1
  slices_S4x3200_o2_0_S1x3200 : S4x3200.Slices ![2, 0] S1x3200
  slices_S128x4x1024_o0_0_0_S128x1x1024 : S128x4x1024.Slices ![0, 0, 0] S128x1x1024
  shapeCasts_S128x1x1024_S128x1024 : S128x1x1024.ShapeCasts S128x1024
  slices_S128x4x1024_o0_1_0_S128x1x1024 : S128x4x1024.Slices ![0, 1, 0] S128x1x1024
  slices_S128x4x1024_o0_2_0_S128x1x1024 : S128x4x1024.Slices ![0, 2, 0] S128x1x1024
  slices_S128x4x1024_o0_3_0_S128x1x1024 : S128x4x1024.Slices ![0, 3, 0] S128x1x1024
  inb_S128x3200_S128x3200_0_0 : ∀ a, (![0, 0] : Fin 2 → Nat) a + S128x3200.size a ≤ S128x3200.size a
  h_S128x3200 : 0 < S128x3200.numel
  shapeCasts_S1024x32000_S2x512x32000 : S1024x32000.ShapeCasts S2x512x32000
  reducesTo_S2x512x32000_S2x512_d2 : S2x512x32000.ReducesTo [2] S2x512
  h_S_ : 0 < S_.numel
  bcast_S_S2x512 : S_.BroadcastsInDim S2x512 (![] : Fin 0 → Fin S2x512.rank)
  bcast_S2x512_S2x512x1_0_1 : S2x512.BroadcastsInDim S2x512x1 (![0, 1] : Fin 2 → Fin S2x512x1.rank)
  bcast_S2x512x1_S2x512x32000_0_1_2 : S2x512x1.BroadcastsInDim S2x512x32000 (![0, 1, 2] : Fin 3 → Fin S2x512x32000.rank)
  dot_S256x256_S1024x256_S256x1024_1_1_0_0_n_n_wf : DotDims.WF S256x256 S1024x256 S256x1024 [1] [1] [0] [0] [] []
  dot_S256x256_S128x256_S256x128_1_1_0_0_n_n_wf : DotDims.WF S256x256 S128x256 S256x128 [1] [1] [0] [0] [] []
  dot_S256x256_S4x256_S256x4_1_1_0_0_n_n_wf : DotDims.WF S256x256 S4x256 S256x4 [1] [1] [0] [0] [] []
  dot_S128x128_S3200x128_S128x3200_1_1_0_0_n_n_wf : DotDims.WF S128x128 S3200x128 S128x3200 [1] [1] [0] [0] [] []
  dot_S128x1024_S3200x1024_S128x3200_1_1_0_0_n_n_wf : DotDims.WF S128x1024 S3200x1024 S128x3200 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S1024x256.size a
  hwx0_0 : ∀ i : grid0.Coords, EltTy.bits .bf16 = 32 ∨ (Rect.block (s := S1024x256) S256x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x1024x256.size a ≤ S4x1024x256.size a
  hwx0_1 : ∀ i : grid0.Coords, EltTy.bits .bf16 = 32 ∨ (Rect.block (s := S4x1024x256) S4x1024x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x128x256.size a ≤ S4x128x256.size a
  hwx0_2 : ∀ i : grid0.Coords, EltTy.bits .bf16 = 32 ∨ (Rect.block (s := S4x128x256) S4x128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x256.size a ≤ S4x256.size a
  hwx0_3 : ∀ i : grid0.Coords, EltTy.bits .bf16 = 32 ∨ (Rect.block (s := S4x256) S4x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4x1024.size a ≤ S1024x4x1024.size a
  hwx0_4 : ∀ i : grid0.Coords, EltTy.bits .bf16 = 32 ∨ (Rect.block (s := S1024x4x1024) S256x4x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x4x128.size a ≤ S1024x4x128.size a
  hwx0_5 : ∀ i : grid0.Coords, EltTy.bits .bf16 = 32 ∨ (Rect.block (s := S1024x4x128) S256x4x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x4.size a ≤ S1024x4.size a
  hwx0_6 : ∀ i : grid0.Coords, EltTy.bits .f32 = 32 ∨ (Rect.block (s := S1024x4) S256x4.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x4x128.size a ≤ S1024x4x128.size a
  hwx1_0 : ∀ i : grid1.Coords, EltTy.bits .bf16 = 32 ∨ (Rect.block (s := S1024x4x128) S128x4x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x4x1024.size a ≤ S1024x4x1024.size a
  hwx1_1 : ∀ i : grid1.Coords, EltTy.bits .bf16 = 32 ∨ (Rect.block (s := S1024x4x1024) S128x4x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x4.size a ≤ S1024x4.size a
  hwx1_2 : ∀ i : grid1.Coords, EltTy.bits .f32 = 32 ∨ (Rect.block (s := S1024x4) S128x4.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S3200x128.size a ≤ S32000x128.size a
  hwx1_3 : ∀ i : grid1.Coords, EltTy.bits .bf16 = 32 ∨ (Rect.block (s := S32000x128) S3200x128.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S3200x1024.size a ≤ S32000x1024.size a
  hwx1_4 : ∀ i : grid1.Coords, EltTy.bits .bf16 = 32 ∨ (Rect.block (s := S32000x1024) S3200x1024.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4x3200.size a ≤ S4x32000.size a
  hwx1_5 : ∀ i : grid1.Coords, EltTy.bits .f32 = 32 ∨ (Rect.block (s := S4x32000) S4x3200.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S128x3200.size a ≤ S1024x32000.size a
  hwx1_6 : ∀ i : grid1.Coords, EltTy.bits .f32 = 32 ∨ (Rect.block (s := S1024x32000) S128x3200.size (cc1_transform_6 i) (hinb1_6 i)).WholeWords (EltTy.packing .f32)

variable [Facts₀]

def dot_S256x256_S1024x256_S256x1024_1_1_0_0_n_n : DotDims S256x256 S1024x256 S256x1024 where
  lhsContracting := [1]
  rhsContracting := [1]
  lhsNonContracting := [0]
  rhsNonContracting := [0]
  lhsBatch := []
  rhsBatch := []
  wf := dot_S256x256_S1024x256_S256x1024_1_1_0_0_n_n_wf
def dot_S256x256_S128x256_S256x128_1_1_0_0_n_n : DotDims S256x256 S128x256 S256x128 where
  lhsContracting := [1]
  rhsContracting := [1]
  lhsNonContracting := [0]
  rhsNonContracting := [0]
  lhsBatch := []
  rhsBatch := []
  wf := dot_S256x256_S128x256_S256x128_1_1_0_0_n_n_wf
def dot_S256x256_S4x256_S256x4_1_1_0_0_n_n : DotDims S256x256 S4x256 S256x4 where
  lhsContracting := [1]
  rhsContracting := [1]
  lhsNonContracting := [0]
  rhsNonContracting := [0]
  lhsBatch := []
  rhsBatch := []
  wf := dot_S256x256_S4x256_S256x4_1_1_0_0_n_n_wf
def dot_S128x128_S3200x128_S128x3200_1_1_0_0_n_n : DotDims S128x128 S3200x128 S128x3200 where
  lhsContracting := [1]
  rhsContracting := [1]
  lhsNonContracting := [0]
  rhsNonContracting := [0]
  lhsBatch := []
  rhsBatch := []
  wf := dot_S128x128_S3200x128_S128x3200_1_1_0_0_n_n_wf
def dot_S128x1024_S3200x1024_S128x3200_1_1_0_0_n_n : DotDims S128x1024 S3200x1024 S128x3200 where
  lhsContracting := [1]
  rhsContracting := [1]
  lhsNonContracting := [0]
  rhsNonContracting := [0]
  lhsBatch := []
  rhsBatch := []
  wf := dot_S128x1024_S3200x1024_S128x3200_1_1_0_0_n_n_wf

abbrev win0_0 : Pipeline.Window sig grid0 :=
  Pipeline.Window.ofSpec (Memref.whole main_v1) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4x1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S4x128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S4x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8_0) S256x4x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8_1) S256x4x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8_2) S256x4.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v8_1) S128x4x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8_0) S128x4x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8_2) S128x4.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S3200x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v6) S3200x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v7) S4x3200.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v9) S128x3200.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S2x512x256 : Shape := ⟨3, ![2, 512, 256]⟩
abbrev S4x1024x256 : Shape := ⟨3, ![4, 1024, 256]⟩
abbrev S4x128x256 : Shape := ⟨3, ![4, 128, 256]⟩
abbrev S32000x128 : Shape := ⟨2, ![32000, 128]⟩
abbrev S4x256 : Shape := ⟨2, ![4, 256]⟩
abbrev S32000x4 : Shape := ⟨2, ![32000, 4]⟩
abbrev S32000x1024 : Shape := ⟨2, ![32000, 1024]⟩
abbrev S2x512x4x1024 : Shape := ⟨4, ![2, 512, 4, 1024]⟩
abbrev S2x512x4x128 : Shape := ⟨4, ![2, 512, 4, 128]⟩
abbrev S2x512x4x32000 : Shape := ⟨4, ![2, 512, 4, 32000]⟩
abbrev S2x512x32000x4 : Shape := ⟨4, ![2, 512, 32000, 4]⟩
abbrev S2x512x4 : Shape := ⟨3, ![2, 512, 4]⟩
abbrev S2x512x1x4 : Shape := ⟨4, ![2, 512, 1, 4]⟩
abbrev S1x1x32000x4 : Shape := ⟨4, ![1, 1, 32000, 4]⟩
abbrev S2x512x32000x3 : Shape := ⟨4, ![2, 512, 32000, 3]⟩
abbrev S_ : Shape := ⟨0, ![]⟩
abbrev S2x512x32000x1 : Shape := ⟨4, ![2, 512, 32000, 1]⟩
abbrev S2x512x32000 : Shape := ⟨3, ![2, 512, 32000]⟩
abbrev S32000x2x512x4 : Shape := ⟨4, ![32000, 2, 512, 4]⟩
abbrev S2x512 : Shape := ⟨2, ![2, 512]⟩
abbrev S2x512x1 : Shape := ⟨3, ![2, 512, 1]⟩

abbrev nBuf : Space → Nat
  | .hbm => 75
  | .vmem => 0
  | .smem => 0
  | _ => 0

abbrev bufTy : (tb : Table) → Fin (tcTables nBuf tb) → BufTy
  | .hbm, ⟨0, _⟩ => ⟨S2x512x256, .f32⟩
  | .hbm, ⟨1, _⟩ => ⟨S4x1024x256, .f32⟩
  | .hbm, ⟨2, _⟩ => ⟨S4x128x256, .f32⟩
  | .hbm, ⟨3, _⟩ => ⟨S32000x128, .f32⟩
  | .hbm, ⟨4, _⟩ => ⟨S4x256, .f32⟩
  | .hbm, ⟨5, _⟩ => ⟨S32000x4, .f32⟩
  | .hbm, ⟨6, _⟩ => ⟨S32000x1024, .f32⟩
  | .hbm, ⟨7, _⟩ => ⟨S2x512x4x1024, .f32⟩
  | .hbm, ⟨8, _⟩ => ⟨S2x512x4x1024, .f32⟩
  | .hbm, ⟨9, _⟩ => ⟨S2x512x4x128, .f32⟩
  | .hbm, ⟨10, _⟩ => ⟨S2x512x4x128, .f32⟩
  | .hbm, ⟨11, _⟩ => ⟨S2x512x4x32000, .f32⟩
  | .hbm, ⟨12, _⟩ => ⟨S2x512x32000x4, .f32⟩
  | .hbm, ⟨13, _⟩ => ⟨S2x512x4, .f32⟩
  | .hbm, ⟨14, _⟩ => ⟨S2x512x1x4, .f32⟩
  | .hbm, ⟨15, _⟩ => ⟨S2x512x32000x4, .f32⟩
  | .hbm, ⟨16, _⟩ => ⟨S2x512x32000x4, .f32⟩
  | .hbm, ⟨17, _⟩ => ⟨S1x1x32000x4, .f32⟩
  | .hbm, ⟨18, _⟩ => ⟨S2x512x32000x4, .f32⟩
  | .hbm, ⟨19, _⟩ => ⟨S2x512x32000x4, .f32⟩
  | .hbm, ⟨20, _⟩ => ⟨S2x512x32000x3, .f32⟩
  | .hbm, ⟨21, _⟩ => ⟨S2x512x32000x3, .f32⟩
  | .hbm, ⟨22, _⟩ => ⟨S2x512x32000x3, .f32⟩
  | .hbm, ⟨23, _⟩ => ⟨S_, .f32⟩
  | .hbm, ⟨24, _⟩ => ⟨S2x512x32000x3, .f32⟩
  | .hbm, ⟨25, _⟩ => ⟨S2x512x32000x3, .f32⟩
  | .hbm, ⟨26, _⟩ => ⟨S_, .f32⟩
  | .hbm, ⟨27, _⟩ => ⟨S2x512x32000x3, .f32⟩
  | .hbm, ⟨28, _⟩ => ⟨S2x512x32000x3, .f32⟩
  | .hbm, ⟨29, _⟩ => ⟨S2x512x32000x1, .f32⟩
  | .hbm, ⟨30, _⟩ => ⟨S2x512x32000, .f32⟩
  | .hbm, ⟨31, _⟩ => ⟨S2x512x32000x1, .f32⟩
  | .hbm, ⟨32, _⟩ => ⟨S2x512x32000, .f32⟩
  | .hbm, ⟨33, _⟩ => ⟨S2x512x32000x1, .f32⟩
  | .hbm, ⟨34, _⟩ => ⟨S2x512x32000, .f32⟩
  | .hbm, ⟨35, _⟩ => ⟨S2x512x32000, .f32⟩
  | .hbm, ⟨36, _⟩ => ⟨S_, .f32⟩
  | .hbm, ⟨37, _⟩ => ⟨S2x512x32000, .f32⟩
  | .hbm, ⟨38, _⟩ => ⟨S2x512x32000, .f32⟩
  | .hbm, ⟨39, _⟩ => ⟨S2x512x32000, .f32⟩
  | .hbm, ⟨40, _⟩ => ⟨S_, .f32⟩
  | .hbm, ⟨41, _⟩ => ⟨S2x512x32000, .f32⟩
  | .hbm, ⟨42, _⟩ => ⟨S2x512x32000, .f32⟩
  | .hbm, ⟨43, _⟩ => ⟨S2x512x32000, .f32⟩
  | .hbm, ⟨44, _⟩ => ⟨S_, .f32⟩
  | .hbm, ⟨45, _⟩ => ⟨S2x512x32000, .f32⟩
  | .hbm, ⟨46, _⟩ => ⟨S2x512x32000, .f32⟩
  | .hbm, ⟨47, _⟩ => ⟨S_, .f32⟩
  | .hbm, ⟨48, _⟩ => ⟨S2x512x32000, .f32⟩
  | .hbm, ⟨49, _⟩ => ⟨S2x512x32000, .f32⟩
  | .hbm, ⟨50, _⟩ => ⟨S2x512x32000, .f32⟩
  | .hbm, ⟨51, _⟩ => ⟨S2x512x32000x1, .f32⟩
  | .hbm, ⟨52, _⟩ => ⟨S2x512x32000x1, .f32⟩
  | .hbm, ⟨53, _⟩ => ⟨S2x512x32000x1, .f32⟩
  | .hbm, ⟨54, _⟩ => ⟨S2x512x32000x1, .f32⟩
  | .hbm, ⟨55, _⟩ => ⟨S2x512x32000x4, .f32⟩
  | .hbm, ⟨56, _⟩ => ⟨S32000x2x512x4, .f32⟩
  | .hbm, ⟨57, _⟩ => ⟨S2x512x32000x4, .f32⟩
  | .hbm, ⟨58, _⟩ => ⟨S2x512x32000x4, .f32⟩
  | .hbm, ⟨59, _⟩ => ⟨S_, .f32⟩
  | .hbm, ⟨60, _⟩ => ⟨S2x512x32000, .f32⟩
  | .hbm, ⟨61, _⟩ => ⟨S_, .f32⟩
  | .hbm, ⟨62, _⟩ => ⟨S2x512, .f32⟩
  | .hbm, ⟨63, _⟩ => ⟨S_, .f32⟩
  | .hbm, ⟨64, _⟩ => ⟨S2x512, .f32⟩
  | .hbm, ⟨65, _⟩ => ⟨S2x512, .f32⟩
  | .hbm, ⟨66, _⟩ => ⟨S2x512x1, .f32⟩
  | .hbm, ⟨67, _⟩ => ⟨S2x512x32000, .f32⟩
  | .hbm, ⟨68, _⟩ => ⟨S2x512x32000, .f32⟩
  | .hbm, ⟨69, _⟩ => ⟨S2x512x32000, .f32⟩
  | .hbm, ⟨70, _⟩ => ⟨S_, .f32⟩
  | .hbm, ⟨71, _⟩ => ⟨S2x512, .f32⟩
  | .hbm, ⟨72, _⟩ => ⟨S2x512x1, .f32⟩
  | .hbm, ⟨73, _⟩ => ⟨S2x512x32000, .f32⟩
  | .hbm, ⟨74, _⟩ => ⟨S2x512x32000, .f32⟩
  | _, _ => ⟨S2x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_1 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_2 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_5 : Ref sig .tc := ⟨.hbm, 59, rfl⟩
abbrev main_v46 : Ref sig .tc := ⟨.hbm, 60, rfl⟩
abbrev main_cst_6 : Ref sig .tc := ⟨.hbm, 61, rfl⟩
abbrev main_v47 : Ref sig .tc := ⟨.hbm, 62, rfl⟩
abbrev main_cst_7 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_8 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩

abbrev nD : Nat := 1
abbrev τ : Topo := Topo.v7x

variable {F : FTy → Type} [FloatOps F]

class Facts₀ : Prop where
  transposes_S2x512x4x32000_S2x512x32000x4_0_1_3_2 : S2x512x4x32000.Transposes [0, 1, 3, 2] S2x512x32000x4
  bcast_S2x512x4_S2x512x1x4_0_1_3 : S2x512x4.BroadcastsInDim S2x512x1x4 (![0, 1, 3] : Fin 3 → Fin S2x512x1x4.rank)
  bcast_S2x512x1x4_S2x512x32000x4_0_1_2_3 : S2x512x1x4.BroadcastsInDim S2x512x32000x4 (![0, 1, 2, 3] : Fin 4 → Fin S2x512x32000x4.rank)
  bcast_S32000x4_S1x1x32000x4_2_3 : S32000x4.BroadcastsInDim S1x1x32000x4 (![2, 3] : Fin 2 → Fin S1x1x32000x4.rank)
  bcast_S1x1x32000x4_S2x512x32000x4_0_1_2_3 : S1x1x32000x4.BroadcastsInDim S2x512x32000x4 (![0, 1, 2, 3] : Fin 4 → Fin S2x512x32000x4.rank)
  slices_S2x512x32000x4_S2x512x32000x3_0_0_0_0 : S2x512x32000x4.Slices ![0, 0, 0, 0] S2x512x32000x3
  bcast_S_S2x512x32000x3 : S_.BroadcastsInDim S2x512x32000x3 (![] : Fin 0 → Fin S2x512x32000x3.rank)
  slices_S2x512x32000x3_S2x512x32000x1_0_0_0_0 : S2x512x32000x3.Slices ![0, 0, 0, 0] S2x512x32000x1
  shapeCasts_S2x512x32000x1_S2x512x32000 : S2x512x32000x1.ShapeCasts S2x512x32000
  slices_S2x512x32000x3_S2x512x32000x1_0_0_0_1 : S2x512x32000x3.Slices ![0, 0, 0, 1] S2x512x32000x1
  slices_S2x512x32000x3_S2x512x32000x1_0_0_0_2 : S2x512x32000x3.Slices ![0, 0, 0, 2] S2x512x32000x1
  bcast_S_S2x512x32000 : S_.BroadcastsInDim S2x512x32000 (![] : Fin 0 → Fin S2x512x32000.rank)
  bcast_S2x512x32000_S2x512x32000x1_0_1_2 : S2x512x32000.BroadcastsInDim S2x512x32000x1 (![0, 1, 2] : Fin 3 → Fin S2x512x32000x1.rank)
  concatenates_S2x512x32000x1_S2x512x32000x1_S2x512x32000x1_S2x512x32000x1_S2x512x32000x4_d3 : Shape.Concatenates [S2x512x32000x1, S2x512x32000x1, S2x512x32000x1, S2x512x32000x1] S2x512x32000x4 3
  transposes_S32000x2x512x4_S2x512x32000x4_1_2_0_3 : S32000x2x512x4.Transposes [1, 2, 0, 3] S2x512x32000x4
  reducesTo_S2x512x32000x4_S2x512x32000_d3 : S2x512x32000x4.ReducesTo [3] S2x512x32000
  h_S_ : 0 < S_.numel
  reducesTo_S2x512x32000_S2x512_d2 : S2x512x32000.ReducesTo [2] S2x512
  bcast_S_S2x512 : S_.BroadcastsInDim S2x512 (![] : Fin 0 → Fin S2x512.rank)
  bcast_S2x512_S2x512x1_0_1 : S2x512.BroadcastsInDim S2x512x1 (![0, 1] : Fin 2 → Fin S2x512x1.rank)
  bcast_S2x512x1_S2x512x32000_0_1_2 : S2x512x1.BroadcastsInDim S2x512x32000 (![0, 1, 2] : Fin 3 → Fin S2x512x32000.rank)
  dot_S2x512x256_S4x1024x256_S2x512x4x1024_2_2_01_01_n_n_wf : DotDims.WF S2x512x256 S4x1024x256 S2x512x4x1024 [2] [2] [0, 1] [0, 1] [] []
  dot_S2x512x256_S4x128x256_S2x512x4x128_2_2_01_01_n_n_wf : DotDims.WF S2x512x256 S4x128x256 S2x512x4x128 [2] [2] [0, 1] [0, 1] [] []
  dot_S2x512x4x128_S32000x128_S2x512x4x32000_3_1_012_0_n_n_wf : DotDims.WF S2x512x4x128 S32000x128 S2x512x4x32000 [3] [1] [0, 1, 2] [0] [] []
  dot_S2x512x256_S4x256_S2x512x4_2_1_01_0_n_n_wf : DotDims.WF S2x512x256 S4x256 S2x512x4 [2] [1] [0, 1] [0] [] []
  dot_S32000x1024_S2x512x4x1024_S32000x2x512x4_1_3_0_012_n_n_wf : DotDims.WF S32000x1024 S2x512x4x1024 S32000x2x512x4 [1] [3] [0] [0, 1, 2] [] []

variable [Facts₀]

def dot_S2x512x256_S4x1024x256_S2x512x4x1024_2_2_01_01_n_n : DotDims S2x512x256 S4x1024x256 S2x512x4x1024 where
  lhsContracting := [2]
  rhsContracting := [2]
  lhsNonContracting := [0, 1]
  rhsNonContracting := [0, 1]
  lhsBatch := []
  rhsBatch := []
  wf := dot_S2x512x256_S4x1024x256_S2x512x4x1024_2_2_01_01_n_n_wf
def dot_S2x512x256_S4x128x256_S2x512x4x128_2_2_01_01_n_n : DotDims S2x512x256 S4x128x256 S2x512x4x128 where
  lhsContracting := [2]
  rhsContracting := [2]
  lhsNonContracting := [0, 1]
  rhsNonContracting := [0, 1]
  lhsBatch := []
  rhsBatch := []
  wf := dot_S2x512x256_S4x128x256_S2x512x4x128_2_2_01_01_n_n_wf
def dot_S2x512x4x128_S32000x128_S2x512x4x32000_3_1_012_0_n_n : DotDims S2x512x4x128 S32000x128 S2x512x4x32000 where
  lhsContracting := [3]
  rhsContracting := [1]
  lhsNonContracting := [0, 1, 2]
  rhsNonContracting := [0]
  lhsBatch := []
  rhsBatch := []
  wf := dot_S2x512x4x128_S32000x128_S2x512x4x32000_3_1_012_0_n_n_wf
def dot_S2x512x256_S4x256_S2x512x4_2_1_01_0_n_n : DotDims S2x512x256 S4x256 S2x512x4 where
  lhsContracting := [2]
  rhsContracting := [1]
  lhsNonContracting := [0, 1]
  rhsNonContracting := [0]
  lhsBatch := []
  rhsBatch := []
  wf := dot_S2x512x256_S4x256_S2x512x4_2_1_01_0_n_n_wf
def dot_S32000x1024_S2x512x4x1024_S32000x2x512x4_1_3_0_012_n_n : DotDims S32000x1024 S2x512x4x1024 S32000x2x512x4 where
  lhsContracting := [1]
  rhsContracting := [3]
  lhsNonContracting := [0]
  rhsNonContracting := [0, 1, 2]
  lhsBatch := []
  rhsBatch := []
  wf := dot_S32000x1024_S2x512x4x1024_S32000x2x512x4_1_3_0_012_n_n_wf

class Facts : Prop extends Facts₀ where

variable [Facts]
-- ==== Proof.Spec.lean ====
/-
  The mathematics both programs compute, as plain functions on arrays of extended reals.

  A context row `g p` (p ranges over the 1024 flattened batch-time positions) is projected by each of four gates:
  `hidden` is tanh of its product with the gate's [1024, 256] matrix, `ctxProj` tanh of its product with the gate's
  [128, 256] matrix, `gateBias` its plain product with the gate's row of `u`. For a vocabulary entry `q` the gate logit
  adds the product of `ctxProj` with row `q` of `v`, the gate bias, and the entry's own bias; the first three gates pass
  through the logistic function and combine, as a two-level tree, the four scores `hidden · emb q` into one logit.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- An array of extended reals over literal extents. -/
abbrev A2 (a b : Nat) : Type := (⟨2, ![a, b]⟩ : Shape).Idx → EReal
abbrev A3 (a b c : Nat) : Type := (⟨3, ![a, b, c]⟩ : Shape).Idx → EReal

/-- The f32 word of 1.0, kept as the word: both programs subtract from the same word. -/
abbrev one : EReal := Ideal.ofBits .f32 0x3F800000#32

/-- Gate `k`'s hidden state at position `p`, coordinate `d`: tanh of the context row against row `d` of the gate's matrix. -/
def hidden (g : A2 1024 256) (H : A3 4 1024 256) (p : Fin 1024) (k : Fin 4) (d : Fin 1024) : EReal :=
  Ideal.tanh (∑ i : Fin 256, g (ix2 p i) * H (ix3 k d i))

/-- Gate `k`'s context projection at position `p`, coordinate `j`. -/
def ctxProj (g : A2 1024 256) (U : A3 4 128 256) (p : Fin 1024) (k : Fin 4) (j : Fin 128) : EReal :=
  Ideal.tanh (∑ i : Fin 256, g (ix2 p i) * U (ix3 k j i))

/-- Gate `k`'s bias from the context at position `p`. -/
def gateBias (g : A2 1024 256) (u : A2 4 256) (p : Fin 1024) (k : Fin 4) : EReal :=
  ∑ i : Fin 256, g (ix2 p i) * u (ix2 k i)

/-- Gate `k`'s logit at position `p` for vocabulary entry `q`: projection against row `q` of `v`, plus the gate's
    context bias, plus the entry's bias (`bT` is the bias table with the gate axis first). -/
def gateLogit (tU : A3 1024 4 128) (gu : A2 1024 4) (v : A2 32000 128) (bT : A2 4 32000)
    (p : Fin 1024) (q : Fin 32000) (k : Fin 4) : EReal :=
  (∑ j : Fin 128, tU (ix3 p k j) * v (ix2 q j)) + gu (ix2 p k) + bT (ix2 k q)

/-- Gate `k`'s score of entry `q` at position `p`: the hidden state against the entry's embedding. -/
def score (hc : A3 1024 4 1024) (emb : A2 32000 1024) (p : Fin 1024) (q : Fin 32000) (k : Fin 4) : EReal :=
  ∑ d : Fin 1024, hc (ix3 p k d) * emb (ix2 q d)

/-- The sigmoid tree: three gate values weigh four scores. -/
def mix (g0 g1 g2 d0 d1 d2 d3 : EReal) : EReal :=
  g0 * g1 * d0 + g0 * (one - g1) * d1 + (one - g0) * g2 * d2 + (one - g0) * (one - g2) * d3

/-- The logit at position `p` for entry `q`, from the per-gate arrays. -/
def logit (tU : A3 1024 4 128) (hc : A3 1024 4 1024) (gu : A2 1024 4) (v : A2 32000 128) (emb : A2 32000 1024)
    (bT : A2 4 32000) (p : Fin 1024) (q : Fin 32000) : EReal :=
  mix (Ideal.logistic (gateLogit tU gu v bT p q 0)) (Ideal.logistic (gateLogit tU gu v bT p q 1))
    (Ideal.logistic (gateLogit tU gu v bT p q 2))
    (score hc emb p q 0) (score hc emb p q 1) (score hc emb p q 2) (score hc emb p q 3)

/-! ## The same, from the seven argument arrays -/

/-- The context [2, 512, 256] with its two leading axes flattened row-major. -/
def flatCtx (gc : A3 2 512 256) : A2 1024 256 := fun i =>
  gc (ix3 (⟨(i 0).val / 512, by have h : (i 0).val < 1024 := (i 0).isLt; omega⟩ : Fin 2) (⟨(i 0).val % 512, Nat.mod_lt _ (by decide)⟩ : Fin 512)
    (⟨(i 1).val, (i 1).isLt⟩ : Fin 256))

def hiddenArr (g : A2 1024 256) (H : A3 4 1024 256) : A3 1024 4 1024 := fun i =>
  hidden g H ⟨(i 0).val, (i 0).isLt⟩ ⟨(i 1).val, (i 1).isLt⟩ ⟨(i 2).val, (i 2).isLt⟩

def ctxArr (g : A2 1024 256) (U : A3 4 128 256) : A3 1024 4 128 := fun i =>
  ctxProj g U ⟨(i 0).val, (i 0).isLt⟩ ⟨(i 1).val, (i 1).isLt⟩ ⟨(i 2).val, (i 2).isLt⟩

def gateArr (g : A2 1024 256) (u : A2 4 256) : A2 1024 4 := fun i =>
  gateBias g u ⟨(i 0).val, (i 0).isLt⟩ ⟨(i 1).val, (i 1).isLt⟩

/-- The bias table with the gate axis first. -/
def biasT (b : A2 32000 4) : A2 4 32000 := fun i =>
  b (ix2 (⟨(i 1).val, (i 1).isLt⟩ : Fin 32000) (⟨(i 0).val, (i 0).isLt⟩ : Fin 4))

/-- Every logit as a [1024, 32000] array, from the per-gate arrays. -/
def logitArr (tU : A3 1024 4 128) (hc : A3 1024 4 1024) (gu : A2 1024 4) (v : A2 32000 128) (emb : A2 32000 1024)
    (bT : A2 4 32000) : A2 1024 32000 := fun i =>
  logit tU hc gu v emb bT ⟨(i 0).val, (i 0).isLt⟩ ⟨(i 1).val, (i 1).isLt⟩

/-- Every logit as a [1024, 32000] array, from the arguments. -/
def logitsFlat (gc : A3 2 512 256) (H : A3 4 1024 256) (U : A3 4 128 256) (v : A2 32000 128) (u : A2 4 256)
    (b : A2 32000 4) (emb : A2 32000 1024) : A2 1024 32000 :=
  logitArr (ctxArr (flatCtx gc) U) (hiddenArr (flatCtx gc) H) (gateArr (flatCtx gc) u) v emb (biasT b)

/-- The same with the position axis split back into batch and time. -/
def logits3 (gc : A3 2 512 256) (H : A3 4 1024 256) (U : A3 4 128 256) (v : A2 32000 128) (u : A2 4 256)
    (b : A2 32000 4) (emb : A2 32000 1024) : A3 2 512 32000 := fun i =>
  logitsFlat gc H U v u b emb
    (ix2 (⟨(i 0).val * 512 + (i 1).val, by have h0 : (i 0).val < 2 := (i 0).isLt; have h1 : (i 1).val < 512 := (i 1).isLt; omega⟩ : Fin 1024)
      (⟨(i 2).val, (i 2).isLt⟩ : Fin 32000))

end Cert.Spec

end
-- ==== Proof.Softmax.lean ====
/-
  The softmax over the vocabulary axis: subtract each row's maximum (taken from minus infinity), exponentiate,
  divide by the row's sum (taken from zero).
-/
import proofs.«158760_j82824149336212_1_alg».proof.KernelIdeal

noncomputable section

namespace Cert.Softmax

open Cert.KernelIdeal Idealize.ShloMosaic

variable {F : FTy → Type} [FloatOps F] [Cert.KernelIdeal.Facts₀]

open Cert.KernelIdeal.Facts₀

/-- Each row's maximum. -/
def rowMax (x : (⟨S2x512x32000, .f32⟩ : BufTy).Contents (Elt F)) : (⟨S2x512, .f32⟩ : BufTy).Contents (Elt F) :=
  maximumf (broadcastInDim S2x512 ![] bcast_S_S2x512 (constant S_ .f32 0xFF800000#32))
    (Host.reduce FloatOps.maximumf x (constant S_ .f32 0xFF800000#32) reducesTo_S2x512x32000_S2x512_d2 h_S_)

/-- A per-row value repeated along the vocabulary axis. -/
def spread (r : (⟨S2x512, .f32⟩ : BufTy).Contents (Elt F)) : (⟨S2x512x32000, .f32⟩ : BufTy).Contents (Elt F) :=
  broadcastInDim S2x512x32000 ![0, 1, 2] bcast_S2x512x1_S2x512x32000_0_1_2
    (broadcastInDim S2x512x1 ![0, 1] bcast_S2x512_S2x512x1_0_1 r)

/-- The exponential of each entry less its row's maximum. -/
def shifted (x : (⟨S2x512x32000, .f32⟩ : BufTy).Contents (Elt F)) : (⟨S2x512x32000, .f32⟩ : BufTy).Contents (Elt F) :=
  Host.exp (subf x (spread (rowMax x)))

/-- The softmax of every row. -/
def softmax (x : (⟨S2x512x32000, .f32⟩ : BufTy).Contents (Elt F)) : (⟨S2x512x32000, .f32⟩ : BufTy).Contents (Elt F) :=
  Host.divf (shifted x)
    (spread (Host.reduceAdd (shifted x) (constant S_ .f32 0x00000000#32) reducesTo_S2x512x32000_S2x512_d2 h_S_))

end Cert.Softmax

end
-- ==== Proof.HostBefore.lean ====
/-
  What the first kernel region and, past it, the second find in the arrays the host prepares before either runs:
  the context with its batch and time axes flattened row-major; the gate matrices, the vocabulary matrices and the
  gate vectors unchanged (a change of float format is the identity on extended reals); the bias table transposed.
-/
import proofs.«158760_j82824149336212_1_alg».proof.Proof.Gen.KernelIdeal.Frame
import proofs.«158760_j82824149336212_1_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.HostBefore

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The flattened context: row `p` of the [1024, 256] array is row `(p / 512, p % 512)` of the argument, the two
    indices having the same row-major position. -/
theorem ctx_entry (c : Dev nD) :
    V1 (F := Ideal) m ρ c main_v1 = Cert.Spec.flatCtx (m ((c : Thread nD τ).loc main_arg0)) := by
  show StableHlo.after hostOps0 (W0 m ρ c) (Proc.devRef .tc main_v1) = _
  after_results
  funext i
  show shapeCast S1024x256 (W0 m ρ c (Proc.devRef .tc main_arg0)) shapeCasts_S2x512x256_S1024x256 i = _
  unfold Cert.Spec.flatCtx
  have h0 : (i 0).val < 1024 := (i 0).isLt
  refine (shapeCast_apply (s := S2x512x256) (t := S1024x256) (W0 m ρ c (Proc.devRef .tc main_arg0))
    shapeCasts_S2x512x256_S1024x256 i
    (ix3 (⟨(i 0).val / 512, by omega⟩ : Fin 2)
      (⟨(i 0).val % 512, Nat.mod_lt _ (by decide)⟩ : Fin 512) (⟨(i 1).val, (i 1).isLt⟩ : Fin 256)) ?_).trans rfl
  show ((⟨3, ![2, 512, 256]⟩ : Shape).rowMajor _).val = ((⟨2, ![1024, 256]⟩ : Shape).rowMajor i).val
  rw [Shape.rowMajor_val_three, Shape.rowMajor_val_two]
  show ((i 0).val / 512 * 512 + (i 0).val % 512) * 256 + (i 1).val = (i 0).val * 256 + (i 1).val
  have h := Nat.div_add_mod (i 0).val 512
  omega

theorem gateMat_entry (c : Dev nD) : V1 (F := Ideal) m ρ c main_v2 = m ((c : Thread nD τ).loc main_arg1) := by
  show StableHlo.after hostOps0 (W0 m ρ c) (Proc.devRef .tc main_v2) = _
  after_results
  rfl

theorem ctxMat_entry (c : Dev nD) : V1 (F := Ideal) m ρ c main_v3 = m ((c : Thread nD τ).loc main_arg2) := by
  show StableHlo.after hostOps0 (W0 m ρ c) (Proc.devRef .tc main_v3) = _
  after_results
  rfl

theorem gateVec_entry (c : Dev nD) : V1 (F := Ideal) m ρ c main_v4 = m ((c : Thread nD τ).loc main_arg4) := by
  show StableHlo.after hostOps0 (W0 m ρ c) (Proc.devRef .tc main_v4) = _
  after_results
  rfl

theorem vocabProj_entry (c : Dev nD) : V1 (F := Ideal) m ρ c main_v5 = m ((c : Thread nD τ).loc main_arg3) := by
  show StableHlo.after hostOps0 (W0 m ρ c) (Proc.devRef .tc main_v5) = _
  after_results
  rfl

theorem emb_entry (c : Dev nD) : V1 (F := Ideal) m ρ c main_v6 = m ((c : Thread nD τ).loc main_arg6) := by
  show StableHlo.after hostOps0 (W0 m ρ c) (Proc.devRef .tc main_v6) = _
  after_results
  rfl

/-- The bias table with the gate axis first: entry `(k, q)` is the argument's entry `(q, k)`. -/
theorem bias_entry (c : Dev nD) :
    V1 (F := Ideal) m ρ c main_v7 = Cert.Spec.biasT (m ((c : Thread nD τ).loc main_arg5)) := by
  show StableHlo.after hostOps0 (W0 m ρ c) (Proc.devRef .tc main_v7) = _
  after_results
  funext i
  unfold Cert.Spec.biasT
  refine (transpose_apply [1, 0] (W0 m ρ c (Proc.devRef .tc main_arg5)) transposes_S32000x4_S4x32000_1_0 i
    (ix2 (⟨(i 1).val, (i 1).isLt⟩ : Fin 32000) (⟨(i 0).val, (i 0).isLt⟩ : Fin 4)) (fun b => ?_)).trans rfl
  match b with
  | ⟨0, _⟩ => rfl
  | ⟨1, _⟩ => rfl

end Cert.KernelIdeal.HostBefore

end
-- ==== Proof.PrepRegion.lean ====
/-
  The first kernel region (the per-gate projections of the context), read as values: whatever the region finds in
  its four input arrays, its three output arrays end holding the hidden states, the context projections and the gate
  biases of every position.
-/
import proofs.«158760_j82824149336212_1_alg».proof.Proof.Gen.KernelIdeal.Frame
import proofs.«158760_j82824149336212_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.PrepRegion

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The body's three payloads at an index -/

/-! The product of a [256,256] block with the transpose of a [1024,256] matrix, read at an entry. -/

theorem lhs_mmH_0 (i : S256x1024.Idx) (q : dot_S256x256_S1024x256_S256x1024_1_1_0_0_n_n.contr.Idx) :
    (dot_S256x256_S1024x256_S256x1024_1_1_0_0_n_n.lhsIdx i q 0).val = (i 0).val := by
  unfold DotDims.lhsIdx
  rw [dif_neg (show ¬(0 : Fin S256x256.rank) ∈ dot_S256x256_S1024x256_S256x1024_1_1_0_0_n_n.lhsBatch by decide), dif_pos (show (0 : Fin S256x256.rank) ∈ dot_S256x256_S1024x256_S256x1024_1_1_0_0_n_n.lhsNonContracting by decide)]
  rfl
theorem lhs_mmH_1 (i : S256x1024.Idx) (q : dot_S256x256_S1024x256_S256x1024_1_1_0_0_n_n.contr.Idx) :
    (dot_S256x256_S1024x256_S256x1024_1_1_0_0_n_n.lhsIdx i q 1).val = (q ⟨0, by decide⟩).val :=
  dot_S256x256_S1024x256_S256x1024_1_1_0_0_n_n.lhsIdx_val_of_single rfl i q
theorem rhs_mmH_0 (i : S256x1024.Idx) (q : dot_S256x256_S1024x256_S256x1024_1_1_0_0_n_n.contr.Idx) :
    (dot_S256x256_S1024x256_S256x1024_1_1_0_0_n_n.rhsIdx i q 0).val = (i 1).val := by
  unfold DotDims.rhsIdx
  rw [dif_neg (show ¬(0 : Fin S1024x256.rank) ∈ dot_S256x256_S1024x256_S256x1024_1_1_0_0_n_n.rhsBatch by decide), dif_pos (show (0 : Fin S1024x256.rank) ∈ dot_S256x256_S1024x256_S256x1024_1_1_0_0_n_n.rhsNonContracting by decide)]
  rfl
theorem rhs_mmH_1 (i : S256x1024.Idx) (q : dot_S256x256_S1024x256_S256x1024_1_1_0_0_n_n.contr.Idx) :
    (dot_S256x256_S1024x256_S256x1024_1_1_0_0_n_n.rhsIdx i q 1).val = (q ⟨0, by decide⟩).val :=
  dot_S256x256_S1024x256_S256x1024_1_1_0_0_n_n.rhsIdx_val_of_single rfl i q

theorem mmH_apply (a : FVec Ideal S256x256 .bf16) (b : FVec Ideal S1024x256 .bf16) (p : Fin 256) (d : Fin 1024) :
    matmul dot_S256x256_S1024x256_S256x1024_1_1_0_0_n_n none a b (constant (F := Ideal) S256x1024 .f32 0x00000000#32) (ix2 p d)
      = ∑ i : Fin 256, a (ix2 p i) * b (ix2 d i) := by
  simp only [matmul]
  rw [Ideal.matmul_constant_zero_apply, ← Equiv.sum_comp (ValueIdx.contrEquiv1 dot_S256x256_S1024x256_S256x1024_1_1_0_0_n_n 256 rfl rfl).symm]
  refine Finset.sum_congr rfl fun k _ => ?_
  have hk := ValueIdx.contrEquiv1_symm_val dot_S256x256_S1024x256_S256x1024_1_1_0_0_n_n 256 rfl rfl k
  have el : dot_S256x256_S1024x256_S256x1024_1_1_0_0_n_n.lhsIdx (ix2 p d) ((ValueIdx.contrEquiv1 dot_S256x256_S1024x256_S256x1024_1_1_0_0_n_n 256 rfl rfl).symm k) = ix2 p k := funext fun a => Fin.ext (by
    match a with
    | ⟨0, _⟩ => exact lhs_mmH_0 _ _
    | ⟨1, _⟩ => exact (lhs_mmH_1 _ _).trans hk)
  have er : dot_S256x256_S1024x256_S256x1024_1_1_0_0_n_n.rhsIdx (ix2 p d) ((ValueIdx.contrEquiv1 dot_S256x256_S1024x256_S256x1024_1_1_0_0_n_n 256 rfl rfl).symm k) = ix2 d k := funext fun a => Fin.ext (by
    match a with
    | ⟨0, _⟩ => exact rhs_mmH_0 _ _
    | ⟨1, _⟩ => exact (rhs_mmH_1 _ _).trans hk)
  rw [el, er]

theorem hz2 : (![0, 0] : Fin 2 → Nat) = fun _ => 0 := funext fun a => by fin_cases a <;> rfl
theorem hz3 : (![0, 0, 0] : Fin 3 → Nat) = fun _ => 0 := funext fun a => by fin_cases a <;> rfl

/-- Gate k's [1,1024,256] slice of the stacked matrices, read at an entry. -/
theorem ld_gateH (x1 : Vec Ideal S4x1024x256 .bf16) (off : Fin 3 → Nat) (inb : ∀ a, off a + S1x1024x256.size a ≤ S4x1024x256.size a)
    (k : Fin 4) (h0 : off 0 = k.val) (h1 : off 1 = 0) (h2 : off 2 = 0) (u : Fin 1) (d : Fin 1024) (i : Fin 256) :
    (View.ld (Val := Elt Ideal) x1 (Rect.unit (s := S4x1024x256) off S1x1024x256.size inb) : Vec Ideal S1x1024x256 .bf16) (ix3 u d i) = x1 (ix3 k d i) := by
  show x1 _ = x1 _
  congr 1
  funext a; apply Fin.ext
  have hu : u.val = 0 := by omega
  match a with
  | ⟨0, _⟩ => show off 0 + 1 * u.val = k.val; omega
  | ⟨1, _⟩ => show off 1 + 1 * d.val = d.val; omega
  | ⟨2, _⟩ => show off 2 + 1 * i.val = i.val; omega

/-- One gate's block of hidden states: tanh of the block's rows against the rows of the gate's matrix. -/
theorem hidBlock_apply (a : FVec Ideal S256x256 .bf16) (w : FVec Ideal S1x1024x256 .bf16) (p : Fin 256) (u : Fin 1) (d : Fin 1024) :
    (shapeCast S256x1x1024 (tanh (matmul dot_S256x256_S1024x256_S256x1024_1_1_0_0_n_n none a (shapeCast S1024x256 w shapeCasts_S1x1024x256_S1024x256) (constant (F := Ideal) S256x1024 .f32 0x00000000#32))) shapeCasts_S256x1024_S256x1x1024 : FVec Ideal S256x1x1024 .f32) (ix3 p u d)
      = Ideal.tanh (∑ i : Fin 256, a (ix2 p i) * w (ix3 (0 : Fin 1) d i)) := by
  have hu : u.val = 0 := by omega
  refine (shapeCast_apply _ _ (ix3 p u d) (ix2 p d) (by
    rw [Shape.rowMajor_val_two, Shape.rowMajor_val_three]
    show p.val * 1024 + d.val = (p.val * 1 + u.val) * 1024 + d.val
    omega)).trans ?_
  show Ideal.tanh (matmul dot_S256x256_S1024x256_S256x1024_1_1_0_0_n_n none a (shapeCast S1024x256 w shapeCasts_S1x1024x256_S1024x256) (constant (F := Ideal) S256x1024 .f32 0x00000000#32) (ix2 p d)) = _
  rw [mmH_apply]
  congr 1
  refine Finset.sum_congr rfl fun i _ => ?_
  rw [shapeCast_1ab_ab_apply]

/-- The context block's cast to its own shape is the block. -/
theorem pay4_eq (v0 : Vec Ideal S256x256 .bf16) : k0_pay4 (F := Ideal) v0 = v0 := by
  unfold k0_pay4
  exact shapeCast_self _ _

/-- A gate's hidden-state block as the body computes it from the context block and the gate's slice. -/
theorem pay5_apply (v0 : Vec Ideal S256x256 .bf16) (v2 : Vec Ideal S1x1024x256 .bf16) (p : Fin 256) (u : Fin 1) (d : Fin 1024) :
    k0_pay5 (F := Ideal) v0 v2 (ix3 p u d) = Ideal.tanh (∑ i : Fin 256, v0 (ix2 p i) * v2 (ix3 (0 : Fin 1) d i)) := by
  unfold k0_pay5
  rw [pay4_eq]
  exact hidBlock_apply v0 v2 p u d
theorem pay7_apply (v0 : Vec Ideal S256x256 .bf16) (v2 : Vec Ideal S1x1024x256 .bf16) (p : Fin 256) (u : Fin 1) (d : Fin 1024) :
    k0_pay7 (F := Ideal) v0 v2 (ix3 p u d) = Ideal.tanh (∑ i : Fin 256, v0 (ix2 p i) * v2 (ix3 (0 : Fin 1) d i)) := by
  unfold k0_pay7
  rw [pay4_eq]
  exact hidBlock_apply v0 v2 p u d
theorem pay9_apply (v0 : Vec Ideal S256x256 .bf16) (v2 : Vec Ideal S1x1024x256 .bf16) (p : Fin 256) (u : Fin 1) (d : Fin 1024) :
    k0_pay9 (F := Ideal) v0 v2 (ix3 p u d) = Ideal.tanh (∑ i : Fin 256, v0 (ix2 p i) * v2 (ix3 (0 : Fin 1) d i)) := by
  unfold k0_pay9
  rw [pay4_eq]
  exact hidBlock_apply v0 v2 p u d

/-! The four gates' blocks laid side by side on the middle axis: entry (p, k, d) is gate k's block at (p, 0, d). -/

theorem cat4H_0 (y0 y1 y2 y3 : FVec Ideal S256x1x1024 .f32) (p : Fin 256) (d : Fin 1024) :
    (concatenate S256x4x1024 1 [⟨S256x1x1024, y0⟩, ⟨S256x1x1024, y1⟩, ⟨S256x1x1024, y2⟩, ⟨S256x1x1024, y3⟩]
      concatenates_S256x1x1024_S256x1x1024_S256x1x1024_S256x1x1024_S256x4x1024_d1 : FVec Ideal S256x4x1024 .f32) (ix3 p (0 : Fin 4) d)
      = y0 (ix3 p (0 : Fin 1) d) :=
  concatenate_apply_piece (t := S256x4x1024) (1 : Fin 3) [⟨S256x1x1024, y0⟩, ⟨S256x1x1024, y1⟩, ⟨S256x1x1024, y2⟩, ⟨S256x1x1024, y3⟩]
    concatenates_S256x1x1024_S256x1x1024_S256x1x1024_S256x1x1024_S256x4x1024_d1 (ix3 p (0 : Fin 4) d) 0 (by simp) S256x1x1024 y0 rfl rfl 0 rfl (ix3 p (0 : Fin 1) d)
    (fun b hb => by match b with | ⟨0, _⟩ => rfl | ⟨1, _⟩ => exact absurd rfl hb | ⟨2, _⟩ => rfl) (by rfl)

theorem cat4H_1 (y0 y1 y2 y3 : FVec Ideal S256x1x1024 .f32) (p : Fin 256) (d : Fin 1024) :
    (concatenate S256x4x1024 1 [⟨S256x1x1024, y0⟩, ⟨S256x1x1024, y1⟩, ⟨S256x1x1024, y2⟩, ⟨S256x1x1024, y3⟩]
      concatenates_S256x1x1024_S256x1x1024_S256x1x1024_S256x1x1024_S256x4x1024_d1 : FVec Ideal S256x4x1024 .f32) (ix3 p (1 : Fin 4) d)
      = y1 (ix3 p (0 : Fin 1) d) :=
  concatenate_apply_piece (t := S256x4x1024) (1 : Fin 3) [⟨S256x1x1024, y0⟩, ⟨S256x1x1024, y1⟩, ⟨S256x1x1024, y2⟩, ⟨S256x1x1024, y3⟩]
    concatenates_S256x1x1024_S256x1x1024_S256x1x1024_S256x1x1024_S256x4x1024_d1 (ix3 p (1 : Fin 4) d) 1 (by simp) S256x1x1024 y1 rfl rfl 1 rfl (ix3 p (0 : Fin 1) d)
    (fun b hb => by match b with | ⟨0, _⟩ => rfl | ⟨1, _⟩ => exact absurd rfl hb | ⟨2, _⟩ => rfl) (by rfl)

theorem cat4H_2 (y0 y1 y2 y3 : FVec Ideal S256x1x1024 .f32) (p : Fin 256) (d : Fin 1024) :
    (concatenate S256x4x1024 1 [⟨S256x1x1024, y0⟩, ⟨S256x1x1024, y1⟩, ⟨S256x1x1024, y2⟩, ⟨S256x1x1024, y3⟩]
      concatenates_S256x1x1024_S256x1x1024_S256x1x1024_S256x1x1024_S256x4x1024_d1 : FVec Ideal S256x4x1024 .f32) (ix3 p (2 : Fin 4) d)
      = y2 (ix3 p (0 : Fin 1) d) :=
  concatenate_apply_piece (t := S256x4x1024) (1 : Fin 3) [⟨S256x1x1024, y0⟩, ⟨S256x1x1024, y1⟩, ⟨S256x1x1024, y2⟩, ⟨S256x1x1024, y3⟩]
    concatenates_S256x1x1024_S256x1x1024_S256x1x1024_S256x1x1024_S256x4x1024_d1 (ix3 p (2 : Fin 4) d) 2 (by simp) S256x1x1024 y2 rfl rfl 2 rfl (ix3 p (0 : Fin 1) d)
    (fun b hb => by match b with | ⟨0, _⟩ => rfl | ⟨1, _⟩ => exact absurd rfl hb | ⟨2, _⟩ => rfl) (by rfl)

theorem cat4H_3 (y0 y1 y2 y3 : FVec Ideal S256x1x1024 .f32) (p : Fin 256) (d : Fin 1024) :
    (concatenate S256x4x1024 1 [⟨S256x1x1024, y0⟩, ⟨S256x1x1024, y1⟩, ⟨S256x1x1024, y2⟩, ⟨S256x1x1024, y3⟩]
      concatenates_S256x1x1024_S256x1x1024_S256x1x1024_S256x1x1024_S256x4x1024_d1 : FVec Ideal S256x4x1024 .f32) (ix3 p (3 : Fin 4) d)
      = y3 (ix3 p (0 : Fin 1) d) :=
  concatenate_apply_piece (t := S256x4x1024) (1 : Fin 3) [⟨S256x1x1024, y0⟩, ⟨S256x1x1024, y1⟩, ⟨S256x1x1024, y2⟩, ⟨S256x1x1024, y3⟩]
    concatenates_S256x1x1024_S256x1x1024_S256x1x1024_S256x1x1024_S256x4x1024_d1 (ix3 p (3 : Fin 4) d) 3 (by simp) S256x1x1024 y3 rfl rfl 3 rfl (ix3 p (0 : Fin 1) d)
    (fun b hb => by match b with | ⟨0, _⟩ => rfl | ⟨1, _⟩ => exact absurd rfl hb | ⟨2, _⟩ => rfl) (by rfl)

theorem fin4_cases (k : Fin 4) : k = 0 ∨ k = 1 ∨ k = 2 ∨ k = 3 := by
  fin_cases k <;> simp

/-- The first output's block at (p, k, d): tanh of the context block's row p against row d of gate k's matrix. -/
theorem out4_apply (x0 : Vec Ideal S256x256 .bf16) (x1 : Vec Ideal S4x1024x256 .bf16) (x2 : Vec Ideal S4x128x256 .bf16) (x3 : Vec Ideal S4x256 .bf16)
    (p : Fin 256) (k : Fin 4) (d : Fin 1024) :
    out0_4 (F := Ideal) x0 x1 x2 x3 (ix3 p k d) = Ideal.tanh (∑ i : Fin 256, x0 (ix2 p i) * x1 (ix3 k d i)) := by
  unfold out0_4
  rw [View.canon_unit_zero hz3]
  simp only [View.ld_unit_zero (S := S256x256) hz2]
  unfold k0_pay1
  rw [ValueIdx.truncf_apply]
  rcases fin4_cases k with rfl | rfl | rfl | rfl
  · rw [cat4H_0, pay5_apply]; congr 1; refine Finset.sum_congr rfl fun i _ => ?_
    rw [ld_gateH x1 _ _ 0 rfl rfl rfl]
  · rw [cat4H_1, pay7_apply]; congr 1; refine Finset.sum_congr rfl fun i _ => ?_
    rw [ld_gateH x1 _ _ 1 rfl rfl rfl]
  · rw [cat4H_2, pay9_apply]; congr 1; refine Finset.sum_congr rfl fun i _ => ?_
    rw [ld_gateH x1 _ _ 2 rfl rfl rfl]
  · rw [cat4H_3, pay4_eq, hidBlock_apply]; congr 1; refine Finset.sum_congr rfl fun i _ => ?_
    rw [ld_gateH x1 _ _ 3 rfl rfl rfl]

/-- The same at any index of the block, its coordinates read off the index. -/
theorem out4_at (x0 : Vec Ideal S256x256 .bf16) (x1 : Vec Ideal S4x1024x256 .bf16) (x2 : Vec Ideal S4x128x256 .bf16) (x3 : Vec Ideal S4x256 .bf16)
    (y : S256x4x1024.Idx) :
    out0_4 (F := Ideal) x0 x1 x2 x3 y = Ideal.tanh (∑ i : Fin 256, x0 (ix2 (⟨(y 0).val, (y 0).isLt⟩ : Fin 256) i)
      * x1 (ix3 (⟨(y 1).val, (y 1).isLt⟩ : Fin 4) (⟨(y 2).val, (y 2).isLt⟩ : Fin 1024) i)) :=
  (congrArg (out0_4 (F := Ideal) x0 x1 x2 x3) (eq_ix3 y)).trans
    (out4_apply x0 x1 x2 x3 (⟨(y 0).val, (y 0).isLt⟩ : Fin 256) (⟨(y 1).val, (y 1).isLt⟩ : Fin 4) (⟨(y 2).val, (y 2).isLt⟩ : Fin 1024))

/-- A block of hidden states against the whole array: when the context block is rows r·256 … of the context and the
    stacked matrices are read whole, the block's entry is the array's entry r·256 rows further down. -/
theorem hidden_pt (g : Cert.Spec.A2 1024 256) (H : Cert.Spec.A3 4 1024 256)
    (x0 : Vec Ideal S256x256 .bf16) (x1 : Vec Ideal S4x1024x256 .bf16) (x2 : Vec Ideal S4x128x256 .bf16) (x3 : Vec Ideal S4x256 .bf16)
    (r : Nat) (hr : r < 4)
    (h0 : ∀ (p i : Fin 256), x0 (ix2 p i) = g (ix2 (⟨r * 256 + p.val, by omega⟩ : Fin 1024) i))
    (h1 : ∀ (k : Fin 4) (d : Fin 1024) (i : Fin 256), x1 (ix3 k d i) = H (ix3 k d i))
    (y : S256x4x1024.Idx) (z : S1024x4x1024.Idx)
    (hz0 : (z 0).val = r * 256 + (y 0).val) (hz1 : (z 1).val = (y 1).val) (hz2 : (z 2).val = (y 2).val) :
    out0_4 (F := Ideal) x0 x1 x2 x3 y = Cert.Spec.hiddenArr g H z := by
  rw [out4_at]
  unfold Cert.Spec.hiddenArr Cert.Spec.hidden
  congr 1
  refine Finset.sum_congr rfl fun i _ => ?_
  rw [h0, h1]
  have e0 : (⟨r * 256 + (y 0).val, by have := (y 0).isLt; simp at this; omega⟩ : Fin 1024) = ⟨(z 0).val, (z 0).isLt⟩ := Fin.ext hz0.symm
  have e1 : (⟨(y 1).val, (y 1).isLt⟩ : Fin 4) = ⟨(z 1).val, (z 1).isLt⟩ := Fin.ext hz1.symm
  have e2 : (⟨(y 2).val, (y 2).isLt⟩ : Fin 1024) = ⟨(z 2).val, (z 2).isLt⟩ := Fin.ext hz2.symm
  rw [e0, e1, e2]

/-! The product of a [256,256] block with the transpose of a [128,256] matrix, read at an entry. -/

theorem lhs_mmU_0 (i : S256x128.Idx) (q : dot_S256x256_S128x256_S256x128_1_1_0_0_n_n.contr.Idx) :
    (dot_S256x256_S128x256_S256x128_1_1_0_0_n_n.lhsIdx i q 0).val = (i 0).val := by
  unfold DotDims.lhsIdx
  rw [dif_neg (show ¬(0 : Fin S256x256.rank) ∈ dot_S256x256_S128x256_S256x128_1_1_0_0_n_n.lhsBatch by decide), dif_pos (show (0 : Fin S256x256.rank) ∈ dot_S256x256_S128x256_S256x128_1_1_0_0_n_n.lhsNonContracting by decide)]
  rfl
theorem lhs_mmU_1 (i : S256x128.Idx) (q : dot_S256x256_S128x256_S256x128_1_1_0_0_n_n.contr.Idx) :
    (dot_S256x256_S128x256_S256x128_1_1_0_0_n_n.lhsIdx i q 1).val = (q ⟨0, by decide⟩).val :=
  dot_S256x256_S128x256_S256x128_1_1_0_0_n_n.lhsIdx_val_of_single rfl i q
theorem rhs_mmU_0 (i : S256x128.Idx) (q : dot_S256x256_S128x256_S256x128_1_1_0_0_n_n.contr.Idx) :
    (dot_S256x256_S128x256_S256x128_1_1_0_0_n_n.rhsIdx i q 0).val = (i 1).val := by
  unfold DotDims.rhsIdx
  rw [dif_neg (show ¬(0 : Fin S128x256.rank) ∈ dot_S256x256_S128x256_S256x128_1_1_0_0_n_n.rhsBatch by decide), dif_pos (show (0 : Fin S128x256.rank) ∈ dot_S256x256_S128x256_S256x128_1_1_0_0_n_n.rhsNonContracting by decide)]
  rfl
theorem rhs_mmU_1 (i : S256x128.Idx) (q : dot_S256x256_S128x256_S256x128_1_1_0_0_n_n.contr.Idx) :
    (dot_S256x256_S128x256_S256x128_1_1_0_0_n_n.rhsIdx i q 1).val = (q ⟨0, by decide⟩).val :=
  dot_S256x256_S128x256_S256x128_1_1_0_0_n_n.rhsIdx_val_of_single rfl i q

theorem mmU_apply (a : FVec Ideal S256x256 .bf16) (b : FVec Ideal S128x256 .bf16) (p : Fin 256) (d : Fin 128) :
    matmul dot_S256x256_S128x256_S256x128_1_1_0_0_n_n none a b (constant (F := Ideal) S256x128 .f32 0x00000000#32) (ix2 p d)
      = ∑ i : Fin 256, a (ix2 p i) * b (ix2 d i) := by
  simp only [matmul]
  rw [Ideal.matmul_constant_zero_apply, ← Equiv.sum_comp (ValueIdx.contrEquiv1 dot_S256x256_S128x256_S256x128_1_1_0_0_n_n 256 rfl rfl).symm]
  refine Finset.sum_congr rfl fun k _ => ?_
  have hk := ValueIdx.contrEquiv1_symm_val dot_S256x256_S128x256_S256x128_1_1_0_0_n_n 256 rfl rfl k
  have el : dot_S256x256_S128x256_S256x128_1_1_0_0_n_n.lhsIdx (ix2 p d) ((ValueIdx.contrEquiv1 dot_S256x256_S128x256_S256x128_1_1_0_0_n_n 256 rfl rfl).symm k) = ix2 p k := funext fun a => Fin.ext (by
    match a with
    | ⟨0, _⟩ => exact lhs_mmU_0 _ _
    | ⟨1, _⟩ => exact (lhs_mmU_1 _ _).trans hk)
  have er : dot_S256x256_S128x256_S256x128_1_1_0_0_n_n.rhsIdx (ix2 p d) ((ValueIdx.contrEquiv1 dot_S256x256_S128x256_S256x128_1_1_0_0_n_n 256 rfl rfl).symm k) = ix2 d k := funext fun a => Fin.ext (by
    match a with
    | ⟨0, _⟩ => exact rhs_mmU_0 _ _
    | ⟨1, _⟩ => exact (rhs_mmU_1 _ _).trans hk)
  rw [el, er]

/-- Gate k's [1,128,256] slice of the stacked projection matrices, read at an entry. -/
theorem ld_gateU (x2 : Vec Ideal S4x128x256 .bf16) (off : Fin 3 → Nat) (inb : ∀ a, off a + S1x128x256.size a ≤ S4x128x256.size a)
    (k : Fin 4) (h0 : off 0 = k.val) (h1 : off 1 = 0) (h2 : off 2 = 0) (u : Fin 1) (d : Fin 128) (i : Fin 256) :
    (View.ld (Val := Elt Ideal) x2 (Rect.unit (s := S4x128x256) off S1x128x256.size inb) : Vec Ideal S1x128x256 .bf16) (ix3 u d i) = x2 (ix3 k d i) := by
  show x2 _ = x2 _
  congr 1
  funext a; apply Fin.ext
  have hu : u.val = 0 := by omega
  match a with
  | ⟨0, _⟩ => show off 0 + 1 * u.val = k.val; omega
  | ⟨1, _⟩ => show off 1 + 1 * d.val = d.val; omega
  | ⟨2, _⟩ => show off 2 + 1 * i.val = i.val; omega

/-- One gate's block of context projections: tanh of the block's rows against the rows of the gate's matrix. -/
theorem projBlock_apply (a : FVec Ideal S256x256 .bf16) (w : FVec Ideal S1x128x256 .bf16) (p : Fin 256) (u : Fin 1) (d : Fin 128) :
    (shapeCast S256x1x128 (tanh (matmul dot_S256x256_S128x256_S256x128_1_1_0_0_n_n none a (shapeCast S128x256 w shapeCasts_S1x128x256_S128x256) (constant (F := Ideal) S256x128 .f32 0x00000000#32))) shapeCasts_S256x128_S256x1x128 : FVec Ideal S256x1x128 .f32) (ix3 p u d)
      = Ideal.tanh (∑ i : Fin 256, a (ix2 p i) * w (ix3 (0 : Fin 1) d i)) := by
  have hu : u.val = 0 := by omega
  refine (shapeCast_apply _ _ (ix3 p u d) (ix2 p d) (by
    rw [Shape.rowMajor_val_two, Shape.rowMajor_val_three]
    show p.val * 128 + d.val = (p.val * 1 + u.val) * 128 + d.val
    omega)).trans ?_
  show Ideal.tanh (matmul dot_S256x256_S128x256_S256x128_1_1_0_0_n_n none a (shapeCast S128x256 w shapeCasts_S1x128x256_S128x256) (constant (F := Ideal) S256x128 .f32 0x00000000#32) (ix2 p d)) = _
  rw [mmU_apply]
  congr 1
  refine Finset.sum_congr rfl fun i _ => ?_
  rw [shapeCast_1ab_ab_apply]

theorem pay6_apply (v0 : Vec Ideal S256x256 .bf16) (v2 : Vec Ideal S1x128x256 .bf16) (p : Fin 256) (u : Fin 1) (d : Fin 128) :
    k0_pay6 (F := Ideal) v0 v2 (ix3 p u d) = Ideal.tanh (∑ i : Fin 256, v0 (ix2 p i) * v2 (ix3 (0 : Fin 1) d i)) := by
  unfold k0_pay6
  rw [pay4_eq]
  exact projBlock_apply v0 v2 p u d
theorem pay8_apply (v0 : Vec Ideal S256x256 .bf16) (v2 : Vec Ideal S1x128x256 .bf16) (p : Fin 256) (u : Fin 1) (d : Fin 128) :
    k0_pay8 (F := Ideal) v0 v2 (ix3 p u d) = Ideal.tanh (∑ i : Fin 256, v0 (ix2 p i) * v2 (ix3 (0 : Fin 1) d i)) := by
  unfold k0_pay8
  rw [pay4_eq]
  exact projBlock_apply v0 v2 p u d
theorem pay10_apply (v0 : Vec Ideal S256x256 .bf16) (v2 : Vec Ideal S1x128x256 .bf16) (p : Fin 256) (u : Fin 1) (d : Fin 128) :
    k0_pay10 (F := Ideal) v0 v2 (ix3 p u d) = Ideal.tanh (∑ i : Fin 256, v0 (ix2 p i) * v2 (ix3 (0 : Fin 1) d i)) := by
  unfold k0_pay10
  rw [pay4_eq]
  exact projBlock_apply v0 v2 p u d

theorem cat4U_0 (y0 y1 y2 y3 : FVec Ideal S256x1x128 .f32) (p : Fin 256) (d : Fin 128) :
    (concatenate S256x4x128 1 [⟨S256x1x128, y0⟩, ⟨S256x1x128, y1⟩, ⟨S256x1x128, y2⟩, ⟨S256x1x128, y3⟩]
      concatenates_S256x1x128_S256x1x128_S256x1x128_S256x1x128_S256x4x128_d1 : FVec Ideal S256x4x128 .f32) (ix3 p (0 : Fin 4) d)
      = y0 (ix3 p (0 : Fin 1) d) :=
  concatenate_apply_piece (t := S256x4x128) (1 : Fin 3) [⟨S256x1x128, y0⟩, ⟨S256x1x128, y1⟩, ⟨S256x1x128, y2⟩, ⟨S256x1x128, y3⟩]
    concatenates_S256x1x128_S256x1x128_S256x1x128_S256x1x128_S256x4x128_d1 (ix3 p (0 : Fin 4) d) 0 (by simp) S256x1x128 y0 rfl rfl 0 rfl (ix3 p (0 : Fin 1) d)
    (fun b hb => by match b with | ⟨0, _⟩ => rfl | ⟨1, _⟩ => exact absurd rfl hb | ⟨2, _⟩ => rfl) (by rfl)

theorem cat4U_1 (y0 y1 y2 y3 : FVec Ideal S256x1x128 .f32) (p : Fin 256) (d : Fin 128) :
    (concatenate S256x4x128 1 [⟨S256x1x128, y0⟩, ⟨S256x1x128, y1⟩, ⟨S256x1x128, y2⟩, ⟨S256x1x128, y3⟩]
      concatenates_S256x1x128_S256x1x128_S256x1x128_S256x1x128_S256x4x128_d1 : FVec Ideal S256x4x128 .f32) (ix3 p (1 : Fin 4) d)
      = y1 (ix3 p (0 : Fin 1) d) :=
  concatenate_apply_piece (t := S256x4x128) (1 : Fin 3) [⟨S256x1x128, y0⟩, ⟨S256x1x128, y1⟩, ⟨S256x1x128, y2⟩, ⟨S256x1x128, y3⟩]
    concatenates_S256x1x128_S256x1x128_S256x1x128_S256x1x128_S256x4x128_d1 (ix3 p (1 : Fin 4) d) 1 (by simp) S256x1x128 y1 rfl rfl 1 rfl (ix3 p (0 : Fin 1) d)
    (fun b hb => by match b with | ⟨0, _⟩ => rfl | ⟨1, _⟩ => exact absurd rfl hb | ⟨2, _⟩ => rfl) (by rfl)

theorem cat4U_2 (y0 y1 y2 y3 : FVec Ideal S256x1x128 .f32) (p : Fin 256) (d : Fin 128) :
    (concatenate S256x4x128 1 [⟨S256x1x128, y0⟩, ⟨S256x1x128, y1⟩, ⟨S256x1x128, y2⟩, ⟨S256x1x128, y3⟩]
      concatenates_S256x1x128_S256x1x128_S256x1x128_S256x1x128_S256x4x128_d1 : FVec Ideal S256x4x128 .f32) (ix3 p (2 : Fin 4) d)
      = y2 (ix3 p (0 : Fin 1) d) :=
  concatenate_apply_piece (t := S256x4x128) (1 : Fin 3) [⟨S256x1x128, y0⟩, ⟨S256x1x128, y1⟩, ⟨S256x1x128, y2⟩, ⟨S256x1x128, y3⟩]
    concatenates_S256x1x128_S256x1x128_S256x1x128_S256x1x128_S256x4x128_d1 (ix3 p (2 : Fin 4) d) 2 (by simp) S256x1x128 y2 rfl rfl 2 rfl (ix3 p (0 : Fin 1) d)
    (fun b hb => by match b with | ⟨0, _⟩ => rfl | ⟨1, _⟩ => exact absurd rfl hb | ⟨2, _⟩ => rfl) (by rfl)

theorem cat4U_3 (y0 y1 y2 y3 : FVec Ideal S256x1x128 .f32) (p : Fin 256) (d : Fin 128) :
    (concatenate S256x4x128 1 [⟨S256x1x128, y0⟩, ⟨S256x1x128, y1⟩, ⟨S256x1x128, y2⟩, ⟨S256x1x128, y3⟩]
      concatenates_S256x1x128_S256x1x128_S256x1x128_S256x1x128_S256x4x128_d1 : FVec Ideal S256x4x128 .f32) (ix3 p (3 : Fin 4) d)
      = y3 (ix3 p (0 : Fin 1) d) :=
  concatenate_apply_piece (t := S256x4x128) (1 : Fin 3) [⟨S256x1x128, y0⟩, ⟨S256x1x128, y1⟩, ⟨S256x1x128, y2⟩, ⟨S256x1x128, y3⟩]
    concatenates_S256x1x128_S256x1x128_S256x1x128_S256x1x128_S256x4x128_d1 (ix3 p (3 : Fin 4) d) 3 (by simp) S256x1x128 y3 rfl rfl 3 rfl (ix3 p (0 : Fin 1) d)
    (fun b hb => by match b with | ⟨0, _⟩ => rfl | ⟨1, _⟩ => exact absurd rfl hb | ⟨2, _⟩ => rfl) (by rfl)

/-- The second output's block at (p, k, j): tanh of the context block's row p against row j of gate k's projection matrix. -/
theorem out5_apply (x0 : Vec Ideal S256x256 .bf16) (x1 : Vec Ideal S4x1024x256 .bf16) (x2 : Vec Ideal S4x128x256 .bf16) (x3 : Vec Ideal S4x256 .bf16)
    (p : Fin 256) (k : Fin 4) (d : Fin 128) :
    out0_5 (F := Ideal) x0 x1 x2 x3 (ix3 p k d) = Ideal.tanh (∑ i : Fin 256, x0 (ix2 p i) * x2 (ix3 k d i)) := by
  unfold out0_5
  rw [View.canon_unit_zero hz3]
  simp only [View.ld_unit_zero (S := S256x256) hz2]
  unfold k0_pay2
  rw [ValueIdx.truncf_apply]
  rcases fin4_cases k with rfl | rfl | rfl | rfl
  · rw [cat4U_0, pay6_apply]; congr 1; refine Finset.sum_congr rfl fun i _ => ?_
    rw [ld_gateU x2 _ _ 0 rfl rfl rfl]
  · rw [cat4U_1, pay8_apply]; congr 1; refine Finset.sum_congr rfl fun i _ => ?_
    rw [ld_gateU x2 _ _ 1 rfl rfl rfl]
  · rw [cat4U_2, pay10_apply]; congr 1; refine Finset.sum_congr rfl fun i _ => ?_
    rw [ld_gateU x2 _ _ 2 rfl rfl rfl]
  · rw [cat4U_3, pay4_eq, projBlock_apply]; congr 1; refine Finset.sum_congr rfl fun i _ => ?_
    rw [ld_gateU x2 _ _ 3 rfl rfl rfl]

theorem out5_at (x0 : Vec Ideal S256x256 .bf16) (x1 : Vec Ideal S4x1024x256 .bf16) (x2 : Vec Ideal S4x128x256 .bf16) (x3 : Vec Ideal S4x256 .bf16)
    (y : S256x4x128.Idx) :
    out0_5 (F := Ideal) x0 x1 x2 x3 y = Ideal.tanh (∑ i : Fin 256, x0 (ix2 (⟨(y 0).val, (y 0).isLt⟩ : Fin 256) i)
      * x2 (ix3 (⟨(y 1).val, (y 1).isLt⟩ : Fin 4) (⟨(y 2).val, (y 2).isLt⟩ : Fin 128) i)) :=
  (congrArg (out0_5 (F := Ideal) x0 x1 x2 x3) (eq_ix3 y)).trans
    (out5_apply x0 x1 x2 x3 (⟨(y 0).val, (y 0).isLt⟩ : Fin 256) (⟨(y 1).val, (y 1).isLt⟩ : Fin 4) (⟨(y 2).val, (y 2).isLt⟩ : Fin 128))

/-- A block of context projections against the whole array. -/
theorem ctx_pt (g : Cert.Spec.A2 1024 256) (U : Cert.Spec.A3 4 128 256)
    (x0 : Vec Ideal S256x256 .bf16) (x1 : Vec Ideal S4x1024x256 .bf16) (x2 : Vec Ideal S4x128x256 .bf16) (x3 : Vec Ideal S4x256 .bf16)
    (r : Nat) (hr : r < 4)
    (h0 : ∀ (p i : Fin 256), x0 (ix2 p i) = g (ix2 (⟨r * 256 + p.val, by omega⟩ : Fin 1024) i))
    (h2 : ∀ (k : Fin 4) (d : Fin 128) (i : Fin 256), x2 (ix3 k d i) = U (ix3 k d i))
    (y : S256x4x128.Idx) (z : S1024x4x128.Idx)
    (hz0 : (z 0).val = r * 256 + (y 0).val) (hz1 : (z 1).val = (y 1).val) (hz2 : (z 2).val = (y 2).val) :
    out0_5 (F := Ideal) x0 x1 x2 x3 y = Cert.Spec.ctxArr g U z := by
  rw [out5_at]
  unfold Cert.Spec.ctxArr Cert.Spec.ctxProj
  congr 1
  refine Finset.sum_congr rfl fun i _ => ?_
  rw [h0, h2]
  have e0 : (⟨r * 256 + (y 0).val, by have := (y 0).isLt; simp at this; omega⟩ : Fin 1024) = ⟨(z 0).val, (z 0).isLt⟩ := Fin.ext hz0.symm
  have e1 : (⟨(y 1).val, (y 1).isLt⟩ : Fin 4) = ⟨(z 1).val, (z 1).isLt⟩ := Fin.ext hz1.symm
  have e2 : (⟨(y 2).val, (y 2).isLt⟩ : Fin 128) = ⟨(z 2).val, (z 2).isLt⟩ := Fin.ext hz2.symm
  rw [e0, e1, e2]

/-! The product of a [256,256] block with the transpose of a [4,256] matrix, read at an entry. -/

theorem lhs_mmG_0 (i : S256x4.Idx) (q : dot_S256x256_S4x256_S256x4_1_1_0_0_n_n.contr.Idx) :
    (dot_S256x256_S4x256_S256x4_1_1_0_0_n_n.lhsIdx i q 0).val = (i 0).val := by
  unfold DotDims.lhsIdx
  rw [dif_neg (show ¬(0 : Fin S256x256.rank) ∈ dot_S256x256_S4x256_S256x4_1_1_0_0_n_n.lhsBatch by decide), dif_pos (show (0 : Fin S256x256.rank) ∈ dot_S256x256_S4x256_S256x4_1_1_0_0_n_n.lhsNonContracting by decide)]
  rfl
theorem lhs_mmG_1 (i : S256x4.Idx) (q : dot_S256x256_S4x256_S256x4_1_1_0_0_n_n.contr.Idx) :
    (dot_S256x256_S4x256_S256x4_1_1_0_0_n_n.lhsIdx i q 1).val = (q ⟨0, by decide⟩).val :=
  dot_S256x256_S4x256_S256x4_1_1_0_0_n_n.lhsIdx_val_of_single rfl i q
theorem rhs_mmG_0 (i : S256x4.Idx) (q : dot_S256x256_S4x256_S256x4_1_1_0_0_n_n.contr.Idx) :
    (dot_S256x256_S4x256_S256x4_1_1_0_0_n_n.rhsIdx i q 0).val = (i 1).val := by
  unfold DotDims.rhsIdx
  rw [dif_neg (show ¬(0 : Fin S4x256.rank) ∈ dot_S256x256_S4x256_S256x4_1_1_0_0_n_n.rhsBatch by decide), dif_pos (show (0 : Fin S4x256.rank) ∈ dot_S256x256_S4x256_S256x4_1_1_0_0_n_n.rhsNonContracting by decide)]
  rfl
theorem rhs_mmG_1 (i : S256x4.Idx) (q : dot_S256x256_S4x256_S256x4_1_1_0_0_n_n.contr.Idx) :
    (dot_S256x256_S4x256_S256x4_1_1_0_0_n_n.rhsIdx i q 1).val = (q ⟨0, by decide⟩).val :=
  dot_S256x256_S4x256_S256x4_1_1_0_0_n_n.rhsIdx_val_of_single rfl i q

theorem mmG_apply (a : FVec Ideal S256x256 .bf16) (b : FVec Ideal S4x256 .bf16) (p : Fin 256) (d : Fin 4) :
    matmul dot_S256x256_S4x256_S256x4_1_1_0_0_n_n none a b (constant (F := Ideal) S256x4 .f32 0x00000000#32) (ix2 p d)
      = ∑ i : Fin 256, a (ix2 p i) * b (ix2 d i) := by
  simp only [matmul]
  rw [Ideal.matmul_constant_zero_apply, ← Equiv.sum_comp (ValueIdx.contrEquiv1 dot_S256x256_S4x256_S256x4_1_1_0_0_n_n 256 rfl rfl).symm]
  refine Finset.sum_congr rfl fun k _ => ?_
  have hk := ValueIdx.contrEquiv1_symm_val dot_S256x256_S4x256_S256x4_1_1_0_0_n_n 256 rfl rfl k
  have el : dot_S256x256_S4x256_S256x4_1_1_0_0_n_n.lhsIdx (ix2 p d) ((ValueIdx.contrEquiv1 dot_S256x256_S4x256_S256x4_1_1_0_0_n_n 256 rfl rfl).symm k) = ix2 p k := funext fun a => Fin.ext (by
    match a with
    | ⟨0, _⟩ => exact lhs_mmG_0 _ _
    | ⟨1, _⟩ => exact (lhs_mmG_1 _ _).trans hk)
  have er : dot_S256x256_S4x256_S256x4_1_1_0_0_n_n.rhsIdx (ix2 p d) ((ValueIdx.contrEquiv1 dot_S256x256_S4x256_S256x4_1_1_0_0_n_n 256 rfl rfl).symm k) = ix2 d k := funext fun a => Fin.ext (by
    match a with
    | ⟨0, _⟩ => exact rhs_mmG_0 _ _
    | ⟨1, _⟩ => exact (rhs_mmG_1 _ _).trans hk)
  rw [el, er]

/-- The third output's block at (p, k): the context block's row p against row k of the gate rows. -/
theorem out6_apply (x0 : Vec Ideal S256x256 .bf16) (x1 : Vec Ideal S4x1024x256 .bf16) (x2 : Vec Ideal S4x128x256 .bf16) (x3 : Vec Ideal S4x256 .bf16)
    (p : Fin 256) (k : Fin 4) :
    out0_6 (F := Ideal) x0 x1 x2 x3 (ix2 p k) = ∑ i : Fin 256, x0 (ix2 p i) * x3 (ix2 k i) := by
  unfold out0_6
  rw [View.canon_unit_zero hz2]
  simp only [View.ld_unit_zero (S := S256x256) hz2, View.ld_unit_zero (S := S4x256) hz2]
  unfold k0_pay3
  rw [pay4_eq, shapeCast_self]
  exact mmG_apply x0 x3 p k

theorem out6_at (x0 : Vec Ideal S256x256 .bf16) (x1 : Vec Ideal S4x1024x256 .bf16) (x2 : Vec Ideal S4x128x256 .bf16) (x3 : Vec Ideal S4x256 .bf16)
    (y : S256x4.Idx) :
    out0_6 (F := Ideal) x0 x1 x2 x3 y = ∑ i : Fin 256, x0 (ix2 (⟨(y 0).val, (y 0).isLt⟩ : Fin 256) i)
      * x3 (ix2 (⟨(y 1).val, (y 1).isLt⟩ : Fin 4) i) :=
  (congrArg (out0_6 (F := Ideal) x0 x1 x2 x3) (eq_ix2 y)).trans
    (out6_apply x0 x1 x2 x3 (⟨(y 0).val, (y 0).isLt⟩ : Fin 256) (⟨(y 1).val, (y 1).isLt⟩ : Fin 4))

/-- A block of gate biases against the whole array. -/
theorem gate_pt (g : Cert.Spec.A2 1024 256) (u : Cert.Spec.A2 4 256)
    (x0 : Vec Ideal S256x256 .bf16) (x1 : Vec Ideal S4x1024x256 .bf16) (x2 : Vec Ideal S4x128x256 .bf16) (x3 : Vec Ideal S4x256 .bf16)
    (r : Nat) (hr : r < 4)
    (h0 : ∀ (p i : Fin 256), x0 (ix2 p i) = g (ix2 (⟨r * 256 + p.val, by omega⟩ : Fin 1024) i))
    (h3 : ∀ (k : Fin 4) (i : Fin 256), x3 (ix2 k i) = u (ix2 k i))
    (y : S256x4.Idx) (z : S1024x4.Idx)
    (hz0 : (z 0).val = r * 256 + (y 0).val) (hz1 : (z 1).val = (y 1).val) :
    out0_6 (F := Ideal) x0 x1 x2 x3 y = Cert.Spec.gateArr g u z := by
  rw [out6_at]
  unfold Cert.Spec.gateArr Cert.Spec.gateBias
  refine Finset.sum_congr rfl fun i _ => ?_
  rw [h0, h3]
  have e0 : (⟨r * 256 + (y 0).val, by have := (y 0).isLt; simp at this; omega⟩ : Fin 1024) = ⟨(z 0).val, (z 0).isLt⟩ := Fin.ext hz0.symm
  have e1 : (⟨(y 1).val, (y 1).isLt⟩ : Fin 4) = ⟨(z 1).val, (z 1).isLt⟩ := Fin.ext hz1.symm
  rw [e0, e1]

/-! ## From blocks to arrays -/

/-- The region's grid has four points. -/
theorem lt_four (t : Fin cfg0.N) : t.val < 4 := by
  have h := t.isLt
  have e : cfg0.N = 4 := N_0
  omega

/-- The printed index maps, decided once over the grid: the context and the three outputs move down one block of 256
    rows per point; the matrices are read whole at every point. -/
theorem idx_facts : ∀ t : Fin cfg0.N,
    win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0
    ∧ win0_6.index t (0 : Fin 2) = t.val ∧ win0_6.index t (1 : Fin 2) = 0 :=
  (by decide +kernel : ∀ t : Fin grid0.N, _)

/-- The context block at point t is rows t·256 … of the context. -/
theorem ctx_blk (c : Dev nD) (t : Fin cfg0.N) (p i : Fin 256) :
    iblk0 V c 0 t (ix2 p i) = V c main_v1 (ix2 (⟨t.val * 256 + p.val, by have := lt_four t; omega⟩ : Fin 1024) i) := by
  obtain ⟨e0, e1, -⟩ := idx_facts t
  show V c main_v1 (((cfg0.win 0).blk t).view.emb (ix2 p i)) = _
  congr 1
  funext a; apply Fin.ext
  match a with
  | ⟨0, _⟩ => show win0_0.index t (0 : Fin 2) * 256 + 1 * p.val = t.val * 256 + p.val; rw [e0]; omega
  | ⟨1, _⟩ => show win0_0.index t (1 : Fin 2) * 256 + 1 * i.val = i.val; rw [e1]; omega

/-- The stacked [4,1024,256] matrices are read whole at every point. -/
theorem H_blk (c : Dev nD) (t : Fin cfg0.N) (k : Fin 4) (d : Fin 1024) (i : Fin 256) :
    iblk0 V c 1 t (ix3 k d i) = V c main_v2 (ix3 k d i) := by
  obtain ⟨-, -, e0, e1, e2, -⟩ := idx_facts t
  show V c main_v2 (((cfg0.win 1).blk t).view.emb (ix3 k d i)) = _
  congr 1
  funext a; apply Fin.ext
  match a with
  | ⟨0, _⟩ => show win0_1.index t (0 : Fin 3) * 4 + 1 * k.val = k.val; rw [e0]; omega
  | ⟨1, _⟩ => show win0_1.index t (1 : Fin 3) * 1024 + 1 * d.val = d.val; rw [e1]; omega
  | ⟨2, _⟩ => show win0_1.index t (2 : Fin 3) * 256 + 1 * i.val = i.val; rw [e2]; omega

/-- What point t writes back to the first output is block t of the hidden-state array. -/
theorem flushed4_eq (c : Dev nD) (t : Fin cfg0.N) :
    (dat0 (F := Ideal) V c).flushed 4 t
      = ((cfg0.win 4).blk t).view.read (Elt Ideal) (Cert.Spec.hiddenArr (V c main_v1) (V c main_v2)) := by
  show (cfg0.win 4).cut (grid0.coords t) ((dat0 V c).after 4 t) = _
  rw [after0_4]
  obtain ⟨-, -, -, -, -, -, -, -, -, -, e0, e1, e2, -⟩ := idx_facts t
  funext j
  refine hidden_pt (V c main_v1) (V c main_v2) (iblk0 V c 0 t) (iblk0 V c 1 t) (iblk0 V c 2 t) (iblk0 V c 3 t)
    t.val (lt_four t) (ctx_blk V c t) (H_blk V c t) _ _ ?_ ?_ ?_
  · show win0_4.index t (0 : Fin 3) * 256 + 1 * (j 0).val = t.val * 256 + (j 0).val; rw [e0]; omega
  · show win0_4.index t (1 : Fin 3) * 4 + 1 * (j 1).val = (j 1).val; rw [e1]; omega
  · show win0_4.index t (2 : Fin 3) * 1024 + 1 * (j 2).val = (j 2).val; rw [e2]; omega

/-- An index of the first output's array is in point t's block iff each coordinate is in the block's range. -/
theorem mem_blk4 (t : Fin cfg0.N) (i : S1024x4x1024.Idx) :
    i ∈ ((cfg0.win 4).blk t).view.set ↔ ∀ a : Fin 3, win0_4.index t a * S256x4x1024.size a ≤ (i a).val
      ∧ (i a).val < win0_4.index t a * S256x4x1024.size a + S256x4x1024.size a := by
  show i ∈ ((View.whole main_v8_0).slice (win0_4.rect t)).set ↔ _
  rw [View.set_slice_whole, Rect.mem_set_unit]
  exact Iff.rfl

/-- The point whose block holds row r. -/
def rowPoint (r : Nat) (h : r < 1024) : Fin cfg0.N := ⟨r / 256, by have e : cfg0.N = 4 := N_0; omega⟩

/-- The four blocks cover the first output's array. -/
theorem cover4 (i : S1024x4x1024.Idx) :
    ∃ t : Fin cfg0.N, (cfg0.win 4).flush t = true ∧ i ∈ ((cfg0.win 4).blk t).view.set := by
  have hi0 : (i 0).val < 1024 := (i 0).isLt
  have hi1 : (i 1).val < 4 := (i 1).isLt
  have hi2 : (i 2).val < 1024 := (i 2).isLt
  refine ⟨rowPoint (i 0).val hi0, flush0_4 _, ?_⟩
  obtain ⟨-, -, -, -, -, -, -, -, -, -, e0, e1, e2, -⟩ := idx_facts (rowPoint (i 0).val hi0)
  have ht : (rowPoint (i 0).val hi0).val = (i 0).val / 256 := rfl
  rw [mem_blk4]
  intro a
  match a with
  | ⟨0, _⟩ =>
    show win0_4.index _ (0 : Fin 3) * 256 ≤ (i 0).val ∧ (i 0).val < win0_4.index _ (0 : Fin 3) * 256 + 256
    rw [e0, ht]; omega
  | ⟨1, _⟩ =>
    show win0_4.index _ (1 : Fin 3) * 4 ≤ (i 1).val ∧ (i 1).val < win0_4.index _ (1 : Fin 3) * 4 + 4
    rw [e1]; omega
  | ⟨2, _⟩ =>
    show win0_4.index _ (2 : Fin 3) * 1024 ≤ (i 2).val ∧ (i 2).val < win0_4.index _ (2 : Fin 3) * 1024 + 1024
    rw [e2]; omega

theorem hidden_arr (c : Dev nD) :
    (dat0 (F := Ideal) V c).arrAt 4 cfg0.N = Cert.Spec.hiddenArr (V c main_v1) (V c main_v2) :=
  (dat0 (F := Ideal) V c).arrAt_eq_of_cover 4 (Cert.Spec.hiddenArr (V c main_v1) (V c main_v2))
    (fun t _ => flushed4_eq V c t) cover4

/-- The stacked [4,128,256] projection matrices are read whole at every point. -/
theorem U_blk (c : Dev nD) (t : Fin cfg0.N) (k : Fin 4) (d : Fin 128) (i : Fin 256) :
    iblk0 V c 2 t (ix3 k d i) = V c main_v3 (ix3 k d i) := by
  obtain ⟨-, -, -, -, -, e0, e1, e2, -⟩ := idx_facts t
  show V c main_v3 (((cfg0.win 2).blk t).view.emb (ix3 k d i)) = _
  congr 1
  funext a; apply Fin.ext
  match a with
  | ⟨0, _⟩ => show win0_2.index t (0 : Fin 3) * 4 + 1 * k.val = k.val; rw [e0]; omega
  | ⟨1, _⟩ => show win0_2.index t (1 : Fin 3) * 128 + 1 * d.val = d.val; rw [e1]; omega
  | ⟨2, _⟩ => show win0_2.index t (2 : Fin 3) * 256 + 1 * i.val = i.val; rw [e2]; omega

/-- The [4,256] gate rows are read whole at every point. -/
theorem u_blk (c : Dev nD) (t : Fin cfg0.N) (k : Fin 4) (i : Fin 256) :
    iblk0 V c 3 t (ix2 k i) = V c main_v4 (ix2 k i) := by
  obtain ⟨-, -, -, -, -, -, -, -, e0, e1, -⟩ := idx_facts t
  show V c main_v4 (((cfg0.win 3).blk t).view.emb (ix2 k i)) = _
  congr 1
  funext a; apply Fin.ext
  match a with
  | ⟨0, _⟩ => show win0_3.index t (0 : Fin 2) * 4 + 1 * k.val = k.val; rw [e0]; omega
  | ⟨1, _⟩ => show win0_3.index t (1 : Fin 2) * 256 + 1 * i.val = i.val; rw [e1]; omega

/-- What point t writes back to the second output is block t of the context-projection array. -/
theorem flushed5_eq (c : Dev nD) (t : Fin cfg0.N) :
    (dat0 (F := Ideal) V c).flushed 5 t
      = ((cfg0.win 5).blk t).view.read (Elt Ideal) (Cert.Spec.ctxArr (V c main_v1) (V c main_v3)) := by
  show (cfg0.win 5).cut (grid0.coords t) ((dat0 V c).after 5 t) = _
  rw [after0_5]
  obtain ⟨-, -, -, -, -, -, -, -, -, -, -, -, -, e0, e1, e2, -⟩ := idx_facts t
  funext j
  refine ctx_pt (V c main_v1) (V c main_v3) (iblk0 V c 0 t) (iblk0 V c 1 t) (iblk0 V c 2 t) (iblk0 V c 3 t)
    t.val (lt_four t) (ctx_blk V c t) (U_blk V c t) _ _ ?_ ?_ ?_
  · show win0_5.index t (0 : Fin 3) * 256 + 1 * (j 0).val = t.val * 256 + (j 0).val; rw [e0]; omega
  · show win0_5.index t (1 : Fin 3) * 4 + 1 * (j 1).val = (j 1).val; rw [e1]; omega
  · show win0_5.index t (2 : Fin 3) * 128 + 1 * (j 2).val = (j 2).val; rw [e2]; omega

theorem mem_blk5 (t : Fin cfg0.N) (i : S1024x4x128.Idx) :
    i ∈ ((cfg0.win 5).blk t).view.set ↔ ∀ a : Fin 3, win0_5.index t a * S256x4x128.size a ≤ (i a).val
      ∧ (i a).val < win0_5.index t a * S256x4x128.size a + S256x4x128.size a := by
  show i ∈ ((View.whole main_v8_1).slice (win0_5.rect t)).set ↔ _
  rw [View.set_slice_whole, Rect.mem_set_unit]
  exact Iff.rfl

/-- The four blocks cover the second output's array. -/
theorem cover5 (i : S1024x4x128.Idx) :
    ∃ t : Fin cfg0.N, (cfg0.win 5).flush t = true ∧ i ∈ ((cfg0.win 5).blk t).view.set := by
  have hi0 : (i 0).val < 1024 := (i 0).isLt
  have hi1 : (i 1).val < 4 := (i 1).isLt
  have hi2 : (i 2).val < 128 := (i 2).isLt
  refine ⟨rowPoint (i 0).val hi0, flush0_5 _, ?_⟩
  obtain ⟨-, -, -, -, -, -, -, -, -, -, -, -, -, e0, e1, e2, -⟩ := idx_facts (rowPoint (i 0).val hi0)
  have ht : (rowPoint (i 0).val hi0).val = (i 0).val / 256 := rfl
  rw [mem_blk5]
  intro a
  match a with
  | ⟨0, _⟩ =>
    show win0_5.index _ (0 : Fin 3) * 256 ≤ (i 0).val ∧ (i 0).val < win0_5.index _ (0 : Fin 3) * 256 + 256
    rw [e0, ht]; omega
  | ⟨1, _⟩ =>
    show win0_5.index _ (1 : Fin 3) * 4 ≤ (i 1).val ∧ (i 1).val < win0_5.index _ (1 : Fin 3) * 4 + 4
    rw [e1]; omega
  | ⟨2, _⟩ =>
    show win0_5.index _ (2 : Fin 3) * 128 ≤ (i 2).val ∧ (i 2).val < win0_5.index _ (2 : Fin 3) * 128 + 128
    rw [e2]; omega

theorem ctx_arr (c : Dev nD) :
    (dat0 (F := Ideal) V c).arrAt 5 cfg0.N = Cert.Spec.ctxArr (V c main_v1) (V c main_v3) :=
  (dat0 (F := Ideal) V c).arrAt_eq_of_cover 5 (Cert.Spec.ctxArr (V c main_v1) (V c main_v3))
    (fun t _ => flushed5_eq V c t) cover5

/-- What point t writes back to the third output is block t of the gate-bias array. -/
theorem flushed6_eq (c : Dev nD) (t : Fin cfg0.N) :
    (dat0 (F := Ideal) V c).flushed 6 t
      = ((cfg0.win 6).blk t).view.read (Elt Ideal) (Cert.Spec.gateArr (V c main_v1) (V c main_v4)) := by
  show (cfg0.win 6).cut (grid0.coords t) ((dat0 V c).after 6 t) = _
  rw [after0_6]
  obtain ⟨-, -, -, -, -, -, -, -, -, -, -, -, -, -, -, -, e0, e1⟩ := idx_facts t
  funext j
  refine gate_pt (V c main_v1) (V c main_v4) (iblk0 V c 0 t) (iblk0 V c 1 t) (iblk0 V c 2 t) (iblk0 V c 3 t)
    t.val (lt_four t) (ctx_blk V c t) (u_blk V c t) _ _ ?_ ?_
  · show win0_6.index t (0 : Fin 2) * 256 + 1 * (j 0).val = t.val * 256 + (j 0).val; rw [e0]; omega
  · show win0_6.index t (1 : Fin 2) * 4 + 1 * (j 1).val = (j 1).val; rw [e1]; omega

theorem mem_blk6 (t : Fin cfg0.N) (i : S1024x4.Idx) :
    i ∈ ((cfg0.win 6).blk t).view.set ↔ ∀ a : Fin 2, win0_6.index t a * S256x4.size a ≤ (i a).val
      ∧ (i a).val < win0_6.index t a * S256x4.size a + S256x4.size a := by
  show i ∈ ((View.whole main_v8_2).slice (win0_6.rect t)).set ↔ _
  rw [View.set_slice_whole, Rect.mem_set_unit]
  exact Iff.rfl

/-- The four blocks cover the third output's array. -/
theorem cover6 (i : S1024x4.Idx) :
    ∃ t : Fin cfg0.N, (cfg0.win 6).flush t = true ∧ i ∈ ((cfg0.win 6).blk t).view.set := by
  have hi0 : (i 0).val < 1024 := (i 0).isLt
  have hi1 : (i 1).val < 4 := (i 1).isLt
  refine ⟨rowPoint (i 0).val hi0, flush0_6 _, ?_⟩
  obtain ⟨-, -, -, -, -, -, -, -, -, -, -, -, -, -, -, -, e0, e1⟩ := idx_facts (rowPoint (i 0).val hi0)
  have ht : (rowPoint (i 0).val hi0).val = (i 0).val / 256 := rfl
  rw [mem_blk6]
  intro a
  match a with
  | ⟨0, _⟩ =>
    show win0_6.index _ (0 : Fin 2) * 256 ≤ (i 0).val ∧ (i 0).val < win0_6.index _ (0 : Fin 2) * 256 + 256
    rw [e0, ht]; omega
  | ⟨1, _⟩ =>
    show win0_6.index _ (1 : Fin 2) * 4 ≤ (i 1).val ∧ (i 1).val < win0_6.index _ (1 : Fin 2) * 4 + 4
    rw [e1]; omega

theorem gate_arr (c : Dev nD) :
    (dat0 (F := Ideal) V c).arrAt 6 cfg0.N = Cert.Spec.gateArr (V c main_v1) (V c main_v4) :=
  (dat0 (F := Ideal) V c).arrAt_eq_of_cover 6 (Cert.Spec.gateArr (V c main_v1) (V c main_v4))
    (fun t _ => flushed6_eq V c t) cover6

end Cert.KernelIdeal.PrepRegion

end
-- ==== Proof.MixRegion.lean ====
/-
  The second kernel region (the mixture), read as values: whatever the region finds in its six input arrays, its
  output array ends holding, at position `p` and vocabulary entry `q`, the sigmoid-tree mixture of the four gate scores.
-/
import proofs.«158760_j82824149336212_1_alg».proof.Proof.Gen.KernelIdeal.Frame
import proofs.«158760_j82824149336212_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.MixRegion

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The two matrix products at an index

Both products contract the second axis of each operand: entry (p, q) of the product is the sum over the contracted
coordinate of row p of the left operand against row q of the right one. -/

theorem lhsK_0 (i : S128x3200.Idx) (q : dot_S128x128_S3200x128_S128x3200_1_1_0_0_n_n.contr.Idx) :
    (dot_S128x128_S3200x128_S128x3200_1_1_0_0_n_n.lhsIdx i q 0).val = (i 0).val := by
  unfold DotDims.lhsIdx
  rw [dif_neg (show ¬(0 : Fin S128x128.rank) ∈ dot_S128x128_S3200x128_S128x3200_1_1_0_0_n_n.lhsBatch by decide), dif_pos (show (0 : Fin S128x128.rank) ∈ dot_S128x128_S3200x128_S128x3200_1_1_0_0_n_n.lhsNonContracting by decide)]
  rfl
theorem lhsK_1 (i : S128x3200.Idx) (q : dot_S128x128_S3200x128_S128x3200_1_1_0_0_n_n.contr.Idx) :
    (dot_S128x128_S3200x128_S128x3200_1_1_0_0_n_n.lhsIdx i q 1).val = (q ⟨0, by decide⟩).val :=
  dot_S128x128_S3200x128_S128x3200_1_1_0_0_n_n.lhsIdx_val_of_single rfl i q
theorem rhsK_0 (i : S128x3200.Idx) (q : dot_S128x128_S3200x128_S128x3200_1_1_0_0_n_n.contr.Idx) :
    (dot_S128x128_S3200x128_S128x3200_1_1_0_0_n_n.rhsIdx i q 0).val = (i 1).val := by
  unfold DotDims.rhsIdx
  rw [dif_neg (show ¬(0 : Fin S3200x128.rank) ∈ dot_S128x128_S3200x128_S128x3200_1_1_0_0_n_n.rhsBatch by decide), dif_pos (show (0 : Fin S3200x128.rank) ∈ dot_S128x128_S3200x128_S128x3200_1_1_0_0_n_n.rhsNonContracting by decide)]
  rfl
theorem rhsK_1 (i : S128x3200.Idx) (q : dot_S128x128_S3200x128_S128x3200_1_1_0_0_n_n.contr.Idx) :
    (dot_S128x128_S3200x128_S128x3200_1_1_0_0_n_n.rhsIdx i q 1).val = (q ⟨0, by decide⟩).val :=
  dot_S128x128_S3200x128_S128x3200_1_1_0_0_n_n.rhsIdx_val_of_single rfl i q

/-- The gate product: [128, 128] against [3200, 128], both contracted on their second axis. -/
theorem matmulK_apply (a : FVec Ideal S128x128 .bf16) (b : FVec Ideal S3200x128 .bf16) (p : Fin 128) (q : Fin 3200) :
    matmul dot_S128x128_S3200x128_S128x3200_1_1_0_0_n_n none a b (constant (F := Ideal) S128x3200 .f32 0x00000000#32) (ix2 p q)
      = ∑ k : Fin 128, a (ix2 p k) * b (ix2 q k) := by
  simp only [matmul]
  rw [Ideal.matmul_constant_zero_apply, ← Equiv.sum_comp (contrEquiv1 dot_S128x128_S3200x128_S128x3200_1_1_0_0_n_n 128 rfl rfl).symm]
  refine Finset.sum_congr rfl fun k _ => ?_
  have hk := contrEquiv1_symm_val dot_S128x128_S3200x128_S128x3200_1_1_0_0_n_n 128 rfl rfl k
  have el : dot_S128x128_S3200x128_S128x3200_1_1_0_0_n_n.lhsIdx (ix2 p q) ((contrEquiv1 dot_S128x128_S3200x128_S128x3200_1_1_0_0_n_n 128 rfl rfl).symm k) = ix2 p k := funext fun a => Fin.ext (by
    match a with
    | ⟨0, _⟩ => exact lhsK_0 _ _
    | ⟨1, _⟩ => exact (lhsK_1 _ _).trans hk)
  have er : dot_S128x128_S3200x128_S128x3200_1_1_0_0_n_n.rhsIdx (ix2 p q) ((contrEquiv1 dot_S128x128_S3200x128_S128x3200_1_1_0_0_n_n 128 rfl rfl).symm k) = ix2 q k := funext fun a => Fin.ext (by
    match a with
    | ⟨0, _⟩ => exact rhsK_0 _ _
    | ⟨1, _⟩ => exact (rhsK_1 _ _).trans hk)
  rw [el, er]

theorem lhsH_0 (i : S128x3200.Idx) (q : dot_S128x1024_S3200x1024_S128x3200_1_1_0_0_n_n.contr.Idx) :
    (dot_S128x1024_S3200x1024_S128x3200_1_1_0_0_n_n.lhsIdx i q 0).val = (i 0).val := by
  unfold DotDims.lhsIdx
  rw [dif_neg (show ¬(0 : Fin S128x1024.rank) ∈ dot_S128x1024_S3200x1024_S128x3200_1_1_0_0_n_n.lhsBatch by decide), dif_pos (show (0 : Fin S128x1024.rank) ∈ dot_S128x1024_S3200x1024_S128x3200_1_1_0_0_n_n.lhsNonContracting by decide)]
  rfl
theorem lhsH_1 (i : S128x3200.Idx) (q : dot_S128x1024_S3200x1024_S128x3200_1_1_0_0_n_n.contr.Idx) :
    (dot_S128x1024_S3200x1024_S128x3200_1_1_0_0_n_n.lhsIdx i q 1).val = (q ⟨0, by decide⟩).val :=
  dot_S128x1024_S3200x1024_S128x3200_1_1_0_0_n_n.lhsIdx_val_of_single rfl i q
theorem rhsH_0 (i : S128x3200.Idx) (q : dot_S128x1024_S3200x1024_S128x3200_1_1_0_0_n_n.contr.Idx) :
    (dot_S128x1024_S3200x1024_S128x3200_1_1_0_0_n_n.rhsIdx i q 0).val = (i 1).val := by
  unfold DotDims.rhsIdx
  rw [dif_neg (show ¬(0 : Fin S3200x1024.rank) ∈ dot_S128x1024_S3200x1024_S128x3200_1_1_0_0_n_n.rhsBatch by decide), dif_pos (show (0 : Fin S3200x1024.rank) ∈ dot_S128x1024_S3200x1024_S128x3200_1_1_0_0_n_n.rhsNonContracting by decide)]
  rfl
theorem rhsH_1 (i : S128x3200.Idx) (q : dot_S128x1024_S3200x1024_S128x3200_1_1_0_0_n_n.contr.Idx) :
    (dot_S128x1024_S3200x1024_S128x3200_1_1_0_0_n_n.rhsIdx i q 1).val = (q ⟨0, by decide⟩).val :=
  dot_S128x1024_S3200x1024_S128x3200_1_1_0_0_n_n.rhsIdx_val_of_single rfl i q

/-- The score product: [128, 1024] against [3200, 1024], both contracted on their second axis. -/
theorem matmulH_apply (a : FVec Ideal S128x1024 .bf16) (b : FVec Ideal S3200x1024 .bf16) (p : Fin 128) (q : Fin 3200) :
    matmul dot_S128x1024_S3200x1024_S128x3200_1_1_0_0_n_n none a b (constant (F := Ideal) S128x3200 .f32 0x00000000#32) (ix2 p q)
      = ∑ k : Fin 1024, a (ix2 p k) * b (ix2 q k) := by
  simp only [matmul]
  rw [Ideal.matmul_constant_zero_apply, ← Equiv.sum_comp (contrEquiv1 dot_S128x1024_S3200x1024_S128x3200_1_1_0_0_n_n 1024 rfl rfl).symm]
  refine Finset.sum_congr rfl fun k _ => ?_
  have hk := contrEquiv1_symm_val dot_S128x1024_S3200x1024_S128x3200_1_1_0_0_n_n 1024 rfl rfl k
  have el : dot_S128x1024_S3200x1024_S128x3200_1_1_0_0_n_n.lhsIdx (ix2 p q) ((contrEquiv1 dot_S128x1024_S3200x1024_S128x3200_1_1_0_0_n_n 1024 rfl rfl).symm k) = ix2 p k := funext fun a => Fin.ext (by
    match a with
    | ⟨0, _⟩ => exact lhsH_0 _ _
    | ⟨1, _⟩ => exact (lhsH_1 _ _).trans hk)
  have er : dot_S128x1024_S3200x1024_S128x3200_1_1_0_0_n_n.rhsIdx (ix2 p q) ((contrEquiv1 dot_S128x1024_S3200x1024_S128x3200_1_1_0_0_n_n 1024 rfl rfl).symm k) = ix2 q k := funext fun a => Fin.ext (by
    match a with
    | ⟨0, _⟩ => exact rhsH_0 _ _
    | ⟨1, _⟩ => exact (rhsH_1 _ _).trans hk)
  rw [el, er]

/-! ## The layout operations of the body at an index

Gate `g` of a [128, 4, n] block is its slice at offset `g` on the middle axis, with that axis dropped; gate `g`'s
column of the [128, 4] bias block and its row of the [4, 3200] bias table are broadcast across the other axis. -/

/-- Row `p`, coordinate `k` of gate `g`'s [128, 128] projection matrix is entry (p, g, k) of the block. -/
theorem gateProj_apply {α : Type} (x : S128x4x128.Idx → α) (g : Fin 4) (off : Fin 3 → Nat) (hoff : off = ![0, g.val, 0])
    (h : S128x4x128.Slices off S128x1x128) (hc : S128x1x128.ShapeCasts S128x128) (p : Fin 128) (k : Fin 128) :
    shapeCast S128x128 (extractStridedSlice S128x1x128 off x h) hc (ix2 p k) = x (ix3 p g k) := by
  subst hoff
  refine (shapeCast_apply _ hc (ix2 p k) (ix3 p 0 k) ?_).trans ?_
  · rw [Shape.rowMajor_val_three, Shape.rowMajor_val_two]
    show (p.val * 1 + 0) * 128 + k.val = p.val * 128 + k.val
    omega
  · refine extractStridedSlice_apply _ x h (ix3 p 0 k) (ix3 p g k) fun a => ?_
    match a with
    | ⟨0, _⟩ => show p.val = 0 + p.val; omega
    | ⟨1, _⟩ => show g.val = g.val + 0; omega
    | ⟨2, _⟩ => show k.val = 0 + k.val; omega

/-- Row `p`, coordinate `k` of gate `g`'s [128, 1024] hidden-state matrix is entry (p, g, k) of the block. -/
theorem gateHid_apply {α : Type} (x : S128x4x1024.Idx → α) (g : Fin 4) (off : Fin 3 → Nat) (hoff : off = ![0, g.val, 0])
    (h : S128x4x1024.Slices off S128x1x1024) (hc : S128x1x1024.ShapeCasts S128x1024) (p : Fin 128) (k : Fin 1024) :
    shapeCast S128x1024 (extractStridedSlice S128x1x1024 off x h) hc (ix2 p k) = x (ix3 p g k) := by
  subst hoff
  refine (shapeCast_apply _ hc (ix2 p k) (ix3 p 0 k) ?_).trans ?_
  · rw [Shape.rowMajor_val_three, Shape.rowMajor_val_two]
    show (p.val * 1 + 0) * 1024 + k.val = p.val * 1024 + k.val
    omega
  · refine extractStridedSlice_apply _ x h (ix3 p 0 k) (ix3 p g k) fun a => ?_
    match a with
    | ⟨0, _⟩ => show p.val = 0 + p.val; omega
    | ⟨1, _⟩ => show g.val = g.val + 0; omega
    | ⟨2, _⟩ => show k.val = 0 + k.val; omega

/-- Gate `g`'s column of the [128, 4] block, broadcast along the vocabulary axis, reads entry (p, g). -/
theorem gateCol_apply {α : Type} (x : S128x4.Idx → α) (g : Fin 4) (off : Fin 2 → Nat) (hoff : off = ![0, g.val])
    (h : S128x4.Slices off S128x1) (hb : S128x1.Broadcasts S128x3200) (p : Fin 128) (q : Fin 3200) :
    broadcastTo S128x3200 (extractStridedSlice S128x1 off x h) hb (ix2 p q) = x (ix2 p g) := by
  subst hoff
  refine (broadcastTo_apply _ hb (ix2 p q) (ix2 p 0) fun a => ?_).trans ?_
  · match a with
    | ⟨0, _⟩ => rfl
    | ⟨1, _⟩ => rfl
  · refine extractStridedSlice_apply _ x h (ix2 p 0) (ix2 p g) fun a => ?_
    match a with
    | ⟨0, _⟩ => show p.val = 0 + p.val; omega
    | ⟨1, _⟩ => show g.val = g.val + 0; omega

/-- Gate `g`'s row of the [4, 3200] table, broadcast along the position axis, reads entry (g, q). -/
theorem gateRow_apply {α : Type} (x : S4x3200.Idx → α) (g : Fin 4) (off : Fin 2 → Nat) (hoff : off = ![g.val, 0])
    (h : S4x3200.Slices off S1x3200) (hb : S1x3200.Broadcasts S128x3200) (p : Fin 128) (q : Fin 3200) :
    broadcastTo S128x3200 (extractStridedSlice S1x3200 off x h) hb (ix2 p q) = x (ix2 g q) := by
  subst hoff
  refine (broadcastTo_apply _ hb (ix2 p q) (ix2 0 q) fun a => ?_).trans ?_
  · match a with
    | ⟨0, _⟩ => rfl
    | ⟨1, _⟩ => rfl
  · refine extractStridedSlice_apply _ x h (ix2 0 q) (ix2 g q) fun a => ?_
    match a with
    | ⟨0, _⟩ => show g.val = g.val + 0; omega
    | ⟨1, _⟩ => show q.val = 0 + q.val; omega

/-! ## The body's payloads at an index -/

/-- A gate's logit before the logistic function, at position `p` and entry `q` of the blocks: the projection row of gate
    `g` against row `q` of `v`, plus the gate's context bias at `p`, plus the entry's bias for the gate. -/
theorem gatePre_apply (v0 : FVec Ideal S3200x128 .bf16) (v4 : FVec Ideal S128x4 .f32) (v6 : FVec Ideal S4x3200 .f32)
    (v8 : FVec Ideal S128x4x128 .bf16) (g : Fin 4)
    (o3 : Fin 3 → Nat) (ho3 : o3 = ![0, g.val, 0]) (h3 : S128x4x128.Slices o3 S128x1x128)
    (o2 : Fin 2 → Nat) (ho2 : o2 = ![0, g.val]) (h2 : S128x4.Slices o2 S128x1)
    (o1 : Fin 2 → Nat) (ho1 : o1 = ![g.val, 0]) (h1 : S4x3200.Slices o1 S1x3200)
    (p : Fin 128) (q : Fin 3200) :
    addf (addf (matmul dot_S128x128_S3200x128_S128x3200_1_1_0_0_n_n none
        (shapeCast S128x128 (extractStridedSlice S128x1x128 o3 v8 h3) shapeCasts_S128x1x128_S128x128) v0
        (constant (F := Ideal) S128x3200 .f32 0x00000000#32))
      (broadcastTo S128x3200 (extractStridedSlice S128x1 o2 v4 h2) broadcasts_S128x1_S128x3200))
      (broadcastTo S128x3200 (extractStridedSlice S1x3200 o1 v6 h1) broadcasts_S1x3200_S128x3200) (ix2 p q)
      = (∑ j : Fin 128, v8 (ix3 p g j) * v0 (ix2 q j)) + v4 (ix2 p g) + v6 (ix2 g q) := by
  rw [addf_apply, addf_apply, matmulK_apply, gateCol_apply v4 g o2 ho2, gateRow_apply v6 g o1 ho1]
  refine congrArg (· + v4 (ix2 p g) + v6 (ix2 g q)) (Finset.sum_congr rfl fun j _ => ?_)
  rw [gateProj_apply v8 g o3 ho3]

/-- A gate's score at position `p` for entry `q` of the blocks: gate `g`'s hidden state against row `q` of the embeddings. -/
theorem score_apply (v3 : FVec Ideal S3200x1024 .bf16) (v11 : FVec Ideal S128x4x1024 .bf16) (g : Fin 4)
    (o3 : Fin 3 → Nat) (ho3 : o3 = ![0, g.val, 0]) (h3 : S128x4x1024.Slices o3 S128x1x1024) (p : Fin 128) (q : Fin 3200) :
    matmul dot_S128x1024_S3200x1024_S128x3200_1_1_0_0_n_n none
        (shapeCast S128x1024 (extractStridedSlice S128x1x1024 o3 v11 h3) shapeCasts_S128x1x1024_S128x1024) v3
        (constant (F := Ideal) S128x3200 .f32 0x00000000#32) (ix2 p q)
      = ∑ d : Fin 1024, v11 (ix3 p g d) * v3 (ix2 q d) := by
  rw [matmulH_apply]
  refine Finset.sum_congr rfl fun d _ => ?_
  rw [gateHid_apply v11 g o3 ho3]

theorem pay8_apply (v0 : Vec Ideal S3200x128 .bf16) (v4 : Vec Ideal S128x4 .f32) (v6 : Vec Ideal S4x3200 .f32)
    (v8 : Vec Ideal S128x4x128 .bf16) (p : Fin 128) (q : Fin 3200) :
    k1_pay8 v0 v4 v6 v8 (ix2 p q)
      = Ideal.logistic ((∑ j : Fin 128, v8 (ix3 p 0 j) * v0 (ix2 q j)) + v4 (ix2 p 0) + v6 (ix2 0 q)) := by
  unfold k1_pay8 k1_pay2 k1_pay4 k1_pay5 k1_pay6
  simp only [shapeCast_self]
  exact congrArg Ideal.logistic (gatePre_apply v0 v4 v6 v8 0 _ rfl _ _ rfl _ _ rfl _ p q)

theorem pay9_apply (v0 : Vec Ideal S3200x128 .bf16) (v4 : Vec Ideal S128x4 .f32) (v6 : Vec Ideal S4x3200 .f32)
    (v8 : Vec Ideal S128x4x128 .bf16) (p : Fin 128) (q : Fin 3200) :
    k1_pay9 v0 v4 v6 v8 (ix2 p q)
      = Ideal.logistic ((∑ j : Fin 128, v8 (ix3 p 1 j) * v0 (ix2 q j)) + v4 (ix2 p 1) + v6 (ix2 1 q)) := by
  unfold k1_pay9 k1_pay2 k1_pay4 k1_pay5 k1_pay6
  simp only [shapeCast_self]
  exact congrArg Ideal.logistic (gatePre_apply v0 v4 v6 v8 1 _ rfl _ _ rfl _ _ rfl _ p q)

theorem pay10_apply (v0 : Vec Ideal S3200x128 .bf16) (v4 : Vec Ideal S128x4 .f32) (v6 : Vec Ideal S4x3200 .f32)
    (v8 : Vec Ideal S128x4x128 .bf16) (p : Fin 128) (q : Fin 3200) :
    k1_pay10 v0 v4 v6 v8 (ix2 p q)
      = (∑ j : Fin 128, v8 (ix3 p 2 j) * v0 (ix2 q j)) + v4 (ix2 p 2) + v6 (ix2 2 q) := by
  unfold k1_pay10 k1_pay2 k1_pay4 k1_pay5 k1_pay6
  simp only [shapeCast_self]
  exact gatePre_apply v0 v4 v6 v8 2 _ rfl _ _ rfl _ _ rfl _ p q

/-- The logistic function of a vector reads the element's. -/
theorem logistic_at {s : Shape} {φ : FTy} (x : FVec Ideal s φ) (i : s.Idx) : logistic x i = Ideal.logistic (x i) := rfl

/-- The stored value at position `p` and entry `q` of the blocks: the sigmoid tree of the two gate values already
    formed, the third gate's logit, and the four scores. -/
theorem pay1_apply (v3 : FVec Ideal S3200x1024 .bf16) (v11 : FVec Ideal S128x4x1024 .bf16)
    (v21 v31 v40 : FVec Ideal S128x3200 .f32) (p : Fin 128) (q : Fin 3200) :
    k1_pay1 v3 v11 v21 v31 v40 (ix2 p q)
      = Cert.Spec.mix (v21 (ix2 p q)) (v31 (ix2 p q)) (Ideal.logistic (v40 (ix2 p q)))
          (∑ d : Fin 1024, v11 (ix3 p 0 d) * v3 (ix2 q d)) (∑ d : Fin 1024, v11 (ix3 p 1 d) * v3 (ix2 q d))
          (∑ d : Fin 1024, v11 (ix3 p 2 d) * v3 (ix2 q d)) (∑ d : Fin 1024, v11 (ix3 p 3 d) * v3 (ix2 q d)) := by
  unfold k1_pay1
  simp only [addf_apply, mulf_apply, subf_apply, broadcast_apply, logistic_at]
  rw [score_apply v3 v11 0 ![0, 0, 0] rfl, score_apply v3 v11 1 ![0, 1, 0] rfl, score_apply v3 v11 2 ![0, 2, 0] rfl,
    score_apply v3 v11 3 ![0, 3, 0] rfl]
  rfl

theorem hz2 : (![0, 0] : Fin 2 → Nat) = fun _ => 0 := funext fun a => by fin_cases a <;> rfl
theorem hz3 : (![0, 0, 0] : Fin 3 → Nat) = fun _ => 0 := funext fun a => by fin_cases a <;> rfl

/-- WHAT THE BODY LEAVES in the output block, at position `p` and entry `q`, from the six input blocks: the sigmoid
    tree of the logistic of the first three gates' logits over the four gates' scores. -/
theorem out_apply (x0 : Vec Ideal S128x4x128 .bf16) (x1 : Vec Ideal S128x4x1024 .bf16) (x2 : Vec Ideal S128x4 .f32)
    (x3 : Vec Ideal S3200x128 .bf16) (x4 : Vec Ideal S3200x1024 .bf16) (x5 : Vec Ideal S4x3200 .f32)
    (p : Fin 128) (q : Fin 3200) :
    out1_6 x0 x1 x2 x3 x4 x5 (ix2 p q)
      = Cert.Spec.mix
          (Ideal.logistic ((∑ j : Fin 128, x0 (ix3 p 0 j) * x3 (ix2 q j)) + x2 (ix2 p 0) + x5 (ix2 0 q)))
          (Ideal.logistic ((∑ j : Fin 128, x0 (ix3 p 1 j) * x3 (ix2 q j)) + x2 (ix2 p 1) + x5 (ix2 1 q)))
          (Ideal.logistic ((∑ j : Fin 128, x0 (ix3 p 2 j) * x3 (ix2 q j)) + x2 (ix2 p 2) + x5 (ix2 2 q)))
          (∑ d : Fin 1024, x1 (ix3 p 0 d) * x4 (ix2 q d)) (∑ d : Fin 1024, x1 (ix3 p 1 d) * x4 (ix2 q d))
          (∑ d : Fin 1024, x1 (ix3 p 2 d) * x4 (ix2 q d)) (∑ d : Fin 1024, x1 (ix3 p 3 d) * x4 (ix2 q d)) := by
  unfold out1_6
  rw [View.canon_unit_zero hz2]
  simp only [View.ld_unit_zero (S := S3200x128) hz2, View.ld_unit_zero (S := S3200x1024) hz2,
    View.ld_unit_zero (S := S128x4) hz2, View.ld_unit_zero (S := S4x3200) hz2,
    View.ld_unit_zero (S := S128x4x128) hz3, View.ld_unit_zero (S := S128x4x1024) hz3]
  unfold k1_pay3 k1_pay7
  simp only [shapeCast_self]
  rw [pay1_apply, pay8_apply, pay9_apply, pay10_apply]

variable (V : (c : Dev nD) → (b : Ref sig .tc) → Buf (Elt Ideal) ((c : Thread nD τ).loc b))

/-! ## From blocks to the array

At grid point `t` the output block is block (bi, vi) of the [1024, 32000] array; the three position-indexed inputs are
read at block bi of their leading axis, the three vocabulary-indexed ones at block vi of their vocabulary axis. -/

/-- The printed index maps over the grid: every input window moves with the output window, and the output's block
    indices stay in range. -/
theorem idx_facts : ∀ t : Fin cfg1.N,
    win1_0.index t (0 : Fin 3) = win1_6.index t (0 : Fin 2) ∧ win1_0.index t (1 : Fin 3) = 0 ∧ win1_0.index t (2 : Fin 3) = 0
    ∧ win1_1.index t (0 : Fin 3) = win1_6.index t (0 : Fin 2) ∧ win1_1.index t (1 : Fin 3) = 0 ∧ win1_1.index t (2 : Fin 3) = 0
    ∧ win1_2.index t (0 : Fin 2) = win1_6.index t (0 : Fin 2) ∧ win1_2.index t (1 : Fin 2) = 0
    ∧ win1_3.index t (0 : Fin 2) = win1_6.index t (1 : Fin 2) ∧ win1_3.index t (1 : Fin 2) = 0
    ∧ win1_4.index t (0 : Fin 2) = win1_6.index t (1 : Fin 2) ∧ win1_4.index t (1 : Fin 2) = 0
    ∧ win1_5.index t (0 : Fin 2) = 0 ∧ win1_5.index t (1 : Fin 2) = win1_6.index t (1 : Fin 2)
    ∧ win1_6.index t (0 : Fin 2) ≤ 7 ∧ win1_6.index t (1 : Fin 2) ≤ 9 :=
  (by decide +kernel : ∀ t : Fin grid1.N, _)

/-- Every block of the output array is some point's. -/
theorem idx_onto : ∀ (b : Fin 8) (v : Fin 10), ∃ t : Fin cfg1.N, win1_6.index t = ![b.val, v.val] :=
  (by decide +kernel : ∀ (b : Fin 8) (v : Fin 10), ∃ t : Fin grid1.N, win1_6.index t = ![b.val, v.val])

/-- The array position of position `p` of point `t`'s block. -/
def rowOf (t : Fin cfg1.N) (p : Fin 128) : Fin 1024 :=
  ⟨win1_6.index t (0 : Fin 2) * 128 + p.val, by have h := (idx_facts t).2.2.2.2.2.2.2.2.2.2.2.2.2.2.1; have := p.isLt; omega⟩

/-- The vocabulary entry of entry `q` of point `t`'s block. -/
def colOf (t : Fin cfg1.N) (q : Fin 3200) : Fin 32000 :=
  ⟨win1_6.index t (1 : Fin 2) * 3200 + q.val, by have h := (idx_facts t).2.2.2.2.2.2.2.2.2.2.2.2.2.2.2; have := q.isLt; omega⟩

/-- The context-projection block at point `t` is rows `rowOf t ·` of its array. -/
theorem blk0_apply (c : Dev nD) (t : Fin cfg1.N) (p : Fin 128) (g : Fin 4) (k : Fin 128) :
    iblk1 V c 0 t (ix3 p g k) = V c main_v8_1 (ix3 (rowOf t p) g k) := by
  unfold iblk1
  show V c main_v8_1 (((cfg1.win 0).blk t).view.emb (ix3 p g k)) = _
  obtain ⟨e00, e01, e02, -⟩ := idx_facts t
  refine congrArg (V c main_v8_1) (funext fun a => Fin.ext ?_)
  match a with
  | ⟨0, _⟩ => show win1_0.index t (0 : Fin 3) * 128 + 1 * p.val = win1_6.index t (0 : Fin 2) * 128 + p.val; omega
  | ⟨1, _⟩ => show win1_0.index t (1 : Fin 3) * 4 + 1 * g.val = g.val; omega
  | ⟨2, _⟩ => show win1_0.index t (2 : Fin 3) * 128 + 1 * k.val = k.val; omega

/-- The hidden-state block at point `t` is rows `rowOf t ·` of its array. -/
theorem blk1_apply (c : Dev nD) (t : Fin cfg1.N) (p : Fin 128) (g : Fin 4) (k : Fin 1024) :
    iblk1 V c 1 t (ix3 p g k) = V c main_v8_0 (ix3 (rowOf t p) g k) := by
  unfold iblk1
  show V c main_v8_0 (((cfg1.win 1).blk t).view.emb (ix3 p g k)) = _
  obtain ⟨-, -, -, e10, e11, e12, -⟩ := idx_facts t
  refine congrArg (V c main_v8_0) (funext fun a => Fin.ext ?_)
  match a with
  | ⟨0, _⟩ => show win1_1.index t (0 : Fin 3) * 128 + 1 * p.val = win1_6.index t (0 : Fin 2) * 128 + p.val; omega
  | ⟨1, _⟩ => show win1_1.index t (1 : Fin 3) * 4 + 1 * g.val = g.val; omega
  | ⟨2, _⟩ => show win1_1.index t (2 : Fin 3) * 1024 + 1 * k.val = k.val; omega

/-- The gate-bias block at point `t` is rows `rowOf t ·` of its array. -/
theorem blk2_apply (c : Dev nD) (t : Fin cfg1.N) (p : Fin 128) (g : Fin 4) :
    iblk1 V c 2 t (ix2 p g) = V c main_v8_2 (ix2 (rowOf t p) g) := by
  unfold iblk1
  show V c main_v8_2 (((cfg1.win 2).blk t).view.emb (ix2 p g)) = _
  obtain ⟨-, -, -, -, -, -, e20, e21, -⟩ := idx_facts t
  refine congrArg (V c main_v8_2) (funext fun a => Fin.ext ?_)
  match a with
  | ⟨0, _⟩ => show win1_2.index t (0 : Fin 2) * 128 + 1 * p.val = win1_6.index t (0 : Fin 2) * 128 + p.val; omega
  | ⟨1, _⟩ => show win1_2.index t (1 : Fin 2) * 4 + 1 * g.val = g.val; omega

/-- The block of `v` at point `t` is rows `colOf t ·` of the array. -/
theorem blk3_apply (c : Dev nD) (t : Fin cfg1.N) (q : Fin 3200) (k : Fin 128) :
    iblk1 V c 3 t (ix2 q k) = V c main_v5 (ix2 (colOf t q) k) := by
  unfold iblk1
  show V c main_v5 (((cfg1.win 3).blk t).view.emb (ix2 q k)) = _
  obtain ⟨-, -, -, -, -, -, -, -, e30, e31, -⟩ := idx_facts t
  refine congrArg (V c main_v5) (funext fun a => Fin.ext ?_)
  match a with
  | ⟨0, _⟩ => show win1_3.index t (0 : Fin 2) * 3200 + 1 * q.val = win1_6.index t (1 : Fin 2) * 3200 + q.val; omega
  | ⟨1, _⟩ => show win1_3.index t (1 : Fin 2) * 128 + 1 * k.val = k.val; omega

/-- The embedding block at point `t` is rows `colOf t ·` of the array. -/
theorem blk4_apply (c : Dev nD) (t : Fin cfg1.N) (q : Fin 3200) (k : Fin 1024) :
    iblk1 V c 4 t (ix2 q k) = V c main_v6 (ix2 (colOf t q) k) := by
  unfold iblk1
  show V c main_v6 (((cfg1.win 4).blk t).view.emb (ix2 q k)) = _
  obtain ⟨-, -, -, -, -, -, -, -, -, -, e40, e41, -⟩ := idx_facts t
  refine congrArg (V c main_v6) (funext fun a => Fin.ext ?_)
  match a with
  | ⟨0, _⟩ => show win1_4.index t (0 : Fin 2) * 3200 + 1 * q.val = win1_6.index t (1 : Fin 2) * 3200 + q.val; omega
  | ⟨1, _⟩ => show win1_4.index t (1 : Fin 2) * 1024 + 1 * k.val = k.val; omega

/-- The bias-table block at point `t` is columns `colOf t ·` of the array. -/
theorem blk5_apply (c : Dev nD) (t : Fin cfg1.N) (g : Fin 4) (q : Fin 3200) :
    iblk1 V c 5 t (ix2 g q) = V c main_v7 (ix2 g (colOf t q)) := by
  unfold iblk1
  show V c main_v7 (((cfg1.win 5).blk t).view.emb (ix2 g q)) = _
  obtain ⟨-, -, -, -, -, -, -, -, -, -, -, -, e50, e51, -⟩ := idx_facts t
  refine congrArg (V c main_v7) (funext fun a => Fin.ext ?_)
  match a with
  | ⟨0, _⟩ => show win1_5.index t (0 : Fin 2) * 4 + 1 * g.val = g.val; omega
  | ⟨1, _⟩ => show win1_5.index t (1 : Fin 2) * 3200 + 1 * q.val = win1_6.index t (1 : Fin 2) * 3200 + q.val; omega

/-- WHAT POINT `t` LEAVES at position `p` and entry `q` of its block is the logit at the array position and the
    vocabulary entry the block puts them at. -/
theorem flushed_point (c : Dev nD) (t : Fin cfg1.N) (p : Fin 128) (q : Fin 3200) :
    out1_6 (iblk1 V c 0 t) (iblk1 V c 1 t) (iblk1 V c 2 t) (iblk1 V c 3 t) (iblk1 V c 4 t) (iblk1 V c 5 t) (ix2 p q)
      = Cert.Spec.logitArr (V c main_v8_1) (V c main_v8_0) (V c main_v8_2) (V c main_v5) (V c main_v6) (V c main_v7)
          (ix2 (rowOf t p) (colOf t q)) := by
  refine (out_apply (iblk1 V c 0 t) (iblk1 V c 1 t) (iblk1 V c 2 t) (iblk1 V c 3 t) (iblk1 V c 4 t) (iblk1 V c 5 t) p q).trans ?_
  simp only [blk0_apply V c t, blk1_apply V c t, blk2_apply V c t, blk3_apply V c t, blk4_apply V c t, blk5_apply V c t]
  rfl

/-- WHAT POINT `t` WRITES BACK is block `t` of the logit array of the six arrays the region entered with. -/
theorem flushed_eq (c : Dev nD) (t : Fin cfg1.N) :
    (dat1 (F := Ideal) V c).flushed 6 t = ((cfg1.win 6).blk t).view.read (Elt Ideal)
      (Cert.Spec.logitArr (V c main_v8_1) (V c main_v8_0) (V c main_v8_2) (V c main_v5) (V c main_v6) (V c main_v7)) := by
  show (cfg1.win 6).cut (grid1.coords t) ((dat1 V c).after 6 t) = _
  rw [after1_6]
  funext j
  have hj0 : (j 0).val < 128 := (j 0).isLt
  have hj1 : (j 1).val < 3200 := (j 1).isLt
  have e : (cfg1.win 6).xinj (grid1.coords t) j = ix2 (⟨(j 0).val, hj0⟩ : Fin 128) (⟨(j 1).val, hj1⟩ : Fin 3200) :=
    funext fun a => by match a with | ⟨0, _⟩ => rfl | ⟨1, _⟩ => rfl
  refine (congrArg (out1_6 (iblk1 V c 0 t) (iblk1 V c 1 t) (iblk1 V c 2 t) (iblk1 V c 3 t) (iblk1 V c 4 t) (iblk1 V c 5 t)) e).trans ?_
  refine (flushed_point V c t ⟨(j 0).val, hj0⟩ ⟨(j 1).val, hj1⟩).trans ?_
  show Cert.Spec.logitArr (V c main_v8_1) (V c main_v8_0) (V c main_v8_2) (V c main_v5) (V c main_v6) (V c main_v7)
      (ix2 (rowOf t ⟨(j 0).val, hj0⟩) (colOf t ⟨(j 1).val, hj1⟩))
    = Cert.Spec.logitArr (V c main_v8_1) (V c main_v8_0) (V c main_v8_2) (V c main_v5) (V c main_v6) (V c main_v7)
        (((cfg1.win 6).blk t).view.emb j)
  refine congrArg (Cert.Spec.logitArr (V c main_v8_1) (V c main_v8_0) (V c main_v8_2) (V c main_v5) (V c main_v6) (V c main_v7))
    (funext fun a => Fin.ext ?_)
  match a with
  | ⟨0, _⟩ => show win1_6.index t (0 : Fin 2) * 128 + (j 0).val = win1_6.index t (0 : Fin 2) * 128 + 1 * (j 0).val; omega
  | ⟨1, _⟩ => show win1_6.index t (1 : Fin 2) * 3200 + (j 1).val = win1_6.index t (1 : Fin 2) * 3200 + 1 * (j 1).val; omega

/-- An index of the output array is in point `t`'s block iff each coordinate is in the block's range on its axis. -/
theorem mem_blk (t : Fin cfg1.N) (i : S1024x32000.Idx) :
    i ∈ ((cfg1.win 6).blk t).view.set ↔ ∀ a : Fin 2, win1_6.index t a * S128x3200.size a ≤ (i a).val
      ∧ (i a).val < win1_6.index t a * S128x3200.size a + S128x3200.size a := by
  show i ∈ ((View.whole main_v9).slice (win1_6.rect t)).set ↔ _
  rw [View.set_slice_whole, Rect.mem_set_unit]
  exact Iff.rfl

/-- The 8 × 10 blocks tile the [1024, 32000] array: position `r` and entry `e` lie in block (r / 128, e / 3200). -/
theorem covered (i : S1024x32000.Idx) :
    ∃ t : Fin cfg1.N, (cfg1.win 6).flush t = true ∧ i ∈ ((cfg1.win 6).blk t).view.set := by
  have hi0 : (i 0).val < 1024 := (i 0).isLt
  have hi1 : (i 1).val < 32000 := (i 1).isLt
  obtain ⟨t, ht⟩ := idx_onto ⟨(i 0).val / 128, by omega⟩ ⟨(i 1).val / 3200, by omega⟩
  have q0 : win1_6.index t (0 : Fin 2) = (i 0).val / 128 := congrFun ht 0
  have q1 : win1_6.index t (1 : Fin 2) = (i 1).val / 3200 := congrFun ht 1
  refine ⟨t, flush1_6 t, ?_⟩
  rw [mem_blk]
  intro a
  match a with
  | ⟨0, _⟩ => show win1_6.index t (0 : Fin 2) * 128 ≤ (i 0).val ∧ (i 0).val < win1_6.index t (0 : Fin 2) * 128 + 128; omega
  | ⟨1, _⟩ => show win1_6.index t (1 : Fin 2) * 3200 ≤ (i 1).val ∧ (i 1).val < win1_6.index t (1 : Fin 2) * 3200 + 3200; omega

/-- The region's output array after the run is the logit array of the six arrays it entered with. -/
theorem logits_arr (c : Dev nD) :
    (dat1 (F := Ideal) V c).arrAt 6 cfg1.N
      = Cert.Spec.logitArr (V c main_v8_1) (V c main_v8_0) (V c main_v8_2) (V c main_v5) (V c main_v6) (V c main_v7) :=
  (dat1 (F := Ideal) V c).arrAt_eq_of_cover 6
    (Cert.Spec.logitArr (V c main_v8_1) (V c main_v8_0) (V c main_v8_2) (V c main_v5) (V c main_v6) (V c main_v7))
    (fun t _ => flushed_eq V c t) covered

end Cert.KernelIdeal.MixRegion

end
-- ==== Proof.KernelTail.lean ====
/-
  The host operations after the second kernel region: the result is the softmax of the region's output array with
  its position axis split back into batch and time.
-/
import proofs.«158760_j82824149336212_1_alg».proof.Proof.Gen.KernelIdeal.Frame
import proofs.«158760_j82824149336212_1_alg».proof.Proof.Softmax
import Idealize.ShloMosaic.Lib.StableHlo.Run

set_option maxRecDepth 16384

noncomputable section

namespace Cert.KernelIdeal.KernelTail

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- After the last host stretch the result buffer holds the softmax of the reshaped logits. -/
theorem result_eq (c : Dev nD) :
    W4 m ρ c (Proc.devRef .tc main_v21)
      = Cert.Softmax.softmax (shapeCast S2x512x32000 (W3 m ρ c (Proc.devRef .tc main_v9)) shapeCasts_S1024x32000_S2x512x32000) := by
  show StableHlo.after hostOps2 (W3 m ρ c) (Proc.devRef .tc main_v21) = _
  after_results
  rfl

end Cert.KernelIdeal.KernelTail

end
-- ==== Proof.KernelValue.lean ====
/-
  The idealized kernel's result, from the arguments: following the contents of memory through the program — the
  host's preparation, the first region's three output arrays (hidden states, context projections, gate biases of
  every position), the second region's logits, the reshape and the softmax — the result is the softmax of the logit
  array of the seven arguments.
-/
import proofs.«158760_j82824149336212_1_alg».proof.Proof.Gen.KernelIdeal.Frame
import proofs.«158760_j82824149336212_1_alg».proof.Proof.Spec
import proofs.«158760_j82824149336212_1_alg».proof.Proof.Softmax
import proofs.«158760_j82824149336212_1_alg».proof.Proof.HostBefore
import proofs.«158760_j82824149336212_1_alg».proof.Proof.PrepRegion
import proofs.«158760_j82824149336212_1_alg».proof.Proof.MixRegion
import proofs.«158760_j82824149336212_1_alg».proof.Proof.KernelTail
import Idealize.ShloMosaic.Lib.Pipeline.Value
import Idealize.ShloMosaic.Lib.ValueIdx

set_option maxRecDepth 16384

noncomputable section

namespace Cert.KernelIdeal.KernelValue

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## The second region's six input arrays, as it finds them -/

/-- The context projections are what the first region wrote. -/
theorem ctx_exit (c : Dev nD) :
    V2 (F := Ideal) m ρ c main_v8_1
      = Cert.Spec.ctxArr (Cert.Spec.flatCtx (m ((c : Thread nD τ).loc main_arg0))) (m ((c : Thread nD τ).loc main_arg2)) := by
  have h : V2 (F := Ideal) m ρ c main_v8_1 = (dat0 (V1 m ρ) c).arrAt 5 cfg0.N := (hF0 m ρ c 5).symm
  exact h.trans ((Cert.KernelIdeal.PrepRegion.ctx_arr (V1 m ρ) c).trans
    (congrArg₂ Cert.Spec.ctxArr (Cert.KernelIdeal.HostBefore.ctx_entry m ρ c) (Cert.KernelIdeal.HostBefore.ctxMat_entry m ρ c)))

/-- The hidden states are what the first region wrote. -/
theorem hidden_exit (c : Dev nD) :
    V2 (F := Ideal) m ρ c main_v8_0
      = Cert.Spec.hiddenArr (Cert.Spec.flatCtx (m ((c : Thread nD τ).loc main_arg0))) (m ((c : Thread nD τ).loc main_arg1)) := by
  have h : V2 (F := Ideal) m ρ c main_v8_0 = (dat0 (V1 m ρ) c).arrAt 4 cfg0.N := (hF0 m ρ c 4).symm
  exact h.trans ((Cert.KernelIdeal.PrepRegion.hidden_arr (V1 m ρ) c).trans
    (congrArg₂ Cert.Spec.hiddenArr (Cert.KernelIdeal.HostBefore.ctx_entry m ρ c) (Cert.KernelIdeal.HostBefore.gateMat_entry m ρ c)))

/-- The gate biases are what the first region wrote. -/
theorem gate_exit (c : Dev nD) :
    V2 (F := Ideal) m ρ c main_v8_2
      = Cert.Spec.gateArr (Cert.Spec.flatCtx (m ((c : Thread nD τ).loc main_arg0))) (m ((c : Thread nD τ).loc main_arg4)) := by
  have h : V2 (F := Ideal) m ρ c main_v8_2 = (dat0 (V1 m ρ) c).arrAt 6 cfg0.N := (hF0 m ρ c 6).symm
  exact h.trans ((Cert.KernelIdeal.PrepRegion.gate_arr (V1 m ρ) c).trans
    (congrArg₂ Cert.Spec.gateArr (Cert.KernelIdeal.HostBefore.ctx_entry m ρ c) (Cert.KernelIdeal.HostBefore.gateVec_entry m ρ c)))

/-- The first region leaves the vocabulary projection matrix as the host prepared it. -/
theorem vocabProj_exit (c : Dev nD) : V2 (F := Ideal) m ρ c main_v5 = m ((c : Thread nD τ).loc main_arg3) :=
  (W2_of_ne m ρ c main_v5 (by decide)).trans (Cert.KernelIdeal.HostBefore.vocabProj_entry m ρ c)

/-- … and the embedding matrix, … -/
theorem emb_exit (c : Dev nD) : V2 (F := Ideal) m ρ c main_v6 = m ((c : Thread nD τ).loc main_arg6) :=
  (W2_of_ne m ρ c main_v6 (by decide)).trans (Cert.KernelIdeal.HostBefore.emb_entry m ρ c)

/-- … and the transposed bias table. -/
theorem bias_exit (c : Dev nD) :
    V2 (F := Ideal) m ρ c main_v7 = Cert.Spec.biasT (m ((c : Thread nD τ).loc main_arg5)) :=
  (W2_of_ne m ρ c main_v7 (by decide)).trans (Cert.KernelIdeal.HostBefore.bias_entry m ρ c)

/-! ## The logits, and the result -/

/-- After the second region its output array is the logit array of the arguments. -/
theorem logits_exit (c : Dev nD) :
    W3 (F := Ideal) m ρ c (Proc.devRef .tc main_v9)
      = Cert.Spec.logitsFlat (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) := by
  have h : W3 (F := Ideal) m ρ c (Proc.devRef .tc main_v9) = (dat1 (V2 m ρ) c).arrAt 6 cfg1.N := W3_arr m ρ c 6
  refine h.trans ((Cert.KernelIdeal.MixRegion.logits_arr (V2 m ρ) c).trans ?_)
  unfold Cert.Spec.logitsFlat
  rw [ctx_exit m ρ c, hidden_exit m ρ c, gate_exit m ρ c, vocabProj_exit m ρ c, emb_exit m ρ c, bias_exit m ρ c]

/-- Splitting the position axis of the logit array back into batch and time: entry `(b, t, q)` is entry
    `(b · 512 + t, q)`, the two having the same row-major position. -/
theorem reshape_logits (gc : Cert.Spec.A3 2 512 256) (H : Cert.Spec.A3 4 1024 256) (U : Cert.Spec.A3 4 128 256)
    (v : Cert.Spec.A2 32000 128) (u : Cert.Spec.A2 4 256) (b : Cert.Spec.A2 32000 4) (emb : Cert.Spec.A2 32000 1024) :
    shapeCast S2x512x32000 (Cert.Spec.logitsFlat gc H U v u b emb) shapeCasts_S1024x32000_S2x512x32000
      = Cert.Spec.logits3 gc H U v u b emb := by
  funext i
  unfold Cert.Spec.logits3
  have h0 : (i 0).val < 2 := (i 0).isLt
  have h1 : (i 1).val < 512 := (i 1).isLt
  refine shapeCast_apply (s := S1024x32000) (t := S2x512x32000) (Cert.Spec.logitsFlat gc H U v u b emb)
    shapeCasts_S1024x32000_S2x512x32000 i
    (ix2 (⟨(i 0).val * 512 + (i 1).val, by omega⟩ : Fin 1024) (⟨(i 2).val, (i 2).isLt⟩ : Fin 32000)) ?_
  show ((⟨2, ![1024, 32000]⟩ : Shape).rowMajor _).val = ((⟨3, ![2, 512, 32000]⟩ : Shape).rowMajor i).val
  rw [Shape.rowMajor_val_two, Shape.rowMajor_val_three]
  rfl

/-- The result buffer after the run: the softmax of the arguments' logits. -/
theorem result_value (c : Dev nD) :
    W4 (F := Ideal) m ρ c (Proc.devRef .tc main_v21)
      = Cert.Softmax.softmax (Cert.Spec.logits3 (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6))) := by
  rw [Cert.KernelIdeal.KernelTail.result_eq m ρ c, logits_exit m ρ c, reshape_logits]

end Cert.KernelIdeal.KernelValue

end
-- ==== Proof.RefTail.lean ====
/-
  The reference's result is the same softmax of its logits: its last eleven operations are the ones the shared
  function is made of.
-/
import proofs.«158760_j82824149336212_1_alg».proof.Proof.Gen.ReferenceIdeal.Read
import proofs.«158760_j82824149336212_1_alg».proof.Proof.Gen.KernelIdeal
import proofs.«158760_j82824149336212_1_alg».proof.Proof.Softmax

set_option maxRecDepth 16384

noncomputable section

namespace Cert.ReferenceIdeal.RefTail

open Cert.ReferenceIdeal Cert.ReferenceIdeal.Read
open Idealize.ShloMosaic Idealize.ShloMosaic.TcCoe

variable {F : FTy → Type} [FloatOps F]

theorem result_eq (x0 : (⟨S2x512x256, .f32⟩ : BufTy).Contents (Elt F)) (x1 : (⟨S4x1024x256, .f32⟩ : BufTy).Contents (Elt F))
    (x2 : (⟨S4x128x256, .f32⟩ : BufTy).Contents (Elt F)) (x3 : (⟨S32000x128, .f32⟩ : BufTy).Contents (Elt F))
    (x4 : (⟨S4x256, .f32⟩ : BufTy).Contents (Elt F)) (x5 : (⟨S32000x4, .f32⟩ : BufTy).Contents (Elt F))
    (x6 : (⟨S32000x1024, .f32⟩ : BufTy).Contents (Elt F)) :
    val_main_v57 (F := F) x0 x1 x2 x3 x4 x5 x6 = Cert.Softmax.softmax (val_main_v46 (F := F) x0 x1 x2 x3 x4 x5 x6) := by
  unfold val_main_v57 val_main_v56 val_main_v55 val_main_v54 val_main_cst_8 val_main_v53 val_main_v52 val_main_v51
    val_main_v50 val_main_v49 val_main_v48 val_main_cst_7 val_main_v47 val_main_cst_6
  generalize val_main_v46 (F := F) x0 x1 x2 x3 x4 x5 x6 = y
  rfl

end Cert.ReferenceIdeal.RefTail

end
-- ==== Proof.RefLogits.lean ====
/-
  The reference's logits (the value its softmax is applied to), read index by index: the same sigmoid-tree mixture,
  its four-term sum taken from zero and its score products written embedding first.
-/
import proofs.«158760_j82824149336212_1_alg».proof.Proof.Gen.ReferenceIdeal.Read
import proofs.«158760_j82824149336212_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.ReferenceIdeal.RefLogits

open Cert.ReferenceIdeal Cert.ReferenceIdeal.Read
open Idealize.ShloMosaic Idealize.ShloMosaic.TcCoe Idealize.ShloMosaic.ValueIdx

/-- The flattened position of batch `b`, time `t`. -/
abbrev pos (b : Fin 2) (t : Fin 512) : Fin 1024 :=
  ⟨b.val * 512 + t.val, by have hb : b.val < 2 := b.isLt; have ht : t.val < 512 := t.isLt; omega⟩

/-- Row-major flattening undone: position `b·512 + t` of the flattened context is row `(b, t)` of the context. -/
theorem flatCtx_pos (gc : Cert.Spec.A3 2 512 256) (b : Fin 2) (t : Fin 512) (i : Fin 256) :
    Cert.Spec.flatCtx gc (ix2 (pos b t) i) = gc (ix3 b t i) := by
  have hb : b.val < 2 := b.isLt
  have ht : t.val < 512 := t.isLt
  unfold Cert.Spec.flatCtx
  refine congrArg gc (funext fun a => ?_)
  match a with
  | ⟨0, _⟩ => exact Fin.ext (show (b.val * 512 + t.val) / 512 = b.val by omega)
  | ⟨1, _⟩ => exact Fin.ext (show (b.val * 512 + t.val) % 512 = t.val by omega)
  | ⟨2, _⟩ => rfl

/-- The context projection stage at coordinates: tanh of the context row against row `j` of gate `k`'s matrix. -/
theorem ctx_at (x0 : (⟨S2x512x256, .f32⟩ : BufTy).Contents (Elt Ideal)) (x2 : (⟨S4x128x256, .f32⟩ : BufTy).Contents (Elt Ideal)) (b : Fin 2) (t : Fin 512) (k : Fin 4) (j : Fin 128) :
    val_main_v3 (F := Ideal) x0 x2 (ix4 b t k j) = Cert.Spec.ctxProj (Cert.Spec.flatCtx x0) x2 (pos b t) k j := by
  rw [val_main_v3_apply, val_main_v2_apply]
  unfold Cert.Spec.ctxProj
  refine congrArg Ideal.tanh (Finset.sum_congr rfl fun i _ => ?_)
  rw [flatCtx_pos]
  have el : lidx_main_v2 (ix4 b t k j) i = ix3 b t i := funext fun a => Fin.ext (by
    match a with | ⟨0, _⟩ => rfl | ⟨1, _⟩ => rfl | ⟨2, _⟩ => rfl)
  have er : ridx_main_v2 (ix4 b t k j) i = ix3 k j i := funext fun a => Fin.ext (by
    match a with | ⟨0, _⟩ => rfl | ⟨1, _⟩ => rfl | ⟨2, _⟩ => rfl)
  rw [el, er]

/-- The hidden-state stage at coordinates. -/
theorem hidden_at (x0 : (⟨S2x512x256, .f32⟩ : BufTy).Contents (Elt Ideal)) (x1 : (⟨S4x1024x256, .f32⟩ : BufTy).Contents (Elt Ideal)) (b : Fin 2) (t : Fin 512) (k : Fin 4) (d : Fin 1024) :
    val_main_v1 (F := Ideal) x0 x1 (ix4 b t k d) = Cert.Spec.hidden (Cert.Spec.flatCtx x0) x1 (pos b t) k d := by
  rw [val_main_v1_apply, val_main_v0_apply]
  unfold Cert.Spec.hidden
  refine congrArg Ideal.tanh (Finset.sum_congr rfl fun i _ => ?_)
  rw [flatCtx_pos]
  have el : lidx_main_v0 (ix4 b t k d) i = ix3 b t i := funext fun a => Fin.ext (by
    match a with | ⟨0, _⟩ => rfl | ⟨1, _⟩ => rfl | ⟨2, _⟩ => rfl)
  have er : ridx_main_v0 (ix4 b t k d) i = ix3 k d i := funext fun a => Fin.ext (by
    match a with | ⟨0, _⟩ => rfl | ⟨1, _⟩ => rfl | ⟨2, _⟩ => rfl)
  rw [el, er]

/-- The gate pre-activation at coordinates: the context projection against row `q` of `v`, plus the gate's context
    bias, plus the entry's own bias. -/
theorem gateLogit_at (x0 : (⟨S2x512x256, .f32⟩ : BufTy).Contents (Elt Ideal)) (x2 : (⟨S4x128x256, .f32⟩ : BufTy).Contents (Elt Ideal)) (x3 : (⟨S32000x128, .f32⟩ : BufTy).Contents (Elt Ideal)) (x4 : (⟨S4x256, .f32⟩ : BufTy).Contents (Elt Ideal)) (x5 : (⟨S32000x4, .f32⟩ : BufTy).Contents (Elt Ideal)) (b : Fin 2) (t : Fin 512) (q : Fin 32000) (k : Fin 4) :
    val_main_v12 (F := Ideal) x0 x2 x3 x4 x5 (ix4 b t q k)
      = Cert.Spec.gateLogit (Cert.Spec.ctxArr (Cert.Spec.flatCtx x0) x2) (Cert.Spec.gateArr (Cert.Spec.flatCtx x0) x4) x3
          (Cert.Spec.biasT x5) (pos b t) q k := by
  rw [val_main_v12_apply, val_main_v9_apply, val_main_v5_apply, val_main_v4_apply, val_main_v8_apply, val_main_v7_apply,
    val_main_v6_apply, val_main_v11_apply, val_main_v10_apply]
  unfold Cert.Spec.gateLogit
  simp only [Ideal.addf_def]
  congr 1
  congr 1
  · refine Finset.sum_congr rfl fun j _ => ?_
    have el : lidx_main_v4 (idx_main_v5 (ix4 b t q k)) j = ix4 b t k j := funext fun a => Fin.ext (by
      match a with | ⟨0, _⟩ => rfl | ⟨1, _⟩ => rfl | ⟨2, _⟩ => rfl | ⟨3, _⟩ => rfl)
    have er : ridx_main_v4 (idx_main_v5 (ix4 b t q k)) j = ix2 q j := funext fun a => Fin.ext (by
      match a with | ⟨0, _⟩ => rfl | ⟨1, _⟩ => rfl)
    rw [el, er, ctx_at]
    rfl
  · show _ = Cert.Spec.gateBias (Cert.Spec.flatCtx x0) x4 (pos b t) k
    unfold Cert.Spec.gateBias
    refine Finset.sum_congr rfl fun i _ => ?_
    rw [flatCtx_pos]
    have el : lidx_main_v6 (idx_main_v7 (idx_main_v8 (ix4 b t q k))) i = ix3 b t i := funext fun a => Fin.ext (by
      match a with | ⟨0, _⟩ => rfl | ⟨1, _⟩ => rfl | ⟨2, _⟩ => rfl)
    have er : ridx_main_v6 (idx_main_v7 (idx_main_v8 (ix4 b t q k))) i = ix2 k i := funext fun a => Fin.ext (by
      match a with | ⟨0, _⟩ => rfl | ⟨1, _⟩ => rfl)
    rw [el, er]
  · show x5 _ = x5 _
    refine congrArg x5 (funext fun a => Fin.ext (by
      match a with | ⟨0, _⟩ => rfl | ⟨1, _⟩ => rfl))

/-- The f32 word `0x3F800000` is the number 1. -/
theorem one_word : Ideal.ofBits .f32 0x3F800000#32 = 1 := by
  simp [Ideal.ofBits, Ideal.ieee, -EReal.coe_mul]
  norm_num

/-- The spelled-out sigmoid `1 / (1 + exp (-x))` of gate `k < 3`'s pre-activation is the logistic function of it. -/
theorem sig_at (x0 : (⟨S2x512x256, .f32⟩ : BufTy).Contents (Elt Ideal)) (x2 : (⟨S4x128x256, .f32⟩ : BufTy).Contents (Elt Ideal)) (x3 : (⟨S32000x128, .f32⟩ : BufTy).Contents (Elt Ideal)) (x4 : (⟨S4x256, .f32⟩ : BufTy).Contents (Elt Ideal)) (x5 : (⟨S32000x4, .f32⟩ : BufTy).Contents (Elt Ideal)) (b : Fin 2) (t : Fin 512) (q : Fin 32000) (k : Fin 4) (hk : k.val < 3) :
    val_main_v19 (F := Ideal) x0 x2 x3 x4 x5 (ix4 b t q (⟨k.val, hk⟩ : Fin 3))
      = Ideal.logistic (val_main_v12 (F := Ideal) x0 x2 x3 x4 x5 (ix4 b t q k)) := by
  rw [val_main_v19_apply, val_main_v18_apply, val_main_cst_0_apply, val_main_v17_apply, val_main_v16_apply, val_main_cst_apply,
    val_main_v15_apply, val_main_v14_apply, val_main_v13_apply]
  simp only [Ideal.hostDivf_def, Ideal.addf_def, Ideal.hostUnary_exp_def, Ideal.hostNegf_def, Ideal.negf_def, Ideal.ofBits_def, one_word]
  unfold Ideal.logistic
  have e : idx_main_v13 (ix4 b t q (⟨k.val, hk⟩ : Fin 3)) = ix4 b t q k := funext fun a => Fin.ext (by
    match a with | ⟨0, _⟩ => rfl | ⟨1, _⟩ => rfl | ⟨2, _⟩ => rfl | ⟨3, _⟩ => rfl)
  rw [e]

/-- Dropping the trailing unit axis keeps the three coordinates. -/
theorem unit_axis_idx (b : Fin 2) (t : Fin 512) (q : Fin 32000) :
    idx_main_v21 (ix3 b t q) = ix4 b t q (0 : Fin 1) := by
  have hb : b.val < 2 := b.isLt
  have ht : t.val < 512 := t.isLt
  have hq : q.val < 32000 := q.isLt
  funext a
  match a with
  | ⟨0, _⟩ => exact Fin.ext (show ((b.val * 512 + t.val) * 32000 + q.val) / 16384000 = b.val by omega)
  | ⟨1, _⟩ => exact Fin.ext (show ((b.val * 512 + t.val) * 32000 + q.val) / 32000 % 512 = t.val by omega)
  | ⟨2, _⟩ => exact Fin.ext (show ((b.val * 512 + t.val) * 32000 + q.val) / 1 % 32000 = q.val by omega)
  | ⟨3, _⟩ => rfl

/-- The gate values at coordinates: the logistic function of the first three gates' logits. -/
theorem g0_at (x0 : (⟨S2x512x256, .f32⟩ : BufTy).Contents (Elt Ideal)) (x2 : (⟨S4x128x256, .f32⟩ : BufTy).Contents (Elt Ideal)) (x3 : (⟨S32000x128, .f32⟩ : BufTy).Contents (Elt Ideal)) (x4 : (⟨S4x256, .f32⟩ : BufTy).Contents (Elt Ideal)) (x5 : (⟨S32000x4, .f32⟩ : BufTy).Contents (Elt Ideal)) (b : Fin 2) (t : Fin 512) (q : Fin 32000) :
    val_main_v21 (F := Ideal) x0 x2 x3 x4 x5 (ix3 b t q)
      = Ideal.logistic (Cert.Spec.gateLogit (Cert.Spec.ctxArr (Cert.Spec.flatCtx x0) x2)
          (Cert.Spec.gateArr (Cert.Spec.flatCtx x0) x4) x3 (Cert.Spec.biasT x5) (pos b t) q 0) := by
  rw [val_main_v21_apply, unit_axis_idx, val_main_v20_apply, ← gateLogit_at, ← sig_at x0 x2 x3 x4 x5 b t q 0 (by decide)]
  refine congrArg _ (funext fun a => Fin.ext (by
    match a with | ⟨0, _⟩ => rfl | ⟨1, _⟩ => rfl | ⟨2, _⟩ => rfl | ⟨3, _⟩ => rfl))

theorem g1_at (x0 : (⟨S2x512x256, .f32⟩ : BufTy).Contents (Elt Ideal)) (x2 : (⟨S4x128x256, .f32⟩ : BufTy).Contents (Elt Ideal)) (x3 : (⟨S32000x128, .f32⟩ : BufTy).Contents (Elt Ideal)) (x4 : (⟨S4x256, .f32⟩ : BufTy).Contents (Elt Ideal)) (x5 : (⟨S32000x4, .f32⟩ : BufTy).Contents (Elt Ideal)) (b : Fin 2) (t : Fin 512) (q : Fin 32000) :
    val_main_v23 (F := Ideal) x0 x2 x3 x4 x5 (ix3 b t q)
      = Ideal.logistic (Cert.Spec.gateLogit (Cert.Spec.ctxArr (Cert.Spec.flatCtx x0) x2)
          (Cert.Spec.gateArr (Cert.Spec.flatCtx x0) x4) x3 (Cert.Spec.biasT x5) (pos b t) q 1) := by
  rw [val_main_v23_apply, show idx_main_v23 (ix3 b t q) = ix4 b t q (0 : Fin 1) from unit_axis_idx b t q, val_main_v22_apply,
    ← gateLogit_at, ← sig_at x0 x2 x3 x4 x5 b t q 1 (by decide)]
  refine congrArg _ (funext fun a => Fin.ext (by
    match a with | ⟨0, _⟩ => rfl | ⟨1, _⟩ => rfl | ⟨2, _⟩ => rfl | ⟨3, _⟩ => rfl))

theorem g2_at (x0 : (⟨S2x512x256, .f32⟩ : BufTy).Contents (Elt Ideal)) (x2 : (⟨S4x128x256, .f32⟩ : BufTy).Contents (Elt Ideal)) (x3 : (⟨S32000x128, .f32⟩ : BufTy).Contents (Elt Ideal)) (x4 : (⟨S4x256, .f32⟩ : BufTy).Contents (Elt Ideal)) (x5 : (⟨S32000x4, .f32⟩ : BufTy).Contents (Elt Ideal)) (b : Fin 2) (t : Fin 512) (q : Fin 32000) :
    val_main_v25 (F := Ideal) x0 x2 x3 x4 x5 (ix3 b t q)
      = Ideal.logistic (Cert.Spec.gateLogit (Cert.Spec.ctxArr (Cert.Spec.flatCtx x0) x2)
          (Cert.Spec.gateArr (Cert.Spec.flatCtx x0) x4) x3 (Cert.Spec.biasT x5) (pos b t) q 2) := by
  rw [val_main_v25_apply, show idx_main_v25 (ix3 b t q) = ix4 b t q (0 : Fin 1) from unit_axis_idx b t q, val_main_v24_apply,
    ← gateLogit_at, ← sig_at x0 x2 x3 x4 x5 b t q 2 (by decide)]
  refine congrArg _ (funext fun a => Fin.ext (by
    match a with | ⟨0, _⟩ => rfl | ⟨1, _⟩ => rfl | ⟨2, _⟩ => rfl | ⟨3, _⟩ => rfl))

/-- Gate `k`'s value at batch `b`, time `t`, entry `q`. -/
abbrev gval (x0 : (⟨S2x512x256, .f32⟩ : BufTy).Contents (Elt Ideal)) (x2 : (⟨S4x128x256, .f32⟩ : BufTy).Contents (Elt Ideal)) (x3 : (⟨S32000x128, .f32⟩ : BufTy).Contents (Elt Ideal)) (x4 : (⟨S4x256, .f32⟩ : BufTy).Contents (Elt Ideal)) (x5 : (⟨S32000x4, .f32⟩ : BufTy).Contents (Elt Ideal)) (b : Fin 2) (t : Fin 512) (q : Fin 32000) (k : Fin 4) : EReal :=
  Ideal.logistic (Cert.Spec.gateLogit (Cert.Spec.ctxArr (Cert.Spec.flatCtx x0) x2)
    (Cert.Spec.gateArr (Cert.Spec.flatCtx x0) x4) x3 (Cert.Spec.biasT x5) (pos b t) q k)

/-! The four weights of the sigmoid tree at coordinates. -/

theorem p0_at (x0 : (⟨S2x512x256, .f32⟩ : BufTy).Contents (Elt Ideal)) (x2 : (⟨S4x128x256, .f32⟩ : BufTy).Contents (Elt Ideal)) (x3 : (⟨S32000x128, .f32⟩ : BufTy).Contents (Elt Ideal)) (x4 : (⟨S4x256, .f32⟩ : BufTy).Contents (Elt Ideal)) (x5 : (⟨S32000x4, .f32⟩ : BufTy).Contents (Elt Ideal)) (b : Fin 2) (t : Fin 512) (q : Fin 32000) :
    val_main_v26 (F := Ideal) x0 x2 x3 x4 x5 (ix3 b t q) = gval x0 x2 x3 x4 x5 b t q 0 * gval x0 x2 x3 x4 x5 b t q 1 := by
  rw [val_main_v26_apply, g0_at, g1_at]
  rfl

theorem p1_at (x0 : (⟨S2x512x256, .f32⟩ : BufTy).Contents (Elt Ideal)) (x2 : (⟨S4x128x256, .f32⟩ : BufTy).Contents (Elt Ideal)) (x3 : (⟨S32000x128, .f32⟩ : BufTy).Contents (Elt Ideal)) (x4 : (⟨S4x256, .f32⟩ : BufTy).Contents (Elt Ideal)) (x5 : (⟨S32000x4, .f32⟩ : BufTy).Contents (Elt Ideal)) (b : Fin 2) (t : Fin 512) (q : Fin 32000) :
    val_main_v29 (F := Ideal) x0 x2 x3 x4 x5 (ix3 b t q) = gval x0 x2 x3 x4 x5 b t q 0 * (Cert.Spec.one - gval x0 x2 x3 x4 x5 b t q 1) := by
  rw [val_main_v29_apply, val_main_v28_apply, val_main_v27_apply, val_main_cst_1_apply, g0_at, g1_at]
  rfl

theorem p2_at (x0 : (⟨S2x512x256, .f32⟩ : BufTy).Contents (Elt Ideal)) (x2 : (⟨S4x128x256, .f32⟩ : BufTy).Contents (Elt Ideal)) (x3 : (⟨S32000x128, .f32⟩ : BufTy).Contents (Elt Ideal)) (x4 : (⟨S4x256, .f32⟩ : BufTy).Contents (Elt Ideal)) (x5 : (⟨S32000x4, .f32⟩ : BufTy).Contents (Elt Ideal)) (b : Fin 2) (t : Fin 512) (q : Fin 32000) :
    val_main_v32 (F := Ideal) x0 x2 x3 x4 x5 (ix3 b t q) = (Cert.Spec.one - gval x0 x2 x3 x4 x5 b t q 0) * gval x0 x2 x3 x4 x5 b t q 2 := by
  rw [val_main_v32_apply, val_main_v31_apply, val_main_v30_apply, val_main_cst_2_apply, g0_at, g2_at]
  rfl

theorem p3_at (x0 : (⟨S2x512x256, .f32⟩ : BufTy).Contents (Elt Ideal)) (x2 : (⟨S4x128x256, .f32⟩ : BufTy).Contents (Elt Ideal)) (x3 : (⟨S32000x128, .f32⟩ : BufTy).Contents (Elt Ideal)) (x4 : (⟨S4x256, .f32⟩ : BufTy).Contents (Elt Ideal)) (x5 : (⟨S32000x4, .f32⟩ : BufTy).Contents (Elt Ideal)) (b : Fin 2) (t : Fin 512) (q : Fin 32000) :
    val_main_v37 (F := Ideal) x0 x2 x3 x4 x5 (ix3 b t q)
      = (Cert.Spec.one - gval x0 x2 x3 x4 x5 b t q 0) * (Cert.Spec.one - gval x0 x2 x3 x4 x5 b t q 2) := by
  rw [val_main_v37_apply, val_main_v34_apply, val_main_v33_apply, val_main_cst_3_apply, val_main_v36_apply, val_main_v35_apply,
    val_main_cst_4_apply, g0_at, g2_at]
  rfl

/-! The concatenation of the four weights along the last axis, read at each of its four coordinates: coordinate `k`
    falls in piece `k` (every piece has extent one there), at that piece's only position. -/

theorem w0_at (x0 : (⟨S2x512x256, .f32⟩ : BufTy).Contents (Elt Ideal)) (x2 : (⟨S4x128x256, .f32⟩ : BufTy).Contents (Elt Ideal)) (x3 : (⟨S32000x128, .f32⟩ : BufTy).Contents (Elt Ideal)) (x4 : (⟨S4x256, .f32⟩ : BufTy).Contents (Elt Ideal)) (x5 : (⟨S32000x4, .f32⟩ : BufTy).Contents (Elt Ideal)) (b : Fin 2) (t : Fin 512) (q : Fin 32000) :
    val_main_v42 (F := Ideal) x0 x2 x3 x4 x5 (ix4 b t q (0 : Fin 4)) = gval x0 x2 x3 x4 x5 b t q 0 * gval x0 x2 x3 x4 x5 b t q 1 := by
  unfold val_main_v42
  refine (concatenate_apply_piece _ _ _ (ix4 b t q (0 : Fin 4)) 0 (by show (0 : Nat) < 4; decide) S2x512x32000x1
    (val_main_v38 (F := Ideal) x0 x2 x3 x4 x5) rfl rfl 0 rfl (ix4 b t q (0 : Fin 1)) (fun c hc => ?_) rfl).trans ?_
  · match c with
    | ⟨0, _⟩ => rfl
    | ⟨1, _⟩ => rfl
    | ⟨2, _⟩ => rfl
    | ⟨3, _⟩ => exact absurd (Fin.ext rfl) hc
  · rw [val_main_v38_apply, show idx_main_v38 (ix4 b t q (0 : Fin 1)) = ix3 b t q from funext fun a => Fin.ext (by
    match a with | ⟨0, _⟩ => rfl | ⟨1, _⟩ => rfl | ⟨2, _⟩ => rfl), p0_at]

theorem w1_at (x0 : (⟨S2x512x256, .f32⟩ : BufTy).Contents (Elt Ideal)) (x2 : (⟨S4x128x256, .f32⟩ : BufTy).Contents (Elt Ideal)) (x3 : (⟨S32000x128, .f32⟩ : BufTy).Contents (Elt Ideal)) (x4 : (⟨S4x256, .f32⟩ : BufTy).Contents (Elt Ideal)) (x5 : (⟨S32000x4, .f32⟩ : BufTy).Contents (Elt Ideal)) (b : Fin 2) (t : Fin 512) (q : Fin 32000) :
    val_main_v42 (F := Ideal) x0 x2 x3 x4 x5 (ix4 b t q (1 : Fin 4)) = gval x0 x2 x3 x4 x5 b t q 0 * (Cert.Spec.one - gval x0 x2 x3 x4 x5 b t q 1) := by
  unfold val_main_v42
  refine (concatenate_apply_piece _ _ _ (ix4 b t q (1 : Fin 4)) 1 (by show (1 : Nat) < 4; decide) S2x512x32000x1
    (val_main_v39 (F := Ideal) x0 x2 x3 x4 x5) rfl rfl 1 rfl (ix4 b t q (0 : Fin 1)) (fun c hc => ?_) rfl).trans ?_
  · match c with
    | ⟨0, _⟩ => rfl
    | ⟨1, _⟩ => rfl
    | ⟨2, _⟩ => rfl
    | ⟨3, _⟩ => exact absurd (Fin.ext rfl) hc
  · rw [val_main_v39_apply, show idx_main_v39 (ix4 b t q (0 : Fin 1)) = ix3 b t q from funext fun a => Fin.ext (by
    match a with | ⟨0, _⟩ => rfl | ⟨1, _⟩ => rfl | ⟨2, _⟩ => rfl), p1_at]

theorem w2_at (x0 : (⟨S2x512x256, .f32⟩ : BufTy).Contents (Elt Ideal)) (x2 : (⟨S4x128x256, .f32⟩ : BufTy).Contents (Elt Ideal)) (x3 : (⟨S32000x128, .f32⟩ : BufTy).Contents (Elt Ideal)) (x4 : (⟨S4x256, .f32⟩ : BufTy).Contents (Elt Ideal)) (x5 : (⟨S32000x4, .f32⟩ : BufTy).Contents (Elt Ideal)) (b : Fin 2) (t : Fin 512) (q : Fin 32000) :
    val_main_v42 (F := Ideal) x0 x2 x3 x4 x5 (ix4 b t q (2 : Fin 4)) = (Cert.Spec.one - gval x0 x2 x3 x4 x5 b t q 0) * gval x0 x2 x3 x4 x5 b t q 2 := by
  unfold val_main_v42
  refine (concatenate_apply_piece _ _ _ (ix4 b t q (2 : Fin 4)) 2 (by show (2 : Nat) < 4; decide) S2x512x32000x1
    (val_main_v40 (F := Ideal) x0 x2 x3 x4 x5) rfl rfl 2 rfl (ix4 b t q (0 : Fin 1)) (fun c hc => ?_) rfl).trans ?_
  · match c with
    | ⟨0, _⟩ => rfl
    | ⟨1, _⟩ => rfl
    | ⟨2, _⟩ => rfl
    | ⟨3, _⟩ => exact absurd (Fin.ext rfl) hc
  · rw [val_main_v40_apply, show idx_main_v40 (ix4 b t q (0 : Fin 1)) = ix3 b t q from funext fun a => Fin.ext (by
    match a with | ⟨0, _⟩ => rfl | ⟨1, _⟩ => rfl | ⟨2, _⟩ => rfl), p2_at]

theorem w3_at (x0 : (⟨S2x512x256, .f32⟩ : BufTy).Contents (Elt Ideal)) (x2 : (⟨S4x128x256, .f32⟩ : BufTy).Contents (Elt Ideal)) (x3 : (⟨S32000x128, .f32⟩ : BufTy).Contents (Elt Ideal)) (x4 : (⟨S4x256, .f32⟩ : BufTy).Contents (Elt Ideal)) (x5 : (⟨S32000x4, .f32⟩ : BufTy).Contents (Elt Ideal)) (b : Fin 2) (t : Fin 512) (q : Fin 32000) :
    val_main_v42 (F := Ideal) x0 x2 x3 x4 x5 (ix4 b t q (3 : Fin 4)) = (Cert.Spec.one - gval x0 x2 x3 x4 x5 b t q 0) * (Cert.Spec.one - gval x0 x2 x3 x4 x5 b t q 2) := by
  unfold val_main_v42
  refine (concatenate_apply_piece _ _ _ (ix4 b t q (3 : Fin 4)) 3 (by show (3 : Nat) < 4; decide) S2x512x32000x1
    (val_main_v41 (F := Ideal) x0 x2 x3 x4 x5) rfl rfl 3 rfl (ix4 b t q (0 : Fin 1)) (fun c hc => ?_) rfl).trans ?_
  · match c with
    | ⟨0, _⟩ => rfl
    | ⟨1, _⟩ => rfl
    | ⟨2, _⟩ => rfl
    | ⟨3, _⟩ => exact absurd (Fin.ext rfl) hc
  · rw [val_main_v41_apply, show idx_main_v41 (ix4 b t q (0 : Fin 1)) = ix3 b t q from funext fun a => Fin.ext (by
    match a with | ⟨0, _⟩ => rfl | ⟨1, _⟩ => rfl | ⟨2, _⟩ => rfl), p3_at]

/-- Gate `k`'s score at coordinates: the reference multiplies embedding first, the specification hidden state first. -/
theorem score_at (x0 : (⟨S2x512x256, .f32⟩ : BufTy).Contents (Elt Ideal)) (x1 : (⟨S4x1024x256, .f32⟩ : BufTy).Contents (Elt Ideal)) (x6 : (⟨S32000x1024, .f32⟩ : BufTy).Contents (Elt Ideal)) (b : Fin 2) (t : Fin 512) (q : Fin 32000) (k : Fin 4) :
    val_main_v44 (F := Ideal) x0 x1 x6 (ix4 b t q k)
      = Cert.Spec.score (Cert.Spec.hiddenArr (Cert.Spec.flatCtx x0) x1) x6 (pos b t) q k := by
  rw [val_main_v44_apply, val_main_v43_apply]
  unfold Cert.Spec.score
  refine Finset.sum_congr rfl fun d _ => ?_
  have el : lidx_main_v43 (idx_main_v44 (ix4 b t q k)) d = ix2 q d := funext fun a => Fin.ext (by
    match a with | ⟨0, _⟩ => rfl | ⟨1, _⟩ => rfl)
  have er : ridx_main_v43 (idx_main_v44 (ix4 b t q k)) d = ix4 b t k d := funext fun a => Fin.ext (by
    match a with | ⟨0, _⟩ => rfl | ⟨1, _⟩ => rfl | ⟨2, _⟩ => rfl | ⟨3, _⟩ => rfl)
  rw [el, er, hidden_at]
  exact mul_comm _ _

theorem ref_logits (x0 : (⟨S2x512x256, .f32⟩ : BufTy).Contents (Elt Ideal)) (x1 : (⟨S4x1024x256, .f32⟩ : BufTy).Contents (Elt Ideal))
    (x2 : (⟨S4x128x256, .f32⟩ : BufTy).Contents (Elt Ideal)) (x3 : (⟨S32000x128, .f32⟩ : BufTy).Contents (Elt Ideal))
    (x4 : (⟨S4x256, .f32⟩ : BufTy).Contents (Elt Ideal)) (x5 : (⟨S32000x4, .f32⟩ : BufTy).Contents (Elt Ideal))
    (x6 : (⟨S32000x1024, .f32⟩ : BufTy).Contents (Elt Ideal)) :
    val_main_v46 (F := Ideal) x0 x1 x2 x3 x4 x5 x6 = Cert.Spec.logits3 x0 x1 x2 x3 x4 x5 x6 := by
  funext i
  obtain ⟨b, t, q, rfl⟩ : ∃ (b : Fin 2) (t : Fin 512) (q : Fin 32000), i = ix3 b t q := ⟨i 0, i 1, i 2, eq_ix3 i⟩
  have e : ∀ k : Fin 4, idx_main_v46 (ix3 b t q) k = ix4 b t q k := fun k => funext fun a => Fin.ext (by
    match a with | ⟨0, _⟩ => rfl | ⟨1, _⟩ => rfl | ⟨2, _⟩ => rfl | ⟨3, _⟩ => rfl)
  rw [val_main_v46_apply, val_main_cst_5_apply, Fin.sum_univ_four, e 0, e 1, e 2, e 3]
  simp only [val_main_v45_apply, w0_at, w1_at, w2_at, w3_at, score_at, Ideal.ofBits_def, Ideal.ofBits_zero_f32, zero_add,
    Ideal.mulf_def]
  rfl

end Cert.ReferenceIdeal.RefLogits

end
-- ==== Proof.lean ====
/-
  A mixture-of-softmaxes head with a sigmoid tree of gates. For each of the 1024 positions (batch times time) and
  each of four gates, the context row is projected three ways: a hidden state (tanh of its product with the gate's
  [1024, 256] matrix), a context projection (tanh of its product with the gate's [128, 256] matrix) and a scalar gate
  bias. For a vocabulary entry the first three gates' logits — context projection against the entry's row of `v`, plus
  the gate bias, plus the entry's own bias — pass through the logistic function and weigh, as a two-level tree, the four
  scores "hidden state against the entry's embedding"; the softmax over the vocabulary follows.

  The kernel computes the projections in one pipelined region over four position tiles and the mixture in a second
  over (vocabulary tile, position tile), with a transposed bias table; the reference computes the same with einsums,
  the sigmoid spelled as 1 / (1 + exp (−x)), the four-term mixture as a sum from zero over a stacked axis, and the score
  products embedding first. On the extended reals these are one function of the arguments: a change of float format is
  the identity, the logistic function IS that quotient, and addition and multiplication are commutative and
  associative there, so no finiteness of the inputs is used. Both programs end with the same softmax operations.
-/
import proofs.«158760_j82824149336212_1_alg».proof.Defs
import proofs.«158760_j82824149336212_1_alg».proof.Proof.Gen.Kernel
import proofs.«158760_j82824149336212_1_alg».proof.Proof.Gen.Kernel.Skeleton
import proofs.«158760_j82824149336212_1_alg».proof.Proof.Gen.Kernel.Launch
import proofs.«158760_j82824149336212_1_alg».proof.Proof.Gen.Kernel.Points
import proofs.«158760_j82824149336212_1_alg».proof.Proof.Gen.Kernel.Frame
import proofs.«158760_j82824149336212_1_alg».proof.Proof.Gen.KernelIdeal
import proofs.«158760_j82824149336212_1_alg».proof.Proof.Gen.KernelIdeal.Skeleton
import proofs.«158760_j82824149336212_1_alg».proof.Proof.Gen.KernelIdeal.Launch
import proofs.«158760_j82824149336212_1_alg».proof.Proof.Gen.KernelIdeal.Points
import proofs.«158760_j82824149336212_1_alg».proof.Proof.Gen.KernelIdeal.Frame
import proofs.«158760_j82824149336212_1_alg».proof.Proof.Gen.ReferenceIdeal
import proofs.«158760_j82824149336212_1_alg».proof.Proof.Gen.Pre_finite_inputs
import proofs.«158760_j82824149336212_1_alg».proof.Proof.Gen.ReferenceIdeal.Run
import proofs.«158760_j82824149336212_1_alg».proof.Proof.Gen.ReferenceIdeal.Read
import proofs.«158760_j82824149336212_1_alg».proof.Proof.Spec
import proofs.«158760_j82824149336212_1_alg».proof.Proof.Softmax
import proofs.«158760_j82824149336212_1_alg».proof.Proof.KernelRun
import proofs.«158760_j82824149336212_1_alg».proof.Proof.KernelValue
import proofs.«158760_j82824149336212_1_alg».proof.Proof.RefTail
import proofs.«158760_j82824149336212_1_alg».proof.Proof.RefLogits
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a host program: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the softmax of the arguments' logit array. -/
theorem algebraic : Cert.algebraic_KernelIdeal_ReferenceIdeal := by
  intro m ρ m' ρ' _ hagree
  refine ⟨fun c => Cert.Softmax.softmax (Cert.Spec.logits3
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))), ?_, ?_⟩
  · exact (θ_run Cert.KernelIdeal.defs _ _).mono
      (fun r h c => ⟨(h c).1.trans (Cert.KernelIdeal.KernelValue.result_value m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v57_eq, Cert.ReferenceIdeal.RefTail.result_eq,
      Cert.ReferenceIdeal.RefLogits.ref_logits,
      (hagree c).1, (hagree c).2.1, (hagree c).2.2.1, (hagree c).2.2.2.1, (hagree c).2.2.2.2.1,
      (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
